-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256 : Shape := ⟨2, ![256, 256]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2048x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S2048x256 : Shape := ⟨2, ![2048, 256]⟩
abbrev S256x256 : Shape := ⟨2, ![256, 256]⟩
abbrev S256 : Shape := ⟨1, ![256]⟩
abbrev S_ : Shape := ⟨0, ![]⟩
abbrev S256x1 : Shape := ⟨2, ![256, 1]⟩
abbrev S256x768 : Shape := ⟨2, ![256, 768]⟩
abbrev S768 : Shape := ⟨1, ![768]⟩
abbrev S1x768 : Shape := ⟨2, ![1, 768]⟩
abbrev S2048x768 : Shape := ⟨2, ![2048, 768]⟩
abbrev S512x256 : Shape := ⟨2, ![512, 256]⟩
abbrev S512x768 : Shape := ⟨2, ![512, 768]⟩
abbrev S16384x32 : Shape := ⟨2, ![16384, 32]⟩
abbrev S32x16384 : Shape := ⟨2, ![32, 16384]⟩
abbrev S16384x1 : Shape := ⟨2, ![16384, 1]⟩
abbrev S16384x33 : Shape := ⟨2, ![16384, 33]⟩
abbrev S256x32 : Shape := ⟨2, ![256, 32]⟩
abbrev S32x256 : Shape := ⟨2, ![32, 256]⟩
abbrev S33x256 : Shape := ⟨2, ![33, 256]⟩
abbrev S32x2048 : Shape := ⟨2, ![32, 2048]⟩
abbrev S2048x33 : Shape := ⟨2, ![2048, 33]⟩
abbrev S256x2048 : Shape := ⟨2, ![256, 2048]⟩
abbrev S1x256 : Shape := ⟨2, ![1, 256]⟩
abbrev S2048x8x32 : Shape := ⟨3, ![2048, 8, 32]⟩
abbrev S2048x32x8 : Shape := ⟨3, ![2048, 32, 8]⟩

abbrev nBuf : Space → Nat
  | .hbm => 75
  | .vmem => 18
  | .smem => 0
  | _ => 0

abbrev bufTy : (tb : Table) → Fin (tcTables nBuf tb) → BufTy
  | .hbm, ⟨0, _⟩ => ⟨S2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .i32⟩
  | .hbm, ⟨10, _⟩ => ⟨S256, .i1⟩
  | .hbm, ⟨11, _⟩ => ⟨S256, .i1⟩
  | .hbm, ⟨12, _⟩ => ⟨S256, .i1⟩
  | .hbm, ⟨13, _⟩ => ⟨S256, .i1⟩
  | .hbm, ⟨14, _⟩ => ⟨S256, .i1⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x256, .f32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256x256, .f32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256x256, .f32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256, .f32⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S256, .f32⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S256, .f32⟩
  | .hbm, ⟨52, _⟩ => ⟨S256x768, .f32⟩
  | .hbm, ⟨53, _⟩ => ⟨S256x768, .bf16⟩
  | .hbm, ⟨54, _⟩ => ⟨S768, .f32⟩
  | .hbm, ⟨55, _⟩ => ⟨S256x256, .bf16⟩
  | .hbm, ⟨56, _⟩ => ⟨S1x768, .f32⟩
  | .hbm, ⟨57, _⟩ => ⟨S2048x768, .bf16⟩
  | .hbm, ⟨58, _⟩ => ⟨S2048x256, .bf16⟩
  | .hbm, ⟨59, _⟩ => ⟨S2048x256, .bf16⟩
  | .hbm, ⟨60, _⟩ => ⟨S2048x256, .bf16⟩
  | .hbm, ⟨61, _⟩ => ⟨S16384x32, .bf16⟩
  | .hbm, ⟨62, _⟩ => ⟨S16384x32, .bf16⟩
  | .hbm, ⟨63, _⟩ => ⟨S16384x32, .bf16⟩
  | .hbm, ⟨64, _⟩ => ⟨S32x16384, .bf16⟩
  | .hbm, ⟨65, _⟩ => ⟨S_, .bf16⟩
  | .hbm, ⟨66, _⟩ => ⟨S16384x1, .bf16⟩
  | .hbm, ⟨67, _⟩ => ⟨S16384x33, .bf16⟩
  | .hbm, ⟨68, _⟩ => ⟨S32x16384, .f32⟩
  | .hbm, ⟨69, _⟩ => ⟨S16384x32, .f32⟩
  | .hbm, ⟨70, _⟩ => ⟨S2048x8x32, .f32⟩
  | .hbm, ⟨71, _⟩ => ⟨S2048x32x8, .f32⟩
  | .hbm, ⟨72, _⟩ => ⟨S2048x256, .f32⟩
  | .hbm, ⟨73, _⟩ => ⟨S1x256, .f32⟩
  | .hbm, ⟨74, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S256x768, .bf16⟩
  | .local _ .vmem, ⟨3, _⟩ => ⟨S1x768, .f32⟩
  | .local _ .vmem, ⟨4, _⟩ => ⟨S512x768, .bf16⟩
  | .local _ .vmem, ⟨5, _⟩ => ⟨S512x768, .bf16⟩
  | .local _ .vmem, ⟨6, _⟩ => ⟨S256x32, .bf16⟩
  | .local _ .vmem, ⟨7, _⟩ => ⟨S256x32, .bf16⟩
  | .local _ .vmem, ⟨8, _⟩ => ⟨S32x16384, .bf16⟩
  | .local _ .vmem, ⟨9, _⟩ => ⟨S16384x33, .bf16⟩
  | .local _ .vmem, ⟨10, _⟩ => ⟨S32x256, .f32⟩
  | .local _ .vmem, ⟨11, _⟩ => ⟨S32x256, .f32⟩
  | .local _ .vmem, ⟨12, _⟩ => ⟨S512x256, .f32⟩
  | .local _ .vmem, ⟨13, _⟩ => ⟨S512x256, .f32⟩
  | .local _ .vmem, ⟨14, _⟩ => ⟨S256x256, .bf16⟩
  | .local _ .vmem, ⟨15, _⟩ => ⟨S1x256, .f32⟩
  | .local _ .vmem, ⟨16, _⟩ => ⟨S512x256, .f32⟩
  | .local _ .vmem, ⟨17, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_7 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_8 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_9 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_10 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_11 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x33 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x256_S256x256_S256x256_S256x768_d1 : Shape.Concatenates [S256x256, S256x256, S256x256] S256x768 1
  bitsLt_bf16_f32 : FTy.bits .bf16 < FTy.bits .f32
  concatenates_S256_S256_S256_S768_d0 : Shape.Concatenates [S256, S256, S256] S768 0
  shapeCasts_S768_S1x768 : S768.ShapeCasts S1x768
  inb_S512x256_S512x256_0_0 : ∀ a, (![0, 0] : Fin 2 → Nat) a + S512x256.size a ≤ S512x256.size a
  h_S512x256 : 0 < S512x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  packedbf16_S512x768_S512x768_0_0 : (Rect.unit (s := S512x768) ![0, 0] S512x768.size inb_S512x768_S512x768_0_0).PackedRows (EltTy.packing .bf16)
  slices_S2048x768_S2048x256_0_0 : S2048x768.Slices ![0, 0] S2048x256
  slices_S2048x768_S2048x256_0_256 : S2048x768.Slices ![0, 256] S2048x256
  slices_S2048x768_S2048x256_0_512 : S2048x768.Slices ![0, 512] S2048x256
  shapeCasts_S2048x256_S16384x32 : S2048x256.ShapeCasts S16384x32
  transposes_S16384x32_S32x16384_1_0 : S16384x32.Transposes [1, 0] S32x16384
  bcast_S_S16384x1 : S_.BroadcastsInDim S16384x1 (![] : Fin 0 → Fin S16384x1.rank)
  concatenates_S16384x32_S16384x1_S16384x33_d1 : Shape.Concatenates [S16384x32, S16384x1] S16384x33 1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x16384_S32x2048_0_0 : ∀ a, (![0, 0] : Fin 2 → Nat) a + S32x2048.size a ≤ S32x16384.size a
  h_S32x2048 : 0 < S32x2048.numel
  shapeCasts_S32x2048_S32x2048 : S32x2048.ShapeCasts S32x2048
  inb_S16384x33_S2048x33_0_0 : ∀ a, (![0, 0] : Fin 2 → Nat) a + S2048x33.size a ≤ S16384x33.size a
  h_S2048x33 : 0 < S2048x33.numel
  shapeCasts_S2048x33_S2048x33 : S2048x33.ShapeCasts S2048x33
  reduces_S256x2048_S256 : S256x2048.Reduces [1] S256
  shapeCasts_S256_S256x1 : S256.ShapeCasts S256x1
  broadcasts_S256x1_S256x2048 : S256x1.Broadcasts S256x2048
  transposes_S256x1_p1_0_S1x256 : S256x1.Transposes [1, 0] S1x256
  broadcasts_S1x256_S33x256 : S1x256.Broadcasts S33x256
  inb_S32x16384_S32x2048_0_2048 : ∀ a, (![0, 2048] : Fin 2 → Nat) a + S32x2048.size a ≤ S32x16384.size a
  inb_S16384x33_S2048x33_2048_0 : ∀ a, (![2048, 0] : Fin 2 → Nat) a + S2048x33.size a ≤ S16384x33.size a
  inb_S32x16384_S32x2048_0_4096 : ∀ a, (![0, 4096] : Fin 2 → Nat) a + S32x2048.size a ≤ S32x16384.size a
  inb_S16384x33_S2048x33_4096_0 : ∀ a, (![4096, 0] : Fin 2 → Nat) a + S2048x33.size a ≤ S16384x33.size a
  inb_S32x16384_S32x2048_0_6144 : ∀ a, (![0, 6144] : Fin 2 → Nat) a + S32x2048.size a ≤ S32x16384.size a
  inb_S16384x33_S2048x33_6144_0 : ∀ a, (![6144, 0] : Fin 2 → Nat) a + S2048x33.size a ≤ S16384x33.size a
  inb_S32x16384_S32x2048_0_8192 : ∀ a, (![0, 8192] : Fin 2 → Nat) a + S32x2048.size a ≤ S32x16384.size a
  inb_S16384x33_S2048x33_8192_0 : ∀ a, (![8192, 0] : Fin 2 → Nat) a + S2048x33.size a ≤ S16384x33.size a
  inb_S32x16384_S32x2048_0_10240 : ∀ a, (![0, 10240] : Fin 2 → Nat) a + S32x2048.size a ≤ S32x16384.size a
  inb_S16384x33_S2048x33_10240_0 : ∀ a, (![10240, 0] : Fin 2 → Nat) a + S2048x33.size a ≤ S16384x33.size a
  inb_S32x16384_S32x2048_0_12288 : ∀ a, (![0, 12288] : Fin 2 → Nat) a + S32x2048.size a ≤ S32x16384.size a
  inb_S16384x33_S2048x33_12288_0 : ∀ a, (![12288, 0] : Fin 2 → Nat) a + S2048x33.size a ≤ S16384x33.size a
  inb_S32x16384_S32x2048_0_14336 : ∀ a, (![0, 14336] : Fin 2 → Nat) a + S32x2048.size a ≤ S32x16384.size a
  inb_S16384x33_S2048x33_14336_0 : ∀ a, (![14336, 0] : Fin 2 → Nat) a + S2048x33.size a ≤ S16384x33.size a
  slices_S33x256_o0_0_S32x256 : S33x256.Slices ![0, 0] S32x256
  slices_S33x256_o32_0_S1x256 : S33x256.Slices ![32, 0] S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  transposes_S32x16384_S16384x32_1_0 : S32x16384.Transposes [1, 0] S16384x32
  shapeCasts_S16384x32_S2048x8x32 : S16384x32.ShapeCasts S2048x8x32
  transposes_S2048x8x32_S2048x32x8_0_2_1 : S2048x8x32.Transposes [0, 2, 1] S2048x32x8
  shapeCasts_S2048x32x8_S2048x256 : S2048x32x8.ShapeCasts S2048x256
  shapeCasts_S256_S1x256 : S256.ShapeCasts S1x256
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  gather_S256x256_S256x1_S256x256_0_1_n_n_1_1_2561_wf : GatherDims.WF S256x256 S256x1 S256x256 [0] [1] [] [1] [] 1 ![256, 1]
  gather_S256_S256x1_S256_n_0_n_n_0_1_1_wf : GatherDims.WF S256 S256x1 S256 [] [0] [] [0] [] 1 ![1]
  dot_S512x256_S256x768_S512x768_1_0_0_1_n_n_wf : DotDims.WF S512x256 S256x768 S512x768 [1] [0] [0] [1] [] []
  dot_S256x32_S32x2048_S256x2048_1_0_0_1_n_n_wf : DotDims.WF S256x32 S32x2048 S256x2048 [1] [0] [0] [1] [] []
  dot_S2048x33_S256x2048_S33x256_0_1_1_0_n_n_wf : DotDims.WF S2048x33 S256x2048 S33x256 [0] [1] [1] [0] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S2048x768.size a
  hwx0_3 : ∀ i : grid0.Coords, EltTy.bits .bf16 = 32 ∨ (Rect.block (s := S2048x768) S512x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32.size a ≤ S16384x32.size a
  hwx1_0 : ∀ i : grid1.Coords, EltTy.bits .bf16 = 32 ∨ (Rect.block (s := S16384x32) S256x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16384.size a ≤ S32x16384.size a
  hwx1_1 : ∀ i : grid1.Coords, EltTy.bits .bf16 = 32 ∨ (Rect.block (s := S32x16384) S32x16384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16384x33.size a ≤ S16384x33.size a
  hwx1_2 : ∀ i : grid1.Coords, EltTy.bits .bf16 = 32 ∨ (Rect.block (s := S16384x33) S16384x33.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x256.size a ≤ S32x16384.size a
  hwx1_3 : ∀ i : grid1.Coords, EltTy.bits .f32 = 32 ∨ (Rect.block (s := S32x16384) S32x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S2048x256.size a
  hwx2_0 : ∀ i : grid2.Coords, EltTy.bits .f32 = 32 ∨ (Rect.block (s := S2048x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S2048x256.size a
  hwx2_3 : ∀ i : grid2.Coords, EltTy.bits .f32 = 32 ∨ (Rect.block (s := S2048x256) S512x256.size (cc2_transform_3 i) (hinb2_3 i)).WholeWords (EltTy.packing .f32)

variable [Facts₀]

def gather_S256x256_S256x1_S256x256_0_1_n_n_1_1_2561 : GatherDims S256x256 S256x1 S256x256 where
  offsetDims := [0]
  collapsedSliceDims := [1]
  operandBatchingDims := []
  startIndicesBatchingDims := []
  startIndexMap := [1]
  indexVectorDim := 1
  sliceSizes := ![256, 1]
  wf := gather_S256x256_S256x1_S256x256_0_1_n_n_1_1_2561_wf
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf
def dot_S2048x33_S256x2048_S33x256_0_1_1_0_n_n : DotDims S2048x33 S256x2048 S33x256 where
  lhsContracting := [0]
  rhsContracting := [1]
  lhsNonContracting := [1]
  rhsNonContracting := [0]
  lhsBatch := []
  rhsBatch := []
  wf := dot_S2048x33_S256x2048_S33x256_0_1_1_0_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S32x16384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S16384x33.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S32x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x256 : Shape := ⟨2, ![2048, 256]⟩
abbrev S256x256 : Shape := ⟨2, ![256, 256]⟩
abbrev S256 : Shape := ⟨1, ![256]⟩
abbrev S1x256 : Shape := ⟨2, ![1, 256]⟩
abbrev S2048x8x32 : Shape := ⟨3, ![2048, 8, 32]⟩
abbrev S2048x32x8 : Shape := ⟨3, ![2048, 32, 8]⟩
abbrev S16384x32 : Shape := ⟨2, ![16384, 32]⟩
abbrev S_ : Shape := ⟨0, ![]⟩
abbrev S32x16384 : Shape := ⟨2, ![32, 16384]⟩
abbrev S16384x16384 : Shape := ⟨2, ![16384, 16384]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S2048x256, .f32⟩
  | .hbm, ⟨10, _⟩ => ⟨S1x256, .f32⟩
  | .hbm, ⟨11, _⟩ => ⟨S2048x256, .f32⟩
  | .hbm, ⟨12, _⟩ => ⟨S2048x256, .f32⟩
  | .hbm, ⟨13, _⟩ => ⟨S2048x8x32, .f32⟩
  | .hbm, ⟨14, _⟩ => ⟨S2048x32x8, .f32⟩
  | .hbm, ⟨15, _⟩ => ⟨S16384x32, .f32⟩
  | .hbm, ⟨16, _⟩ => ⟨S2048x256, .f32⟩
  | .hbm, ⟨17, _⟩ => ⟨S1x256, .f32⟩
  | .hbm, ⟨18, _⟩ => ⟨S2048x256, .f32⟩
  | .hbm, ⟨19, _⟩ => ⟨S2048x256, .f32⟩
  | .hbm, ⟨20, _⟩ => ⟨S2048x8x32, .f32⟩
  | .hbm, ⟨21, _⟩ => ⟨S2048x32x8, .f32⟩
  | .hbm, ⟨22, _⟩ => ⟨S16384x32, .f32⟩
  | .hbm, ⟨23, _⟩ => ⟨S2048x256, .f32⟩
  | .hbm, ⟨24, _⟩ => ⟨S1x256, .f32⟩
  | .hbm, ⟨25, _⟩ => ⟨S2048x256, .f32⟩
  | .hbm, ⟨26, _⟩ => ⟨S2048x256, .f32⟩
  | .hbm, ⟨27, _⟩ => ⟨S2048x8x32, .f32⟩
  | .hbm, ⟨28, _⟩ => ⟨S2048x32x8, .f32⟩
  | .hbm, ⟨29, _⟩ => ⟨S16384x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1, .f32⟩
  | .hbm, ⟨44, _⟩ => ⟨S16384x16384, .f32⟩
  | .hbm, ⟨45, _⟩ => ⟨S16384x16384, .f32⟩
  | .hbm, ⟨46, _⟩ => ⟨S16384x16384, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x16384, .f32⟩
  | .hbm, ⟨51, _⟩ => ⟨S16384x16384, .f32⟩
  | .hbm, ⟨52, _⟩ => ⟨S16384x32, .f32⟩
  | .hbm, ⟨53, _⟩ => ⟨S2048x8x32, .f32⟩
  | .hbm, ⟨54, _⟩ => ⟨S2048x32x8, .f32⟩
  | .hbm, ⟨55, _⟩ => ⟨S2048x256, .f32⟩
  | .hbm, ⟨56, _⟩ => ⟨S2048x256, .f32⟩
  | .hbm, ⟨57, _⟩ => ⟨S1x256, .f32⟩
  | .hbm, ⟨58, _⟩ => ⟨S2048x256, .f32⟩
  | .hbm, ⟨59, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  shapeCasts_S2048x256_S2048x8x32 : S2048x256.ShapeCasts S2048x8x32
  transposes_S2048x8x32_S2048x32x8_0_2_1 : S2048x8x32.Transposes [0, 2, 1] S2048x32x8
  shapeCasts_S2048x32x8_S16384x32 : S2048x32x8.ShapeCasts S16384x32
  transposes_S16384x32_S32x16384_1_0 : S16384x32.Transposes [1, 0] S32x16384
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  shapeCasts_S16384x32_S2048x8x32 : S16384x32.ShapeCasts S2048x8x32
  shapeCasts_S2048x32x8_S2048x256 : S2048x32x8.ShapeCasts S2048x256
  dot_S2048x256_S256x256_S2048x256_1_0_0_1_n_n_wf : DotDims.WF S2048x256 S256x256 S2048x256 [1] [0] [0] [1] [] []
  dot_S16384x32_S32x16384_S16384x16384_1_0_0_1_n_n_wf : DotDims.WF S16384x32 S32x16384 S16384x16384 [1] [0] [0] [1] [] []
  dot_S16384x16384_S16384x32_S16384x32_1_0_0_1_n_n_wf : DotDims.WF S16384x16384 S16384x32 S16384x32 [1] [0] [0] [1] [] []

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.KDefs.lean ====
import proofs.«417944_j30408368455794_3_alg».proof.Proof.Gen.Kernel.Skeleton
import proofs.«417944_j30408368455794_3_alg».proof.Proof.Gen.Kernel.Points
import proofs.«417944_j30408368455794_3_alg».proof.Proof.KernelLaunchP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three pipelines' proof data, at the contents `V` a region is entered with

The program is three pallas_calls among host operations: a projection `x · W + b` over four row blocks of 512
rows (region 0), the attention over 64 blocks of 256 query rows against the whole key and value arrays, its
softmax accumulated over eight key chunks of 2048 (region 1), and a second projection (region 2). Each body
loads its input blocks through literal rectangles, computes, and stores its output block whole, so each region's
data is: the arrays as the region finds them; after the body at point `t`, every input window's buffer at its block
and the output window's buffer at the body's value of the input blocks.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the first projection -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x256 := Rect.unit (s := S512x256) ![0, 0] S512x256.size inb_S512x256_S512x256_0_0
abbrev r0_1 : Rect S256x768 := Rect.unit (s := S256x768) ![0, 0] S256x768.size inb_S256x768_S256x768_0_0
abbrev r0_2 : Rect S1x768 := Rect.unit (s := S1x768) ![0, 0] S1x768.size inb_S1x768_S1x768_0_0
abbrev r0_3 : Rect S512x768 := Rect.unit (s := S512x768) ![0, 0] S512x768.size inb_S512x768_S512x768_0_0

/-- The output buffer after the body: the 512 rows' products with the weight block plus the bias row. -/
def out0_3 (x0 : Vec F S512x256 .f32) (x1 : Vec F S256x768 .bf16) (x2 : Vec F S1x768 .f32) : Vec F S512x768 .bf16 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the attention -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, whole. -/
abbrev r1_q : Rect S256x32 := Rect.unit (s := S256x32) ![0, 0] S256x32.size inb_S256x32_S256x32_0_0
/-- The eight key chunks: columns `2048·j … 2048·j + 2047` of the transposed key array. -/
abbrev r1_k0 : Rect S32x16384 := Rect.unit (s := S32x16384) ![0, 0] S32x2048.size inb_S32x16384_S32x2048_0_0
abbrev r1_k1 : Rect S32x16384 := Rect.unit (s := S32x16384) ![0, 2048] S32x2048.size inb_S32x16384_S32x2048_0_2048
abbrev r1_k2 : Rect S32x16384 := Rect.unit (s := S32x16384) ![0, 4096] S32x2048.size inb_S32x16384_S32x2048_0_4096
abbrev r1_k3 : Rect S32x16384 := Rect.unit (s := S32x16384) ![0, 6144] S32x2048.size inb_S32x16384_S32x2048_0_6144
abbrev r1_k4 : Rect S32x16384 := Rect.unit (s := S32x16384) ![0, 8192] S32x2048.size inb_S32x16384_S32x2048_0_8192
abbrev r1_k5 : Rect S32x16384 := Rect.unit (s := S32x16384) ![0, 10240] S32x2048.size inb_S32x16384_S32x2048_0_10240
abbrev r1_k6 : Rect S32x16384 := Rect.unit (s := S32x16384) ![0, 12288] S32x2048.size inb_S32x16384_S32x2048_0_12288
abbrev r1_k7 : Rect S32x16384 := Rect.unit (s := S32x16384) ![0, 14336] S32x2048.size inb_S32x16384_S32x2048_0_14336
/-- The eight value chunks: rows `2048·j … 2048·j + 2047` of the value array with its column of ones. -/
abbrev r1_v0 : Rect S16384x33 := Rect.unit (s := S16384x33) ![0, 0] S2048x33.size inb_S16384x33_S2048x33_0_0
abbrev r1_v1 : Rect S16384x33 := Rect.unit (s := S16384x33) ![2048, 0] S2048x33.size inb_S16384x33_S2048x33_2048_0
abbrev r1_v2 : Rect S16384x33 := Rect.unit (s := S16384x33) ![4096, 0] S2048x33.size inb_S16384x33_S2048x33_4096_0
abbrev r1_v3 : Rect S16384x33 := Rect.unit (s := S16384x33) ![6144, 0] S2048x33.size inb_S16384x33_S2048x33_6144_0
abbrev r1_v4 : Rect S16384x33 := Rect.unit (s := S16384x33) ![8192, 0] S2048x33.size inb_S16384x33_S2048x33_8192_0
abbrev r1_v5 : Rect S16384x33 := Rect.unit (s := S16384x33) ![10240, 0] S2048x33.size inb_S16384x33_S2048x33_10240_0
abbrev r1_v6 : Rect S16384x33 := Rect.unit (s := S16384x33) ![12288, 0] S2048x33.size inb_S16384x33_S2048x33_12288_0
abbrev r1_v7 : Rect S16384x33 := Rect.unit (s := S16384x33) ![14336, 0] S2048x33.size inb_S16384x33_S2048x33_14336_0
abbrev r1_o : Rect S32x256 := Rect.unit (s := S32x256) ![0, 0] S32x256.size inb_S32x256_S32x256_0_0

/-! The body's values in the order the body computes them: the scaled queries; after chunks 0–1 the running
    maximum, the last rescale factor, the accumulator after chunk 0 and chunk 1's weights; after chunks 2–3 and 4–5
    the running maximum and the accumulator; chunk 6's value rows and scores. -/
def a1_v5 (x0 : Vec F S256x32 .bf16) : FVec F S256x32 .bf16 := k1_pay2 (View.ld x0 r1_q)
def a1_v26 (x0 : Vec F S256x32 .bf16) (x1 : Vec F S32x16384 .bf16) (x2 : Vec F S16384x33 .bf16) : FVec F S33x256 .f32 :=
  k1_pay6 (View.ld x0 r1_q) (View.ld x1 r1_k0) (View.ld x2 r1_v0)
def a1_v30 (x2 : Vec F S16384x33 .bf16) : FVec F S2048x33 .bf16 := k1_pay7 (View.ld x2 r1_v1)
def a1_v34 (x0 : Vec F S256x32 .bf16) (x1 : Vec F S32x16384 .bf16) : FVec F S256x1 .f32 :=
  k1_pay9 (View.ld x0 r1_q) (View.ld x1 r1_k0) (View.ld x1 r1_k1)
def a1_v36 (x0 : Vec F S256x32 .bf16) (x1 : Vec F S32x16384 .bf16) : FVec F S256x1 .f32 :=
  k1_pay10 (View.ld x0 r1_q) (View.ld x1 r1_k0) (View.ld x1 r1_k1)
def a1_v40 (x0 : Vec F S256x32 .bf16) (x1 : Vec F S32x16384 .bf16) : FVec F S256x2048 .bf16 :=
  k1_pay11 (View.ld x0 r1_q) (View.ld x1 r1_k0) (View.ld x1 r1_k1)
def a1_v72 (x0 : Vec F S256x32 .bf16) (x1 : Vec F S32x16384 .bf16) : FVec F S256x1 .f32 :=
  k1_pay15 (a1_v5 x0) (a1_v34 x0 x1) (View.ld x1 r1_k2) (View.ld x1 r1_k3)
def a1_v83 (x0 : Vec F S256x32 .bf16) (x1 : Vec F S32x16384 .bf16) (x2 : Vec F S16384x33 .bf16) : FVec F S33x256 .f32 :=
  k1_pay16 (a1_v5 x0) (a1_v26 x0 x1 x2) (a1_v30 x2) (a1_v34 x0 x1) (a1_v36 x0 x1) (a1_v40 x0 x1)
    (View.ld x1 r1_k2) (View.ld x2 r1_v2) (View.ld x1 r1_k3) (View.ld x2 r1_v3)
def a1_v110 (x0 : Vec F S256x32 .bf16) (x1 : Vec F S32x16384 .bf16) : FVec F S256x1 .f32 :=
  k1_pay20 (a1_v5 x0) (a1_v72 x0 x1) (View.ld x1 r1_k4) (View.ld x1 r1_k5)
def a1_v121 (x0 : Vec F S256x32 .bf16) (x1 : Vec F S32x16384 .bf16) (x2 : Vec F S16384x33 .bf16) : FVec F S33x256 .f32 :=
  k1_pay21 (a1_v5 x0) (a1_v72 x0 x1) (a1_v83 x0 x1 x2) (View.ld x1 r1_k4) (View.ld x2 r1_v4) (View.ld x1 r1_k5) (View.ld x2 r1_v5)
def a1_v125 (x2 : Vec F S16384x33 .bf16) : FVec F S2048x33 .bf16 := k1_pay22 (View.ld x2 r1_v6)
def a1_v126 (x0 : Vec F S256x32 .bf16) (x1 : Vec F S32x16384 .bf16) : FVec F S256x2048 .f32 :=
  k1_pay23 (a1_v5 x0) (View.ld x1 r1_k6)

/-- The output buffer after the body: the accumulator's 32 value rows over its row of weight sums. -/
def out1_3 (x0 : Vec F S256x32 .bf16) (x1 : Vec F S32x16384 .bf16) (x2 : Vec F S16384x33 .bf16) : Vec F S32x256 .f32 :=
  View.canon [⟨r1_o, k1_pay1 (a1_v5 x0) (a1_v110 x0 x1) (a1_v121 x0 x1 x2) (a1_v125 x2) (a1_v126 x0 x1)
    (View.ld x1 r1_k7) (View.ld x2 r1_v7)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the second projection -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x256 := Rect.unit (s := S512x256) ![0, 0] S512x256.size inb_S512x256_S512x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0
abbrev r2_3 : Rect S512x256 := Rect.unit (s := S512x256) ![0, 0] S512x256.size inb_S512x256_S512x256_0_0

def out2_3 (x0 : Vec F S512x256 .f32) (x1 : Vec F S256x256 .bf16) (x2 : Vec F S1x256 .f32) : Vec F S512x256 .f32 :=
  View.canon [⟨r2_3, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.KReg02.lean ====
import proofs.«417944_j30408368455794_3_alg».proof.Proof.KDefs

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the first projection, at the entry contents `V` -/

/-! ## The windows' blocks -/

/-- Input window 0's current staging buffer holds its block at every point, fetched there or not, for any proof
    data whose array is `V`'s (`hA`) and whose body leaves the block in place (`hafter`): where the window is not
    fetched its block index has not moved, so the previous point's block is this point's. The window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The body's one store is the whole buffer, so it covers it. -/
theorem cover0_3 (p0 : Vec F S512x768 .bf16) (y : S512x768.Idx) :
    ∃ pc ∈ ([⟨r0_3, p0⟩] : List (View.Piece (Elt F) S512x768 .bf16)), y ∈ pc.1.set :=
  View.cover_of_tiled [⟨r0_3, p0⟩] S512x768.size (by rfl) y

/-! ## The body's triple -/

set_option maxHeartbeats 1000000 in
/-- The kernel body on whole staging memrefs, the inputs' at read contents `x0`, `x1`, `x2` and the output's at
    anything, runs to the continuation holding the inputs' as they were and the output's at `out0_3` of the inputs':
    the printed function is its skeleton, three loads of the inputs, one load of the output whose value is never used,
    and one store of the whole output buffer. -/
theorem sound_kernel0 (c : Dev nD) (E : Set ℕ) (i : grid0.Coords) (arg1 : Memref sig .tc .vmem S512x256 .f32) (harg1 : arg1.IsWhole)
    (arg2 : Memref sig .tc .vmem S256x768 .bf16) (harg2 : arg2.IsWhole) (arg3 : Memref sig .tc .vmem S1x768 .f32) (harg3 : arg3.IsWhole)
    (arg4 : Memref sig .tc .vmem S512x768 .bf16) (harg4 : arg4.IsWhole)
    (x0 : Vec F S512x256 .f32) (x1 : Vec F S256x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers under the region's proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four windows' current
    staging buffers, one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0`, `before0_1`, `before0_2`), so
    `sound_kernel0` applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 2: the second projection, at the entry contents `V` -/

/-! ## The windows' blocks -/

/-- Input window 0's current staging buffer holds its block at every point, fetched there or not, for any proof
    data whose array is `V`'s (`hA`) and whose body leaves the block in place (`hafter`): where the window is not
    fetched its block index has not moved, so the previous point's block is this point's. The window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The body's one store is the whole buffer, so it covers it. -/
theorem cover2_3 (p0 : Vec F S512x256 .f32) (y : S512x256.Idx) :
    ∃ pc ∈ ([⟨r2_3, p0⟩] : List (View.Piece (Elt F) S512x256 .f32)), y ∈ pc.1.set :=
  View.cover_of_tiled [⟨r2_3, p0⟩] S512x256.size (by rfl) y

/-! ## The body's triple -/

set_option maxHeartbeats 1000000 in
/-- The kernel body on whole staging memrefs, the inputs' at read contents `x0`, `x1`, `x2` and the output's at
    anything, runs to the continuation holding the inputs' as they were and the output's at `out2_3` of the inputs':
    the printed function is its skeleton, three loads of the inputs, one load of the output whose value is never used,
    and one store of the whole output buffer. -/
theorem sound_kernel2 (c : Dev nD) (E : Set ℕ) (i : grid2.Coords) (arg1 : Memref sig .tc .vmem S512x256 .f32) (harg1 : arg1.IsWhole)
    (arg2 : Memref sig .tc .vmem S256x256 .bf16) (harg2 : arg2.IsWhole) (arg3 : Memref sig .tc .vmem S1x256 .f32) (harg3 : arg3.IsWhole)
    (arg4 : Memref sig .tc .vmem S512x256 .f32) (harg4 : arg4.IsWhole)
    (x0 : Vec F S512x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The inputs' buffers under the region's proof data -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what the core owes, and the four windows' current
    staging buffers, one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`, `before2_2`), so
    `sound_kernel2` applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg1.lean ====
import proofs.«417944_j30408368455794_3_alg».proof.Proof.KDefs

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the attention body, at the entry contents `V`

## The windows' blocks -/

/-- Input window 0's current staging buffer holds its block at every point, fetched there or not, for any proof
    data whose array is `V`'s (`hA`) and whose body leaves the block in place (`hafter`): unfetched, the block index
    has not moved, so the buffer still holds the previous point's block, which is this point's; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved, so the buffer still holds the previous point's block, which is this point's; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved, so the buffer still holds the previous point's block, which is this point's; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one store is of the whole buffer, so it covers it. -/
theorem cover1_3 (p0 : Vec F S32x256 .f32) (y : S32x256.Idx) :
    ∃ pc ∈ ([⟨r1_o, p0⟩] : List (View.Piece (Elt F) S32x256 .f32)), y ∈ pc.1.set :=
  View.cover_of_tiled [⟨r1_o, p0⟩] S32x256.size (by rfl) y

/-! ## The body's triple -/

set_option maxHeartbeats 4000000 in
/-- The kernel body on whole staging memrefs, the inputs' at read contents `x0 x1 x2` and the output's at anything,
    runs to the continuation holding the inputs' as they were and the output's at `out1_3` of the inputs': the printed
    function and its three parts are their skeletons, whose loads read the inputs through the named rectangles and
    whose one store writes the whole output buffer. -/
theorem sound_kernel1 (c : Dev nD) (E : Set ℕ) (i : grid1.Coords)
    (arg1 : Memref sig .tc .vmem S256x32 .bf16) (harg1 : arg1.IsWhole)
    (arg2 : Memref sig .tc .vmem S32x16384 .bf16) (harg2 : arg2.IsWhole)
    (arg3 : Memref sig .tc .vmem S16384x33 .bf16) (harg3 : arg3.IsWhole)
    (arg4 : Memref sig .tc .vmem S32x256 .f32) (harg4 : arg4.IsWhole)
    (x0 : Vec F S256x32 .bf16) (x1 : Vec F S32x16384 .bf16) (x2 : Vec F S16384x33 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs at their blocks -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.KFold.lean ====
import proofs.«417944_j30408368455794_3_alg».proof.Proof.KDefs

/-!
# The buffers' contents at every boundary between @main's items

@main is: a stretch of host operations (the weights' columns permuted and joined, the biases likewise), region 0,
a stretch (the projection cut into queries, keys and values, the keys transposed, a column of ones joined to the
values), region 1, a stretch (the attention transposed back and its heads joined), region 2. Between two items every
unscoped buffer of a core holds a known function of the launch memory: after a host stretch the stretch's
operations applied, after a region that region's arrays at what its write-backs leave and every other buffer as
the region found it.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: what region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: the contents at the return. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.Kernel.Hand

end
-- ==== Proof.KArgs.lean ====
import proofs.«417944_j30408368455794_3_alg».proof.Proof.KFold
import Idealize.ShloMosaic.Lib.StableHlo.Run

/-!
# The arguments end as launched

No host operation writes an argument and no region's output window is an argument's array, so at an argument's
buffer the fold of the contents through @main walks back to the launch memory: a host stretch leaves a buffer none
of its operations writes; a region leaves every buffer that is not one of its arrays, and an input window's array too.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A host stretch leaves a buffer that none of its operations writes: each operation's written reference is
    compared with the buffer's, by name. -/
local macro "not_written" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.quaternary_writes, StableHlo.reshape_writes,
    StableHlo.binaryIndexed_writes, StableHlo.unaryIndexed_writes, StableHlo.nary_writes, Finset.mem_singleton]
  repeat' apply And.intro
  all_goals exact StableHlo.devRef_ne_of_ne (by decide)))

theorem W1_keep_arg0 (c : Dev nD) : W1 m ρ c (Proc.devRef .tc main_arg0) = W0 m ρ c (Proc.devRef .tc main_arg0) := by not_written
theorem W3_keep_arg0 (c : Dev nD) : W3 m ρ c (Proc.devRef .tc main_arg0) = W2 m ρ c (Proc.devRef .tc main_arg0) := by not_written
theorem W5_keep_arg0 (c : Dev nD) : W5 m ρ c (Proc.devRef .tc main_arg0) = W4 m ρ c (Proc.devRef .tc main_arg0) := by not_written
theorem W1_keep_arg1 (c : Dev nD) : W1 m ρ c (Proc.devRef .tc main_arg1) = W0 m ρ c (Proc.devRef .tc main_arg1) := by not_written
theorem W3_keep_arg1 (c : Dev nD) : W3 m ρ c (Proc.devRef .tc main_arg1) = W2 m ρ c (Proc.devRef .tc main_arg1) := by not_written
theorem W5_keep_arg1 (c : Dev nD) : W5 m ρ c (Proc.devRef .tc main_arg1) = W4 m ρ c (Proc.devRef .tc main_arg1) := by not_written
theorem W1_keep_arg2 (c : Dev nD) : W1 m ρ c (Proc.devRef .tc main_arg2) = W0 m ρ c (Proc.devRef .tc main_arg2) := by not_written
theorem W3_keep_arg2 (c : Dev nD) : W3 m ρ c (Proc.devRef .tc main_arg2) = W2 m ρ c (Proc.devRef .tc main_arg2) := by not_written
theorem W5_keep_arg2 (c : Dev nD) : W5 m ρ c (Proc.devRef .tc main_arg2) = W4 m ρ c (Proc.devRef .tc main_arg2) := by not_written
theorem W1_keep_arg3 (c : Dev nD) : W1 m ρ c (Proc.devRef .tc main_arg3) = W0 m ρ c (Proc.devRef .tc main_arg3) := by not_written
theorem W3_keep_arg3 (c : Dev nD) : W3 m ρ c (Proc.devRef .tc main_arg3) = W2 m ρ c (Proc.devRef .tc main_arg3) := by not_written
theorem W5_keep_arg3 (c : Dev nD) : W5 m ρ c (Proc.devRef .tc main_arg3) = W4 m ρ c (Proc.devRef .tc main_arg3) := by not_written
theorem W1_keep_arg4 (c : Dev nD) : W1 m ρ c (Proc.devRef .tc main_arg4) = W0 m ρ c (Proc.devRef .tc main_arg4) := by not_written
theorem W3_keep_arg4 (c : Dev nD) : W3 m ρ c (Proc.devRef .tc main_arg4) = W2 m ρ c (Proc.devRef .tc main_arg4) := by not_written
theorem W5_keep_arg4 (c : Dev nD) : W5 m ρ c (Proc.devRef .tc main_arg4) = W4 m ρ c (Proc.devRef .tc main_arg4) := by not_written
theorem W1_keep_arg5 (c : Dev nD) : W1 m ρ c (Proc.devRef .tc main_arg5) = W0 m ρ c (Proc.devRef .tc main_arg5) := by not_written
theorem W3_keep_arg5 (c : Dev nD) : W3 m ρ c (Proc.devRef .tc main_arg5) = W2 m ρ c (Proc.devRef .tc main_arg5) := by not_written
theorem W5_keep_arg5 (c : Dev nD) : W5 m ρ c (Proc.devRef .tc main_arg5) = W4 m ρ c (Proc.devRef .tc main_arg5) := by not_written
theorem W1_keep_arg6 (c : Dev nD) : W1 m ρ c (Proc.devRef .tc main_arg6) = W0 m ρ c (Proc.devRef .tc main_arg6) := by not_written
theorem W3_keep_arg6 (c : Dev nD) : W3 m ρ c (Proc.devRef .tc main_arg6) = W2 m ρ c (Proc.devRef .tc main_arg6) := by not_written
theorem W5_keep_arg6 (c : Dev nD) : W5 m ρ c (Proc.devRef .tc main_arg6) = W4 m ρ c (Proc.devRef .tc main_arg6) := by not_written
theorem W1_keep_arg7 (c : Dev nD) : W1 m ρ c (Proc.devRef .tc main_arg7) = W0 m ρ c (Proc.devRef .tc main_arg7) := by not_written
theorem W3_keep_arg7 (c : Dev nD) : W3 m ρ c (Proc.devRef .tc main_arg7) = W2 m ρ c (Proc.devRef .tc main_arg7) := by not_written
theorem W5_keep_arg7 (c : Dev nD) : W5 m ρ c (Proc.devRef .tc main_arg7) = W4 m ρ c (Proc.devRef .tc main_arg7) := by not_written
theorem W1_keep_arg8 (c : Dev nD) : W1 m ρ c (Proc.devRef .tc main_arg8) = W0 m ρ c (Proc.devRef .tc main_arg8) := by not_written
theorem W3_keep_arg8 (c : Dev nD) : W3 m ρ c (Proc.devRef .tc main_arg8) = W2 m ρ c (Proc.devRef .tc main_arg8) := by not_written
theorem W5_keep_arg8 (c : Dev nD) : W5 m ρ c (Proc.devRef .tc main_arg8) = W4 m ρ c (Proc.devRef .tc main_arg8) := by not_written

/-! The input `x` is region 0's first window's array (an input window's array is as the region found it); the other
    arguments are no region's array. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_keep_arg0 m ρ c
    _ = W3 m ρ c (Proc.devRef .tc main_arg0) := W4_of_ne m ρ c main_arg0 (by decide)
    _ = W2 m ρ c (Proc.devRef .tc main_arg0) := W3_keep_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep_arg0 m ρ c
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_keep_arg1 m ρ c
    _ = W3 m ρ c (Proc.devRef .tc main_arg1) := W4_of_ne m ρ c main_arg1 (by decide)
    _ = W2 m ρ c (Proc.devRef .tc main_arg1) := W3_keep_arg1 m ρ c
    _ = W1 m ρ c (Proc.devRef .tc main_arg1) := W2_of_ne m ρ c main_arg1 (by decide)
    _ = W0 m ρ c (Proc.devRef .tc main_arg1) := W1_keep_arg1 m ρ c
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keep_arg2 m ρ c
    _ = W3 m ρ c (Proc.devRef .tc main_arg2) := W4_of_ne m ρ c main_arg2 (by decide)
    _ = W2 m ρ c (Proc.devRef .tc main_arg2) := W3_keep_arg2 m ρ c
    _ = W1 m ρ c (Proc.devRef .tc main_arg2) := W2_of_ne m ρ c main_arg2 (by decide)
    _ = W0 m ρ c (Proc.devRef .tc main_arg2) := W1_keep_arg2 m ρ c
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_keep_arg3 m ρ c
    _ = W3 m ρ c (Proc.devRef .tc main_arg3) := W4_of_ne m ρ c main_arg3 (by decide)
    _ = W2 m ρ c (Proc.devRef .tc main_arg3) := W3_keep_arg3 m ρ c
    _ = W1 m ρ c (Proc.devRef .tc main_arg3) := W2_of_ne m ρ c main_arg3 (by decide)
    _ = W0 m ρ c (Proc.devRef .tc main_arg3) := W1_keep_arg3 m ρ c
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_keep_arg4 m ρ c
    _ = W3 m ρ c (Proc.devRef .tc main_arg4) := W4_of_ne m ρ c main_arg4 (by decide)
    _ = W2 m ρ c (Proc.devRef .tc main_arg4) := W3_keep_arg4 m ρ c
    _ = W1 m ρ c (Proc.devRef .tc main_arg4) := W2_of_ne m ρ c main_arg4 (by decide)
    _ = W0 m ρ c (Proc.devRef .tc main_arg4) := W1_keep_arg4 m ρ c
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_keep_arg5 m ρ c
    _ = W3 m ρ c (Proc.devRef .tc main_arg5) := W4_of_ne m ρ c main_arg5 (by decide)
    _ = W2 m ρ c (Proc.devRef .tc main_arg5) := W3_keep_arg5 m ρ c
    _ = W1 m ρ c (Proc.devRef .tc main_arg5) := W2_of_ne m ρ c main_arg5 (by decide)
    _ = W0 m ρ c (Proc.devRef .tc main_arg5) := W1_keep_arg5 m ρ c
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_keep_arg6 m ρ c
    _ = W3 m ρ c (Proc.devRef .tc main_arg6) := W4_of_ne m ρ c main_arg6 (by decide)
    _ = W2 m ρ c (Proc.devRef .tc main_arg6) := W3_keep_arg6 m ρ c
    _ = W1 m ρ c (Proc.devRef .tc main_arg6) := W2_of_ne m ρ c main_arg6 (by decide)
    _ = W0 m ρ c (Proc.devRef .tc main_arg6) := W1_keep_arg6 m ρ c
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_keep_arg7 m ρ c
    _ = W3 m ρ c (Proc.devRef .tc main_arg7) := W4_of_ne m ρ c main_arg7 (by decide)
    _ = W2 m ρ c (Proc.devRef .tc main_arg7) := W3_keep_arg7 m ρ c
    _ = W1 m ρ c (Proc.devRef .tc main_arg7) := W2_of_ne m ρ c main_arg7 (by decide)
    _ = W0 m ρ c (Proc.devRef .tc main_arg7) := W1_keep_arg7 m ρ c
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_keep_arg8 m ρ c
    _ = W3 m ρ c (Proc.devRef .tc main_arg8) := W4_of_ne m ρ c main_arg8 (by decide)
    _ = W2 m ρ c (Proc.devRef .tc main_arg8) := W3_keep_arg8 m ρ c
    _ = W1 m ρ c (Proc.devRef .tc main_arg8) := W2_of_ne m ρ c main_arg8 (by decide)
    _ = W0 m ρ c (Proc.devRef .tc main_arg8) := W1_keep_arg8 m ρ c
    _ = m ((c : Thread nD τ).loc main_arg8) := rfl

end Cert.Kernel.Hand

end
-- ==== Proof.KRun.lean ====
import proofs.«417944_j30408368455794_3_alg».proof.Proof.KReg02
import proofs.«417944_j30408368455794_3_alg».proof.Proof.KReg1
import proofs.«417944_j30408368455794_3_alg».proof.Proof.KArgs

/-!
# The run of @main: three regions among three host stretches

@main is six segments: a host stretch and a region, three times. Each host stretch runs from the contents at its
boundary to its operations applied to them; each region from its entry contents to its arrays at what its
write-backs leave. Chained from the launch memory they end with every unscoped buffer of every core at the last
boundary's contents `W6`: read at an argument's buffer that is the launch contents (the frame), read at a result's
buffer it is what the value lemmas compute.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W6`, the generator register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0 as a segment: entered with every unscoped buffer at `W1`, left with them at `W2`. Its arrays are split
    out of the unscoped buffers at entry and put back at what the pipeline leaves at exit; the generator register goes
    into the region's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its arrays are split
    out of the unscoped buffers at entry and put back at what the pipeline leaves at exit; the generator register goes
    into the region's invariant and comes back; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its arrays are split
    out of the unscoped buffers at entry and put back at what the pipeline leaves at exit; the generator register goes
    into the region's invariant and comes back; nothing is owed; the body has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and ends with
    every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: the run ends with every argument's buffer at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)
    (run_all m ρ)

end Cert.Kernel.Hand

end
-- ==== Proof.KIDefs.lean ====
import proofs.«417944_j30408368455794_3_alg».proof.Proof.Gen.KernelIdeal.Skeleton
import proofs.«417944_j30408368455794_3_alg».proof.Proof.Gen.KernelIdeal.Points
import proofs.«417944_j30408368455794_3_alg».proof.Proof.KernelIdealLaunchP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three pipelines' proof data, at the contents `V` a region is entered with

The program is three pallas_calls among host operations: a projection `x · W + b` over four row blocks of 512
rows (region 0), the attention over 64 blocks of 256 query rows against the whole key and value arrays, its
softmax accumulated over eight key chunks of 2048 (region 1), and a second projection (region 2). Each body
loads its input blocks through literal rectangles, computes, and stores its output block whole, so each region's
data is: the arrays as the region finds them; after the body at point `t`, every input window's buffer at its block
and the output window's buffer at the body's value of the input blocks.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the first projection -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x256 := Rect.unit (s := S512x256) ![0, 0] S512x256.size inb_S512x256_S512x256_0_0
abbrev r0_1 : Rect S256x768 := Rect.unit (s := S256x768) ![0, 0] S256x768.size inb_S256x768_S256x768_0_0
abbrev r0_2 : Rect S1x768 := Rect.unit (s := S1x768) ![0, 0] S1x768.size inb_S1x768_S1x768_0_0
abbrev r0_3 : Rect S512x768 := Rect.unit (s := S512x768) ![0, 0] S512x768.size inb_S512x768_S512x768_0_0

/-- The output buffer after the body: the 512 rows' products with the weight block plus the bias row. -/
def out0_3 (x0 : Vec F S512x256 .f32) (x1 : Vec F S256x768 .bf16) (x2 : Vec F S1x768 .f32) : Vec F S512x768 .bf16 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the attention -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, whole. -/
abbrev r1_q : Rect S256x32 := Rect.unit (s := S256x32) ![0, 0] S256x32.size inb_S256x32_S256x32_0_0
/-- The eight key chunks: columns `2048·j … 2048·j + 2047` of the transposed key array. -/
abbrev r1_k0 : Rect S32x16384 := Rect.unit (s := S32x16384) ![0, 0] S32x2048.size inb_S32x16384_S32x2048_0_0
abbrev r1_k1 : Rect S32x16384 := Rect.unit (s := S32x16384) ![0, 2048] S32x2048.size inb_S32x16384_S32x2048_0_2048
abbrev r1_k2 : Rect S32x16384 := Rect.unit (s := S32x16384) ![0, 4096] S32x2048.size inb_S32x16384_S32x2048_0_4096
abbrev r1_k3 : Rect S32x16384 := Rect.unit (s := S32x16384) ![0, 6144] S32x2048.size inb_S32x16384_S32x2048_0_6144
abbrev r1_k4 : Rect S32x16384 := Rect.unit (s := S32x16384) ![0, 8192] S32x2048.size inb_S32x16384_S32x2048_0_8192
abbrev r1_k5 : Rect S32x16384 := Rect.unit (s := S32x16384) ![0, 10240] S32x2048.size inb_S32x16384_S32x2048_0_10240
abbrev r1_k6 : Rect S32x16384 := Rect.unit (s := S32x16384) ![0, 12288] S32x2048.size inb_S32x16384_S32x2048_0_12288
abbrev r1_k7 : Rect S32x16384 := Rect.unit (s := S32x16384) ![0, 14336] S32x2048.size inb_S32x16384_S32x2048_0_14336
/-- The eight value chunks: rows `2048·j … 2048·j + 2047` of the value array with its column of ones. -/
abbrev r1_v0 : Rect S16384x33 := Rect.unit (s := S16384x33) ![0, 0] S2048x33.size inb_S16384x33_S2048x33_0_0
abbrev r1_v1 : Rect S16384x33 := Rect.unit (s := S16384x33) ![2048, 0] S2048x33.size inb_S16384x33_S2048x33_2048_0
abbrev r1_v2 : Rect S16384x33 := Rect.unit (s := S16384x33) ![4096, 0] S2048x33.size inb_S16384x33_S2048x33_4096_0
abbrev r1_v3 : Rect S16384x33 := Rect.unit (s := S16384x33) ![6144, 0] S2048x33.size inb_S16384x33_S2048x33_6144_0
abbrev r1_v4 : Rect S16384x33 := Rect.unit (s := S16384x33) ![8192, 0] S2048x33.size inb_S16384x33_S2048x33_8192_0
abbrev r1_v5 : Rect S16384x33 := Rect.unit (s := S16384x33) ![10240, 0] S2048x33.size inb_S16384x33_S2048x33_10240_0
abbrev r1_v6 : Rect S16384x33 := Rect.unit (s := S16384x33) ![12288, 0] S2048x33.size inb_S16384x33_S2048x33_12288_0
abbrev r1_v7 : Rect S16384x33 := Rect.unit (s := S16384x33) ![14336, 0] S2048x33.size inb_S16384x33_S2048x33_14336_0
abbrev r1_o : Rect S32x256 := Rect.unit (s := S32x256) ![0, 0] S32x256.size inb_S32x256_S32x256_0_0

/-! The body's values in the order the body computes them: the scaled queries; after chunks 0–1 the running
    maximum, the last rescale factor, the accumulator after chunk 0 and chunk 1's weights; after chunks 2–3 and 4–5
    the running maximum and the accumulator; chunk 6's value rows and scores. -/
def a1_v5 (x0 : Vec F S256x32 .bf16) : FVec F S256x32 .bf16 := k1_pay2 (View.ld x0 r1_q)
def a1_v26 (x0 : Vec F S256x32 .bf16) (x1 : Vec F S32x16384 .bf16) (x2 : Vec F S16384x33 .bf16) : FVec F S33x256 .f32 :=
  k1_pay6 (View.ld x0 r1_q) (View.ld x1 r1_k0) (View.ld x2 r1_v0)
def a1_v30 (x2 : Vec F S16384x33 .bf16) : FVec F S2048x33 .bf16 := k1_pay7 (View.ld x2 r1_v1)
def a1_v34 (x0 : Vec F S256x32 .bf16) (x1 : Vec F S32x16384 .bf16) : FVec F S256x1 .f32 :=
  k1_pay9 (View.ld x0 r1_q) (View.ld x1 r1_k0) (View.ld x1 r1_k1)
def a1_v36 (x0 : Vec F S256x32 .bf16) (x1 : Vec F S32x16384 .bf16) : FVec F S256x1 .f32 :=
  k1_pay10 (View.ld x0 r1_q) (View.ld x1 r1_k0) (View.ld x1 r1_k1)
def a1_v40 (x0 : Vec F S256x32 .bf16) (x1 : Vec F S32x16384 .bf16) : FVec F S256x2048 .bf16 :=
  k1_pay11 (View.ld x0 r1_q) (View.ld x1 r1_k0) (View.ld x1 r1_k1)
def a1_v72 (x0 : Vec F S256x32 .bf16) (x1 : Vec F S32x16384 .bf16) : FVec F S256x1 .f32 :=
  k1_pay15 (a1_v5 x0) (a1_v34 x0 x1) (View.ld x1 r1_k2) (View.ld x1 r1_k3)
def a1_v83 (x0 : Vec F S256x32 .bf16) (x1 : Vec F S32x16384 .bf16) (x2 : Vec F S16384x33 .bf16) : FVec F S33x256 .f32 :=
  k1_pay16 (a1_v5 x0) (a1_v26 x0 x1 x2) (a1_v30 x2) (a1_v34 x0 x1) (a1_v36 x0 x1) (a1_v40 x0 x1)
    (View.ld x1 r1_k2) (View.ld x2 r1_v2) (View.ld x1 r1_k3) (View.ld x2 r1_v3)
def a1_v110 (x0 : Vec F S256x32 .bf16) (x1 : Vec F S32x16384 .bf16) : FVec F S256x1 .f32 :=
  k1_pay20 (a1_v5 x0) (a1_v72 x0 x1) (View.ld x1 r1_k4) (View.ld x1 r1_k5)
def a1_v121 (x0 : Vec F S256x32 .bf16) (x1 : Vec F S32x16384 .bf16) (x2 : Vec F S16384x33 .bf16) : FVec F S33x256 .f32 :=
  k1_pay21 (a1_v5 x0) (a1_v72 x0 x1) (a1_v83 x0 x1 x2) (View.ld x1 r1_k4) (View.ld x2 r1_v4) (View.ld x1 r1_k5) (View.ld x2 r1_v5)
def a1_v125 (x2 : Vec F S16384x33 .bf16) : FVec F S2048x33 .bf16 := k1_pay22 (View.ld x2 r1_v6)
def a1_v126 (x0 : Vec F S256x32 .bf16) (x1 : Vec F S32x16384 .bf16) : FVec F S256x2048 .f32 :=
  k1_pay23 (a1_v5 x0) (View.ld x1 r1_k6)

/-- The output buffer after the body: the accumulator's 32 value rows over its row of weight sums. -/
def out1_3 (x0 : Vec F S256x32 .bf16) (x1 : Vec F S32x16384 .bf16) (x2 : Vec F S16384x33 .bf16) : Vec F S32x256 .f32 :=
  View.canon [⟨r1_o, k1_pay1 (a1_v5 x0) (a1_v110 x0 x1) (a1_v121 x0 x1 x2) (a1_v125 x2) (a1_v126 x0 x1)
    (View.ld x1 r1_k7) (View.ld x2 r1_v7)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the second projection -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x256 := Rect.unit (s := S512x256) ![0, 0] S512x256.size inb_S512x256_S512x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0
abbrev r2_3 : Rect S512x256 := Rect.unit (s := S512x256) ![0, 0] S512x256.size inb_S512x256_S512x256_0_0

def out2_3 (x0 : Vec F S512x256 .f32) (x1 : Vec F S256x256 .bf16) (x2 : Vec F S1x256 .f32) : Vec F S512x256 .f32 :=
  View.canon [⟨r2_3, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KIReg02.lean ====
import proofs.«417944_j30408368455794_3_alg».proof.Proof.KIDefs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the first projection, at the entry contents `V` -/

/-! ## The windows' blocks -/

/-- Input window 0's current staging buffer holds its block at every point, fetched there or not, for any proof
    data whose array is `V`'s (`hA`) and whose body leaves the block in place (`hafter`): where the window is not
    fetched its block index has not moved, so the previous point's block is this point's. The window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The body's one store is the whole buffer, so it covers it. -/
theorem cover0_3 (p0 : Vec F S512x768 .bf16) (y : S512x768.Idx) :
    ∃ pc ∈ ([⟨r0_3, p0⟩] : List (View.Piece (Elt F) S512x768 .bf16)), y ∈ pc.1.set :=
  View.cover_of_tiled [⟨r0_3, p0⟩] S512x768.size (by rfl) y

/-! ## The body's triple -/

set_option maxHeartbeats 1000000 in
/-- The kernel body on whole staging memrefs, the inputs' at read contents `x0`, `x1`, `x2` and the output's at
    anything, runs to the continuation holding the inputs' as they were and the output's at `out0_3` of the inputs':
    the printed function is its skeleton, three loads of the inputs, one load of the output whose value is never used,
    and one store of the whole output buffer. -/
theorem sound_kernel0 (c : Dev nD) (E : Set ℕ) (i : grid0.Coords) (arg1 : Memref sig .tc .vmem S512x256 .f32) (harg1 : arg1.IsWhole)
    (arg2 : Memref sig .tc .vmem S256x768 .bf16) (harg2 : arg2.IsWhole) (arg3 : Memref sig .tc .vmem S1x768 .f32) (harg3 : arg3.IsWhole)
    (arg4 : Memref sig .tc .vmem S512x768 .bf16) (harg4 : arg4.IsWhole)
    (x0 : Vec F S512x256 .f32) (x1 : Vec F S256x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers under the region's proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four windows' current
    staging buffers, one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0`, `before0_1`, `before0_2`), so
    `sound_kernel0` applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 2: the second projection, at the entry contents `V` -/

/-! ## The windows' blocks -/

/-- Input window 0's current staging buffer holds its block at every point, fetched there or not, for any proof
    data whose array is `V`'s (`hA`) and whose body leaves the block in place (`hafter`): where the window is not
    fetched its block index has not moved, so the previous point's block is this point's. The window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The body's one store is the whole buffer, so it covers it. -/
theorem cover2_3 (p0 : Vec F S512x256 .f32) (y : S512x256.Idx) :
    ∃ pc ∈ ([⟨r2_3, p0⟩] : List (View.Piece (Elt F) S512x256 .f32)), y ∈ pc.1.set :=
  View.cover_of_tiled [⟨r2_3, p0⟩] S512x256.size (by rfl) y

/-! ## The body's triple -/

set_option maxHeartbeats 1000000 in
/-- The kernel body on whole staging memrefs, the inputs' at read contents `x0`, `x1`, `x2` and the output's at
    anything, runs to the continuation holding the inputs' as they were and the output's at `out2_3` of the inputs':
    the printed function is its skeleton, three loads of the inputs, one load of the output whose value is never used,
    and one store of the whole output buffer. -/
theorem sound_kernel2 (c : Dev nD) (E : Set ℕ) (i : grid2.Coords) (arg1 : Memref sig .tc .vmem S512x256 .f32) (harg1 : arg1.IsWhole)
    (arg2 : Memref sig .tc .vmem S256x256 .bf16) (harg2 : arg2.IsWhole) (arg3 : Memref sig .tc .vmem S1x256 .f32) (harg3 : arg3.IsWhole)
    (arg4 : Memref sig .tc .vmem S512x256 .f32) (harg4 : arg4.IsWhole)
    (x0 : Vec F S512x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The inputs' buffers under the region's proof data -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what the core owes, and the four windows' current
    staging buffers, one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`, `before2_2`), so
    `sound_kernel2` applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg1.lean ====
import proofs.«417944_j30408368455794_3_alg».proof.Proof.KIDefs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the attention body, at the entry contents `V`

## The windows' blocks -/

/-- Input window 0's current staging buffer holds its block at every point, fetched there or not, for any proof
    data whose array is `V`'s (`hA`) and whose body leaves the block in place (`hafter`): unfetched, the block index
    has not moved, so the buffer still holds the previous point's block, which is this point's; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved, so the buffer still holds the previous point's block, which is this point's; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved, so the buffer still holds the previous point's block, which is this point's; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one store is of the whole buffer, so it covers it. -/
theorem cover1_3 (p0 : Vec F S32x256 .f32) (y : S32x256.Idx) :
    ∃ pc ∈ ([⟨r1_o, p0⟩] : List (View.Piece (Elt F) S32x256 .f32)), y ∈ pc.1.set :=
  View.cover_of_tiled [⟨r1_o, p0⟩] S32x256.size (by rfl) y

/-! ## The body's triple -/

set_option maxHeartbeats 4000000 in
/-- The kernel body on whole staging memrefs, the inputs' at read contents `x0 x1 x2` and the output's at anything,
    runs to the continuation holding the inputs' as they were and the output's at `out1_3` of the inputs': the printed
    function and its three parts are their skeletons, whose loads read the inputs through the named rectangles and
    whose one store writes the whole output buffer. -/
theorem sound_kernel1 (c : Dev nD) (E : Set ℕ) (i : grid1.Coords)
    (arg1 : Memref sig .tc .vmem S256x32 .bf16) (harg1 : arg1.IsWhole)
    (arg2 : Memref sig .tc .vmem S32x16384 .bf16) (harg2 : arg2.IsWhole)
    (arg3 : Memref sig .tc .vmem S16384x33 .bf16) (harg3 : arg3.IsWhole)
    (arg4 : Memref sig .tc .vmem S32x256 .f32) (harg4 : arg4.IsWhole)
    (x0 : Vec F S256x32 .bf16) (x1 : Vec F S32x16384 .bf16) (x2 : Vec F S16384x33 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs at their blocks -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.KIFold.lean ====
import proofs.«417944_j30408368455794_3_alg».proof.Proof.KIDefs

/-!
# The buffers' contents at every boundary between @main's items

@main is: a stretch of host operations (the weights' columns permuted and joined, the biases likewise), region 0,
a stretch (the projection cut into queries, keys and values, the keys transposed, a column of ones joined to the
values), region 1, a stretch (the attention transposed back and its heads joined), region 2. Between two items every
unscoped buffer of a core holds a known function of the launch memory: after a host stretch the stretch's
operations applied, after a region that region's arrays at what its write-backs leave and every other buffer as
the region found it.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: what region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: the contents at the return. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.KernelIdeal.Hand

end
-- ==== Proof.KIArgs.lean ====
import proofs.«417944_j30408368455794_3_alg».proof.Proof.KIFold
import Idealize.ShloMosaic.Lib.StableHlo.Run

/-!
# The arguments end as launched

No host operation writes an argument and no region's output window is an argument's array, so at an argument's
buffer the fold of the contents through @main walks back to the launch memory: a host stretch leaves a buffer none
of its operations writes; a region leaves every buffer that is not one of its arrays, and an input window's array too.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A host stretch leaves a buffer that none of its operations writes: each operation's written reference is
    compared with the buffer's, by name. -/
local macro "not_written" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.quaternary_writes, StableHlo.reshape_writes,
    StableHlo.binaryIndexed_writes, StableHlo.unaryIndexed_writes, StableHlo.nary_writes, Finset.mem_singleton]
  repeat' apply And.intro
  all_goals exact StableHlo.devRef_ne_of_ne (by decide)))

theorem W1_keep_arg0 (c : Dev nD) : W1 m ρ c (Proc.devRef .tc main_arg0) = W0 m ρ c (Proc.devRef .tc main_arg0) := by not_written
theorem W3_keep_arg0 (c : Dev nD) : W3 m ρ c (Proc.devRef .tc main_arg0) = W2 m ρ c (Proc.devRef .tc main_arg0) := by not_written
theorem W5_keep_arg0 (c : Dev nD) : W5 m ρ c (Proc.devRef .tc main_arg0) = W4 m ρ c (Proc.devRef .tc main_arg0) := by not_written
theorem W1_keep_arg1 (c : Dev nD) : W1 m ρ c (Proc.devRef .tc main_arg1) = W0 m ρ c (Proc.devRef .tc main_arg1) := by not_written
theorem W3_keep_arg1 (c : Dev nD) : W3 m ρ c (Proc.devRef .tc main_arg1) = W2 m ρ c (Proc.devRef .tc main_arg1) := by not_written
theorem W5_keep_arg1 (c : Dev nD) : W5 m ρ c (Proc.devRef .tc main_arg1) = W4 m ρ c (Proc.devRef .tc main_arg1) := by not_written
theorem W1_keep_arg2 (c : Dev nD) : W1 m ρ c (Proc.devRef .tc main_arg2) = W0 m ρ c (Proc.devRef .tc main_arg2) := by not_written
theorem W3_keep_arg2 (c : Dev nD) : W3 m ρ c (Proc.devRef .tc main_arg2) = W2 m ρ c (Proc.devRef .tc main_arg2) := by not_written
theorem W5_keep_arg2 (c : Dev nD) : W5 m ρ c (Proc.devRef .tc main_arg2) = W4 m ρ c (Proc.devRef .tc main_arg2) := by not_written
theorem W1_keep_arg3 (c : Dev nD) : W1 m ρ c (Proc.devRef .tc main_arg3) = W0 m ρ c (Proc.devRef .tc main_arg3) := by not_written
theorem W3_keep_arg3 (c : Dev nD) : W3 m ρ c (Proc.devRef .tc main_arg3) = W2 m ρ c (Proc.devRef .tc main_arg3) := by not_written
theorem W5_keep_arg3 (c : Dev nD) : W5 m ρ c (Proc.devRef .tc main_arg3) = W4 m ρ c (Proc.devRef .tc main_arg3) := by not_written
theorem W1_keep_arg4 (c : Dev nD) : W1 m ρ c (Proc.devRef .tc main_arg4) = W0 m ρ c (Proc.devRef .tc main_arg4) := by not_written
theorem W3_keep_arg4 (c : Dev nD) : W3 m ρ c (Proc.devRef .tc main_arg4) = W2 m ρ c (Proc.devRef .tc main_arg4) := by not_written
theorem W5_keep_arg4 (c : Dev nD) : W5 m ρ c (Proc.devRef .tc main_arg4) = W4 m ρ c (Proc.devRef .tc main_arg4) := by not_written
theorem W1_keep_arg5 (c : Dev nD) : W1 m ρ c (Proc.devRef .tc main_arg5) = W0 m ρ c (Proc.devRef .tc main_arg5) := by not_written
theorem W3_keep_arg5 (c : Dev nD) : W3 m ρ c (Proc.devRef .tc main_arg5) = W2 m ρ c (Proc.devRef .tc main_arg5) := by not_written
theorem W5_keep_arg5 (c : Dev nD) : W5 m ρ c (Proc.devRef .tc main_arg5) = W4 m ρ c (Proc.devRef .tc main_arg5) := by not_written
theorem W1_keep_arg6 (c : Dev nD) : W1 m ρ c (Proc.devRef .tc main_arg6) = W0 m ρ c (Proc.devRef .tc main_arg6) := by not_written
theorem W3_keep_arg6 (c : Dev nD) : W3 m ρ c (Proc.devRef .tc main_arg6) = W2 m ρ c (Proc.devRef .tc main_arg6) := by not_written
theorem W5_keep_arg6 (c : Dev nD) : W5 m ρ c (Proc.devRef .tc main_arg6) = W4 m ρ c (Proc.devRef .tc main_arg6) := by not_written
theorem W1_keep_arg7 (c : Dev nD) : W1 m ρ c (Proc.devRef .tc main_arg7) = W0 m ρ c (Proc.devRef .tc main_arg7) := by not_written
theorem W3_keep_arg7 (c : Dev nD) : W3 m ρ c (Proc.devRef .tc main_arg7) = W2 m ρ c (Proc.devRef .tc main_arg7) := by not_written
theorem W5_keep_arg7 (c : Dev nD) : W5 m ρ c (Proc.devRef .tc main_arg7) = W4 m ρ c (Proc.devRef .tc main_arg7) := by not_written
theorem W1_keep_arg8 (c : Dev nD) : W1 m ρ c (Proc.devRef .tc main_arg8) = W0 m ρ c (Proc.devRef .tc main_arg8) := by not_written
theorem W3_keep_arg8 (c : Dev nD) : W3 m ρ c (Proc.devRef .tc main_arg8) = W2 m ρ c (Proc.devRef .tc main_arg8) := by not_written
theorem W5_keep_arg8 (c : Dev nD) : W5 m ρ c (Proc.devRef .tc main_arg8) = W4 m ρ c (Proc.devRef .tc main_arg8) := by not_written

/-! The input `x` is region 0's first window's array (an input window's array is as the region found it); the other
    arguments are no region's array. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_keep_arg0 m ρ c
    _ = W3 m ρ c (Proc.devRef .tc main_arg0) := W4_of_ne m ρ c main_arg0 (by decide)
    _ = W2 m ρ c (Proc.devRef .tc main_arg0) := W3_keep_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep_arg0 m ρ c
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_keep_arg1 m ρ c
    _ = W3 m ρ c (Proc.devRef .tc main_arg1) := W4_of_ne m ρ c main_arg1 (by decide)
    _ = W2 m ρ c (Proc.devRef .tc main_arg1) := W3_keep_arg1 m ρ c
    _ = W1 m ρ c (Proc.devRef .tc main_arg1) := W2_of_ne m ρ c main_arg1 (by decide)
    _ = W0 m ρ c (Proc.devRef .tc main_arg1) := W1_keep_arg1 m ρ c
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keep_arg2 m ρ c
    _ = W3 m ρ c (Proc.devRef .tc main_arg2) := W4_of_ne m ρ c main_arg2 (by decide)
    _ = W2 m ρ c (Proc.devRef .tc main_arg2) := W3_keep_arg2 m ρ c
    _ = W1 m ρ c (Proc.devRef .tc main_arg2) := W2_of_ne m ρ c main_arg2 (by decide)
    _ = W0 m ρ c (Proc.devRef .tc main_arg2) := W1_keep_arg2 m ρ c
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_keep_arg3 m ρ c
    _ = W3 m ρ c (Proc.devRef .tc main_arg3) := W4_of_ne m ρ c main_arg3 (by decide)
    _ = W2 m ρ c (Proc.devRef .tc main_arg3) := W3_keep_arg3 m ρ c
    _ = W1 m ρ c (Proc.devRef .tc main_arg3) := W2_of_ne m ρ c main_arg3 (by decide)
    _ = W0 m ρ c (Proc.devRef .tc main_arg3) := W1_keep_arg3 m ρ c
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_keep_arg4 m ρ c
    _ = W3 m ρ c (Proc.devRef .tc main_arg4) := W4_of_ne m ρ c main_arg4 (by decide)
    _ = W2 m ρ c (Proc.devRef .tc main_arg4) := W3_keep_arg4 m ρ c
    _ = W1 m ρ c (Proc.devRef .tc main_arg4) := W2_of_ne m ρ c main_arg4 (by decide)
    _ = W0 m ρ c (Proc.devRef .tc main_arg4) := W1_keep_arg4 m ρ c
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_keep_arg5 m ρ c
    _ = W3 m ρ c (Proc.devRef .tc main_arg5) := W4_of_ne m ρ c main_arg5 (by decide)
    _ = W2 m ρ c (Proc.devRef .tc main_arg5) := W3_keep_arg5 m ρ c
    _ = W1 m ρ c (Proc.devRef .tc main_arg5) := W2_of_ne m ρ c main_arg5 (by decide)
    _ = W0 m ρ c (Proc.devRef .tc main_arg5) := W1_keep_arg5 m ρ c
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_keep_arg6 m ρ c
    _ = W3 m ρ c (Proc.devRef .tc main_arg6) := W4_of_ne m ρ c main_arg6 (by decide)
    _ = W2 m ρ c (Proc.devRef .tc main_arg6) := W3_keep_arg6 m ρ c
    _ = W1 m ρ c (Proc.devRef .tc main_arg6) := W2_of_ne m ρ c main_arg6 (by decide)
    _ = W0 m ρ c (Proc.devRef .tc main_arg6) := W1_keep_arg6 m ρ c
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_keep_arg7 m ρ c
    _ = W3 m ρ c (Proc.devRef .tc main_arg7) := W4_of_ne m ρ c main_arg7 (by decide)
    _ = W2 m ρ c (Proc.devRef .tc main_arg7) := W3_keep_arg7 m ρ c
    _ = W1 m ρ c (Proc.devRef .tc main_arg7) := W2_of_ne m ρ c main_arg7 (by decide)
    _ = W0 m ρ c (Proc.devRef .tc main_arg7) := W1_keep_arg7 m ρ c
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_keep_arg8 m ρ c
    _ = W3 m ρ c (Proc.devRef .tc main_arg8) := W4_of_ne m ρ c main_arg8 (by decide)
    _ = W2 m ρ c (Proc.devRef .tc main_arg8) := W3_keep_arg8 m ρ c
    _ = W1 m ρ c (Proc.devRef .tc main_arg8) := W2_of_ne m ρ c main_arg8 (by decide)
    _ = W0 m ρ c (Proc.devRef .tc main_arg8) := W1_keep_arg8 m ρ c
    _ = m ((c : Thread nD τ).loc main_arg8) := rfl

end Cert.KernelIdeal.Hand

end
-- ==== Proof.KIRun.lean ====
import proofs.«417944_j30408368455794_3_alg».proof.Proof.KIReg02
import proofs.«417944_j30408368455794_3_alg».proof.Proof.KIReg1
import proofs.«417944_j30408368455794_3_alg».proof.Proof.KIArgs

/-!
# The run of @main: three regions among three host stretches

@main is six segments: a host stretch and a region, three times. Each host stretch runs from the contents at its
boundary to its operations applied to them; each region from its entry contents to its arrays at what its
write-backs leave. Chained from the launch memory they end with every unscoped buffer of every core at the last
boundary's contents `W6`: read at an argument's buffer that is the launch contents (the frame), read at a result's
buffer it is what the value lemmas compute.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W6`, the generator register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0 as a segment: entered with every unscoped buffer at `W1`, left with them at `W2`. Its arrays are split
    out of the unscoped buffers at entry and put back at what the pipeline leaves at exit; the generator register goes
    into the region's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its arrays are split
    out of the unscoped buffers at entry and put back at what the pipeline leaves at exit; the generator register goes
    into the region's invariant and comes back; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its arrays are split
    out of the unscoped buffers at entry and put back at what the pipeline leaves at exit; the generator register goes
    into the region's invariant and comes back; nothing is owed; the body has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and ends with
    every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: the run ends with every argument's buffer at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)
    (run_all m ρ)

end Cert.KernelIdeal.Hand

end
-- ==== Proof.Spec.lean ====
import Idealize.ShloMosaic.PureOps.Ideal
import Idealize.ShloMosaic.Lib.ValueIdx

/-!
# The two programs over the reals

With every input finite, every value either program computes is a real number, so both are described by
real-valued functions of real arrays, indexed by coordinates.

The reference: three projections `x · W + b`; each projection's 256 features of a batch row regrouped into 8 rows of 32
(`splitR`: row `8·b + r`, column `j` is feature `permF (32·r + j)` of batch row `b`); scores `(Q · Kᵀ) / 16`; a softmax
along each score row; the weights times `V`; the heads joined back (`concatR`); a last projection.

The kernel: the projections computed once over the joined weight whose columns are already permuted; the softmax
accumulated over eight chunks of 2048 keys, each chunk rescaling the accumulator by `exp (old maximum − new maximum)`,
the row of weight sums carried as the value array's extra column of ones (`accR`, `attnK`).
-/

noncomputable section

open scoped BigOperators

namespace Cert.Spec

open Idealize.ShloMosaic

/-! ## Real arrays as arrays of extended reals -/

/-- A real matrix as a rank-2 array of extended reals. -/
def c2 {m n : Nat} (f : Fin m → Fin n → ℝ) : (⟨2, ![m, n]⟩ : Shape).Idx → EReal :=
  fun i => ((f (i 0) (i 1) : ℝ) : EReal)
/-- A real vector as a rank-1 array of extended reals. -/
def c1 {n : Nat} (f : Fin n → ℝ) : (⟨1, ![n]⟩ : Shape).Idx → EReal :=
  fun i => ((f (i 0) : ℝ) : EReal)

theorem c2_ix2 {m n : Nat} (f : Fin m → Fin n → ℝ) (a : Fin m) (b : Fin n) : c2 f (ValueIdx.ix2 a b) = ((f a b : ℝ) : EReal) := rfl
theorem c1_ix1 {n : Nat} (f : Fin n → ℝ) (a : Fin n) : c1 f (ValueIdx.ix1 a) = ((f a : ℝ) : EReal) := rfl

/-! ## The reference -/

/-- Where feature column `k` of a regrouped row comes from: `(k mod 8) · 32 + k / 8`. -/
def permF (k : Fin 256) : Fin 256 := ⟨(k.val % 8) * 32 + k.val / 8, by omega⟩

/-- A projection `x · W + b`. -/
def linR (x : Fin 2048 → Fin 256 → ℝ) (W : Fin 256 → Fin 256 → ℝ) (b : Fin 256 → ℝ) (r : Fin 2048) (j : Fin 256) : ℝ :=
  (∑ k : Fin 256, x r k * W k j) + b j

/-- The heads split: row `n = 8·b + r` and column `j` of the regrouped array is feature `permF (32·r + j)` of batch row `b`. -/
def splitR (y : Fin 2048 → Fin 256 → ℝ) (n : Fin 16384) (j : Fin 32) : ℝ :=
  y ⟨n.val / 8, by omega⟩ (permF ⟨(n.val % 8) * 32 + j.val, by omega⟩)

/-- The scores: `(Q · Kᵀ) · (1 / 16)`. -/
def scoreR (Q K : Fin 16384 → Fin 32 → ℝ) (n n' : Fin 16384) : ℝ := (∑ j : Fin 32, Q n j * K n' j) * (1 / 16)

/-- The largest entry of a score row. -/
def rowMax (s : Fin 16384 → ℝ) : ℝ := Finset.univ.sup' (Finset.univ_nonempty (α := Fin 16384)) s

/-- The softmax weights of a score row. -/
def softR (s : Fin 16384 → ℝ) (n' : Fin 16384) : ℝ :=
  Real.exp (s n' - rowMax s) / ∑ n'' : Fin 16384, Real.exp (s n'' - rowMax s)

/-- The attention: each query row's softmax weights times the values. -/
def attnR (Q K V : Fin 16384 → Fin 32 → ℝ) (n : Fin 16384) (j : Fin 32) : ℝ :=
  ∑ n' : Fin 16384, softR (scoreR Q K n) n' * V n' j

/-- The heads joined: batch row `b`, column `c` is row `8·b + c mod 8`, column `c / 8`. -/
def concatR (a : Fin 16384 → Fin 32 → ℝ) (b : Fin 2048) (c : Fin 256) : ℝ :=
  a ⟨b.val * 8 + c.val % 8, by omega⟩ ⟨c.val / 8, by omega⟩

/-- The reference's second result. -/
def attendedR (x : Fin 2048 → Fin 256 → ℝ) (Wq : Fin 256 → Fin 256 → ℝ) (bq : Fin 256 → ℝ) (Wk : Fin 256 → Fin 256 → ℝ) (bk : Fin 256 → ℝ)
    (Wv : Fin 256 → Fin 256 → ℝ) (bv : Fin 256 → ℝ) : Fin 2048 → Fin 256 → ℝ :=
  concatR (attnR (splitR (linR x Wq bq)) (splitR (linR x Wk bk)) (splitR (linR x Wv bv)))

/-- The reference's first result. -/
def outputsR (x : Fin 2048 → Fin 256 → ℝ) (Wq : Fin 256 → Fin 256 → ℝ) (bq : Fin 256 → ℝ) (Wk : Fin 256 → Fin 256 → ℝ) (bk : Fin 256 → ℝ)
    (Wv : Fin 256 → Fin 256 → ℝ) (bv : Fin 256 → ℝ) (Wo : Fin 256 → Fin 256 → ℝ) (bo : Fin 256 → ℝ) : Fin 2048 → Fin 256 → ℝ :=
  linR (attendedR x Wq bq Wk bk Wv bv) Wo bo

/-! ## The kernel -/

/-- The joined weight: columns 0–255 the permuted query weight, 256–511 the key weight, 512–767 the value weight. -/
def WcatR (Wq Wk Wv : Fin 256 → Fin 256 → ℝ) (k : Fin 256) (c : Fin 768) : ℝ :=
  if h : c.val < 256 then Wq k (permF ⟨c.val, h⟩)
  else if h' : c.val < 512 then Wk k (permF ⟨c.val - 256, by omega⟩)
  else Wv k (permF ⟨c.val - 512, by omega⟩)

/-- The joined bias. -/
def bcatR (bq bk bv : Fin 256 → ℝ) (c : Fin 768) : ℝ :=
  if h : c.val < 256 then bq (permF ⟨c.val, h⟩)
  else if h' : c.val < 512 then bk (permF ⟨c.val - 256, by omega⟩)
  else bv (permF ⟨c.val - 512, by omega⟩)

/-- Region 0's result: the three projections side by side. -/
def qkvR (x : Fin 2048 → Fin 256 → ℝ) (W : Fin 256 → Fin 768 → ℝ) (b : Fin 768 → ℝ) (r : Fin 2048) (c : Fin 768) : ℝ :=
  (∑ k : Fin 256, x r k * W k c) + b c

/-- The queries as region 1 reads them: a plain regrouping of columns 0–255 of the projections. -/
def qhR (y : Fin 2048 → Fin 768 → ℝ) (n : Fin 16384) (j : Fin 32) : ℝ :=
  y ⟨n.val / 8, by omega⟩ ⟨(n.val % 8) * 32 + j.val, by omega⟩
/-- The keys, transposed: columns 256–511. -/
def khtR (y : Fin 2048 → Fin 768 → ℝ) (j : Fin 32) (n : Fin 16384) : ℝ :=
  y ⟨n.val / 8, by omega⟩ ⟨256 + ((n.val % 8) * 32 + j.val), by omega⟩
/-- The values with a column of ones: columns 512–767, then 1. -/
def vaugR (y : Fin 2048 → Fin 768 → ℝ) (n : Fin 16384) (j : Fin 33) : ℝ :=
  if h : j.val < 32 then y ⟨n.val / 8, by omega⟩ ⟨512 + ((n.val % 8) * 32 + j.val), by omega⟩ else 1

/-- A function on the 16384 keys read at a natural number (0 beyond the keys). -/
def atNat (f : Fin 16384 → ℝ) (k : ℕ) : ℝ := if h : k < 16384 then f ⟨k, h⟩ else 0

/-- The largest score of chunk `c`: keys `2048·c … 2048·c + 2047`. -/
def chunkMax (s : Fin 16384 → ℝ) (c : ℕ) : ℝ :=
  Finset.univ.sup' (Finset.univ_nonempty (α := Fin 2048)) fun i : Fin 2048 => atNat s (2048 * c + i.val)

/-- The sum of `f` over chunk `c`. -/
def chunkSum (f : Fin 16384 → ℝ) (c : ℕ) : ℝ := ∑ i : Fin 2048, atNat f (2048 * c + i.val)

/-- The running maximum after chunks `0 … c`. -/
def runMax (s : Fin 16384 → ℝ) : ℕ → ℝ
  | 0 => chunkMax s 0
  | c + 1 => max (runMax s c) (chunkMax s (c + 1))

/-- The accumulator of one value column `v` after chunks `0 … c`: rescaled by `exp (old maximum − new maximum)`, then
    chunk `c`'s values weighted by `exp (score − new maximum)` added. -/
def accR (s v : Fin 16384 → ℝ) : ℕ → ℝ
  | 0 => chunkSum (fun n' => v n' * Real.exp (s n' - runMax s 0)) 0
  | c + 1 => accR s v c * Real.exp (runMax s c - runMax s (c + 1))
      + chunkSum (fun n' => v n' * Real.exp (s n' - runMax s (c + 1))) (c + 1)

/-- The kernel's scores: the queries scaled by `1/16` first. -/
def scoreK (Q : Fin 16384 → Fin 32 → ℝ) (KT : Fin 32 → Fin 16384 → ℝ) (n n' : Fin 16384) : ℝ :=
  ∑ j : Fin 32, (Q n j * (1 / 16)) * KT j n'

/-- Region 1's result at query `n`, value column `j`: the accumulator's row `j` over its row 32 (the weight sums). -/
def attnK (Q : Fin 16384 → Fin 32 → ℝ) (KT : Fin 32 → Fin 16384 → ℝ) (Vaug : Fin 16384 → Fin 33 → ℝ) (n : Fin 16384) (j : Fin 32) : ℝ :=
  accR (scoreK Q KT n) (fun n' => Vaug n' ⟨j.val, by omega⟩) 7 / accR (scoreK Q KT n) (fun n' => Vaug n' ⟨32, by omega⟩) 7

/-- The kernel's second result: the attention's transpose joined by heads (region 1 writes `[value column, query]`). -/
def attendedK (o : Fin 32 → Fin 16384 → ℝ) (b : Fin 2048) (c : Fin 256) : ℝ :=
  o ⟨c.val / 8, by omega⟩ ⟨b.val * 8 + c.val % 8, by omega⟩

end Cert.Spec

end
-- ==== Proof.KIVal02.lean ====
import proofs.«417944_j30408368455794_3_alg».proof.Proof.KIDefs
import proofs.«417944_j30408368455794_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix2 eq_ix2 contrEquiv1 contrEquiv1_symm_val)
open Cert.Spec

/-!
# The two projection regions' output arrays as real formulas

Regions 0 and 2 are the same computation at two sizes: the grid's point t takes rows 512·t … 512·t + 511 of the
input array, the whole weight and the whole bias row, and stores `block · W + b` into rows 512·t … 512·t + 511 of the
output array (at the ideal values the two narrowings to the shorter format are the identity). So entry (r, q) of the
output array is `∑ k, x r k · W k q + b q`: each body's stored value is read at an index (the matrix product as a sum over
the 256 shared features, the bias row broadcast along the rows), every point's block is a block of that one function of the
whole arrays, and the four blocks cover the rows. When the arrays are casts of real arrays, products and sums of casts are
casts, and the result is the cast of the real projection.
-/

variable (V : (c : Dev nD) → (b : Ref sig .tc) → Buf (Elt Ideal) ((c : Thread nD τ).loc b))

namespace Val02

/-! ## Real arrays cast to extended reals -/

/-- The cast of a finite sum of reals is the sum of the casts. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Region 0's matrix product at an index -/

theorem lhs0_0 (i : S512x768.Idx) (q : dot_S512x256_S256x768_S512x768_1_0_0_1_n_n.contr.Idx) :
    (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
theorem lhs0_1 (i : S512x768.Idx) (q : dot_S512x256_S256x768_S512x768_1_0_0_1_n_n.contr.Idx) :
    (dot_S512x256_S256x768_S512x768_1_0_0_1_n_n.lhsIdx i q 1).val = (q ⟨0, by decide⟩).val :=
  dot_S512x256_S256x768_S512x768_1_0_0_1_n_n.lhsIdx_val_of_single rfl i q
theorem rhs0_0 (i : S512x768.Idx) (q : dot_S512x256_S256x768_S512x768_1_0_0_1_n_n.contr.Idx) :
    (dot_S512x256_S256x768_S512x768_1_0_0_1_n_n.rhsIdx i q 0).val = (q ⟨0, by decide⟩).val :=
  dot_S512x256_S256x768_S512x768_1_0_0_1_n_n.rhsIdx_val_of_single rfl i q
theorem rhs0_1 (i : S512x768.Idx) (q : dot_S512x256_S256x768_S512x768_1_0_0_1_n_n.contr.Idx) :
    (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

/-- Entry (p, q) of region 0's product into the zero accumulator: the sum over the 256 shared features. -/
theorem mm0_apply (a : FVec Ideal S512x256 .bf16) (w : FVec Ideal S256x768 .bf16) (p : Fin 512) (q : Fin 768) :
    matmul dot_S512x256_S256x768_S512x768_1_0_0_1_n_n none a w (constant S512x768 .f32 0x00000000#32) (ix2 p q)
      = ∑ k : Fin 256, a (ix2 p k) * w (ix2 k q) := by
  simp only [matmul]
  rw [Ideal.matmul_constant_zero_apply, ← Equiv.sum_comp (contrEquiv1 dot_S512x256_S256x768_S512x768_1_0_0_1_n_n 256 rfl rfl).symm]
  refine Finset.sum_congr rfl fun k _ => ?_
  have hk := contrEquiv1_symm_val dot_S512x256_S256x768_S512x768_1_0_0_1_n_n 256 rfl rfl k
  have el : dot_S512x256_S256x768_S512x768_1_0_0_1_n_n.lhsIdx (ix2 p q) ((contrEquiv1 dot_S512x256_S256x768_S512x768_1_0_0_1_n_n 256 rfl rfl).symm k) = ix2 p k := funext fun a => Fin.ext (by
    match a with
    | ⟨0, _⟩ => exact lhs0_0 _ _
    | ⟨1, _⟩ => exact (lhs0_1 _ _).trans hk)
  have er : dot_S512x256_S256x768_S512x768_1_0_0_1_n_n.rhsIdx (ix2 p q) ((contrEquiv1 dot_S512x256_S256x768_S512x768_1_0_0_1_n_n 256 rfl rfl).symm k) = ix2 k q := funext fun a => Fin.ext (by
    match a with
    | ⟨0, _⟩ => exact (rhs0_0 _ _).trans hk
    | ⟨1, _⟩ => exact rhs0_1 _ _)
  rw [el, er]

/-- Entry (p, q) of what region 0's body stores: row p of the block times column q of the weight, plus the bias. -/
theorem pay0_apply (x0 : Vec Ideal S512x256 .f32) (x1 : Vec Ideal S256x768 .bf16) (x2 : Vec Ideal S1x768 .f32) (p : Fin 512) (q : Fin 768) :
    k0_pay1 x0 x1 x2 (ix2 p q) = (∑ k : Fin 256, x0 (ix2 p k) * x1 (ix2 k q)) + x2 (ix2 (0 : Fin 1) q) := by
  unfold k0_pay1
  simp only [shapeCast_self]
  show (matmul (F := Ideal) dot_S512x256_S256x768_S512x768_1_0_0_1_n_n none (truncf FTy.bf16 (x0 : FVec Ideal S512x256 .f32) bitsLt_bf16_f32) (x1 : FVec Ideal S256x768 .bf16) (constant S512x768 FTy.f32 0x00000000#32) (ix2 p q) : EReal)
      + broadcastTo S512x768 x2 broadcasts_S1x768_S512x768 (ix2 p q) = _
  rw [mm0_apply, broadcastTo_apply x2 broadcasts_S1x768_S512x768 (ix2 p q) (ix2 (0 : Fin 1) q) (fun a => by
    match a with
    | ⟨0, _⟩ => rfl
    | ⟨1, _⟩ => rfl)]
  rfl

/-! ## Region 0: from the blocks to the array -/

theorem hz : (![0, 0] : Fin 2 → Nat) = fun _ => 0 := funext fun a => by fin_cases a <;> rfl

/-- What region 0 leaves in its output array, as one function of the three arrays it reads: entry (r, q) is row r of
    the input times column q of the weight, plus entry q of the bias row. -/
def G0 (X : S2048x256.Idx → EReal) (W : S256x768.Idx → EReal) (B : S1x768.Idx → EReal) : S2048x768.Idx → EReal :=
  fun i => (∑ k : Fin 256, X (ix2 (⟨(i 0).val, (i 0).isLt⟩ : Fin 2048) k) * W (ix2 k (⟨(i 1).val, (i 1).isLt⟩ : Fin 768)))
    + B (ix2 (0 : Fin 1) (⟨(i 1).val, (i 1).isLt⟩ : Fin 768))

/-- The four windows' index maps over the grid: point t takes row block t of the input and of the output, and
    the whole weight and bias. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t is rows 512·t … 512·t + 511 of the input array. -/
theorem iblk0_0_apply (c : Dev nD) (t : Fin cfg0.N) (x : S512x256.Idx) (k : S2048x256.Idx)
    (hk0 : (k 0).val = 512 * t.val + (x 0).val) (hk1 : (k 1).val = (x 1).val) :
    (iblk0 V c 0 t : Vec Ideal S512x256 .f32) x = (V c main_arg0 : S2048x256.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 256 + 1 * (x 1).val = (k 1).val; rw [e1, hk1]; omega

/-- The weight's block at every point is the whole weight array. -/
theorem iblk0_1_eq (c : Dev nD) (t : Fin cfg0.N) :
    (iblk0 V c 1 t : Vec Ideal S256x768 .bf16) = (V c main_v31 : S256x768.Idx → EReal) := by
  obtain ⟨-, -, e0, e1, -⟩ := idx_facts0 t
  funext x
  unfold iblk0
  rw [View.read_apply]
  show V c main_v31 _ = V c main_v31 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 768 + 1 * (x 1).val = (x 1).val; rw [e1]; omega

/-- The bias row's block at every point is the whole bias row. -/
theorem iblk0_2_eq (c : Dev nD) (t : Fin cfg0.N) :
    (iblk0 V c 2 t : Vec Ideal S1x768 .f32) = (V c main_v34 : S1x768.Idx → EReal) := by
  obtain ⟨-, -, -, -, e0, e1, -⟩ := idx_facts0 t
  funext x
  unfold iblk0
  rw [View.read_apply]
  show V c main_v34 _ = V c main_v34 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 768 + 1 * (x 1).val = (x 1).val; rw [e1]; omega

/-- The body's value of row block n of the input, the whole weight and the whole bias row is row block n of `G0`. -/
theorem blk0_eq (X : S2048x256.Idx → EReal) (W : S256x768.Idx → EReal) (B : S1x768.Idx → EReal)
    (x0 : Vec Ideal S512x256 .f32) (x1 : Vec Ideal S256x768 .bf16) (x2 : Vec Ideal S1x768 .f32) (n : Nat)
    (h0 : ∀ (x : S512x256.Idx) (k : S2048x256.Idx), (k 0).val = 512 * n + (x 0).val → (k 1).val = (x 1).val → x0 x = X k)
    (h1 : x1 = W) (h2 : x2 = B)
    (j : S512x768.Idx) (i : S2048x768.Idx) (hi0 : (i 0).val = 512 * n + (j 0).val) (hi1 : (i 1).val = (j 1).val) :
    k0_pay1 x0 x1 x2 j = G0 X W B i := by
  obtain ⟨p, q, rfl⟩ : ∃ (p : Fin 512) (q : Fin 768), j = ix2 p q := ⟨j 0, j 1, eq_ix2 j⟩
  have hb : 512 * n + p.val < 2048 := by have h2048 : (i 0).val < 2048 := (i 0).isLt; have e : (i 0).val = 512 * n + p.val := hi0; omega
  obtain rfl : i = ix2 (⟨512 * n + p.val, hb⟩ : Fin 2048) q := by
    funext a; apply Fin.ext
    match a with
    | ⟨0, _⟩ => exact hi0
    | ⟨1, _⟩ => exact hi1
  rw [pay0_apply]
  subst h1 h2
  show _ = (∑ k : Fin 256, X (ix2 (⟨512 * n + p.val, hb⟩ : Fin 2048) k) * x1 (ix2 k q)) + x2 (ix2 (0 : Fin 1) q)
  congr 1
  refine Finset.sum_congr rfl fun k _ => ?_
  rw [h0 (ix2 p k) (ix2 (⟨512 * n + p.val, hb⟩ : Fin 2048) k) rfl rfl]

/-- What point t writes back is block t of `G0` of the arrays as the region finds them. -/
theorem flushed0_eq (c : Dev nD) (t : Fin cfg0.N) :
    (dat0 (F := Ideal) V c).flushed 3 t = ((cfg0.win 3).blk t).view.read (Elt Ideal) (G0 (V c main_arg0) (V c main_v31) (V c main_v34)) := by
  show (cfg0.win 3).cut (grid0.coords t) ((dat0 (F := Ideal) V c).after 3 t) = _
  rw [after0_3]
  unfold out0_3
  rw [View.canon_unit_zero hz]
  simp only [View.ld_unit_zero (S := S512x256) hz, View.ld_unit_zero (S := S256x768) hz, View.ld_unit_zero (S := S1x768) hz]
  obtain ⟨-, -, -, -, -, -, e0, e1⟩ := idx_facts0 t
  funext j
  show k0_pay1 (iblk0 V c 0 t) (iblk0 V c 1 t) (iblk0 V c 2 t) j = G0 (V c main_arg0) (V c main_v31) (V c main_v34) (((cfg0.win 3).blk t).view.emb j)
  refine blk0_eq (V c main_arg0) (V c main_v31) (V c main_v34) (iblk0 V c 0 t) (iblk0 V c 1 t) (iblk0 V c 2 t) t.val
    (fun x k hk0 hk1 => iblk0_0_apply V c t x k hk0 hk1) (iblk0_1_eq V c t) (iblk0_2_eq V c t) j (((cfg0.win 3).blk t).view.emb j) ?_ ?_
  · show win0_3.index t (0 : Fin 2) * 512 + 1 * (j 0).val = 512 * t.val + (j 0).val; rw [e0]; omega
  · show win0_3.index t (1 : Fin 2) * 768 + 1 * (j 1).val = (j 1).val; rw [e1]; omega

/-- An index of the output array is in point t's block iff each coordinate is in the block's range on its axis. -/
theorem mem_blk0 (t : Fin cfg0.N) (i : S2048x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v35).slice (win0_3.rect t)).set ↔ _
  rw [View.set_slice_whole, Rect.mem_set_unit]
  exact Iff.rfl

/-- Row r of the output array is in the block of point r / 512. -/
theorem cover0 (i : S2048x768.Idx) : ∃ t : Fin cfg0.N, (cfg0.win 3).flush t = true ∧ i ∈ ((cfg0.win 3).blk t).view.set := by
  have hi0 : (i 0).val < 2048 := (i 0).isLt
  have hi1 : (i 1).val < 768 := (i 1).isLt
  have hN : cfg0.N = 4 := by decide
  have ht : (i 0).val / 512 < cfg0.N := by rw [hN]; omega
  obtain ⟨-, -, -, -, -, -, e0, e1⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 768 ≤ (i 1).val ∧ (i 1).val < win0_3.index ⟨(i 0).val / 512, ht⟩ (1 : Fin 2) * 768 + 768
    rw [e1]; omega

/-- Region 0's output array after the run is `G0` of the arrays the region found. -/
theorem final0 (c : Dev nD) :
    (dat0 (F := Ideal) V c).arrAt 3 cfg0.N = G0 (V c main_arg0) (V c main_v31) (V c main_v34) :=
  (dat0 (F := Ideal) V c).arrAt_eq_of_cover 3 (G0 (V c main_arg0) (V c main_v31) (V c main_v34)) (fun t _ => flushed0_eq V c t) cover0

/-- On casts of real arrays `G0` is the cast of the real projection: products and sums of casts are casts. -/
theorem G0_c2 (x : Fin 2048 → Fin 256 → ℝ) (W : Fin 256 → Fin 768 → ℝ) (b : Fin 768 → ℝ) :
    G0 (c2 x) (c2 W) (c2 (fun (_ : Fin 1) j => b j)) = c2 (qkvR x W b) := by
  funext i
  obtain ⟨r, q, rfl⟩ : ∃ (r : Fin 2048) (q : Fin 768), i = ix2 r q := ⟨i 0, i 1, eq_ix2 i⟩
  show (∑ k : Fin 256, c2 x (ix2 r k) * c2 W (ix2 k q)) + c2 (fun (_ : Fin 1) j => b j) (ix2 (0 : Fin 1) q) = ((qkvR x W b r q : ℝ) : EReal)
  simp only [c2_ix2]
  unfold qkvR
  rw [EReal.coe_add, coe_sum]
  congr 1

/-! ## Region 2's matrix product at an index -/

theorem lhs2_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs2_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs2_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs2_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- Entry (p, q) of region 2's product into the zero accumulator: the sum over the 256 shared features. -/
theorem mm2_apply (a : FVec Ideal S512x256 .bf16) (w : FVec Ideal S256x256 .bf16) (p : Fin 512) (q : Fin 256) :
    matmul dot_S512x256_S256x256_S512x256_1_0_0_1_n_n none a w (constant S512x256 .f32 0x00000000#32) (ix2 p q)
      = ∑ k : Fin 256, a (ix2 p k) * w (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-- Entry (p, q) of what region 2's body stores: row p of the block times column q of the weight, plus the bias. -/
theorem pay2_apply (x0 : Vec Ideal S512x256 .f32) (x1 : Vec Ideal S256x256 .bf16) (x2 : Vec Ideal S1x256 .f32) (p : Fin 512) (q : Fin 256) :
    k2_pay1 x0 x1 x2 (ix2 p q) = (∑ k : Fin 256, x0 (ix2 p k) * x1 (ix2 k q)) + x2 (ix2 (0 : Fin 1) q) := by
  unfold k2_pay1
  simp only [shapeCast_self]
  show (matmul (F := Ideal) dot_S512x256_S256x256_S512x256_1_0_0_1_n_n none (truncf FTy.bf16 (x0 : FVec Ideal S512x256 .f32) bitsLt_bf16_f32) (x1 : FVec Ideal S256x256 .bf16) (constant S512x256 FTy.f32 0x00000000#32) (ix2 p q) : EReal)
      + broadcastTo S512x256 x2 broadcasts_S1x256_S512x256 (ix2 p q) = _
  rw [mm2_apply, broadcastTo_apply x2 broadcasts_S1x256_S512x256 (ix2 p q) (ix2 (0 : Fin 1) q) (fun a => by
    match a with
    | ⟨0, _⟩ => rfl
    | ⟨1, _⟩ => rfl)]
  rfl

/-! ## Region 2: from the blocks to the array -/

/-- What region 2 leaves in its output array, as one function of the three arrays it reads: entry (r, q) is row r of
    the input times column q of the weight, plus entry q of the bias row. -/
def G2 (X : S2048x256.Idx → EReal) (W : S256x256.Idx → EReal) (B : S1x256.Idx → EReal) : S2048x256.Idx → EReal :=
  fun i => (∑ k : Fin 256, X (ix2 (⟨(i 0).val, (i 0).isLt⟩ : Fin 2048) k) * W (ix2 k (⟨(i 1).val, (i 1).isLt⟩ : Fin 256)))
    + B (ix2 (0 : Fin 1) (⟨(i 1).val, (i 1).isLt⟩ : Fin 256))

/-- The four windows' index maps over the grid: point t takes row block t of the input and of the output, and
    the whole weight and bias. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point t is rows 512·t … 512·t + 511 of the input array. -/
theorem iblk2_0_apply (c : Dev nD) (t : Fin cfg2.N) (x : S512x256.Idx) (k : S2048x256.Idx)
    (hk0 : (k 0).val = 512 * t.val + (x 0).val) (hk1 : (k 1).val = (x 1).val) :
    (iblk2 V c 0 t : Vec Ideal S512x256 .f32) x = (V c main_v49 : S2048x256.Idx → EReal) k := by
  obtain ⟨e0, e1, -⟩ := idx_facts2 t
  unfold iblk2
  rw [View.read_apply]
  show V c main_v49 _ = V c main_v49 _
  congr 1
  funext a
  apply Fin.ext
  match a with
  | ⟨0, _⟩ => show win2_0.index t (0 : Fin 2) * 512 + 1 * (x 0).val = (k 0).val; rw [e0, hk0]; omega
  | ⟨1, _⟩ => show win2_0.index t (1 : Fin 2) * 256 + 1 * (x 1).val = (k 1).val; rw [e1, hk1]; omega

/-- The weight's block at every point is the whole weight array. -/
theorem iblk2_1_eq (c : Dev nD) (t : Fin cfg2.N) :
    (iblk2 V c 1 t : Vec Ideal S256x256 .bf16) = (V c main_v33 : S256x256.Idx → EReal) := by
  obtain ⟨-, -, e0, e1, -⟩ := idx_facts2 t
  funext x
  unfold iblk2
  rw [View.read_apply]
  show V c main_v33 _ = V c main_v33 _
  congr 1
  funext a
  apply Fin.ext
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega

/-- The bias row's block at every point is the whole bias row. -/
theorem iblk2_2_eq (c : Dev nD) (t : Fin cfg2.N) :
    (iblk2 V c 2 t : Vec Ideal S1x256 .f32) = (V c main_v50 : S1x256.Idx → EReal) := by
  obtain ⟨-, -, -, -, e0, e1, -⟩ := idx_facts2 t
  funext x
  unfold iblk2
  rw [View.read_apply]
  show V c main_v50 _ = V c main_v50 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- The body's value of row block n of the input, the whole weight and the whole bias row is row block n of `G2`. -/
theorem blk2_eq (X : S2048x256.Idx → EReal) (W : S256x256.Idx → EReal) (B : S1x256.Idx → EReal)
    (x0 : Vec Ideal S512x256 .f32) (x1 : Vec Ideal S256x256 .bf16) (x2 : Vec Ideal S1x256 .f32) (n : Nat)
    (h0 : ∀ (x : S512x256.Idx) (k : S2048x256.Idx), (k 0).val = 512 * n + (x 0).val → (k 1).val = (x 1).val → x0 x = X k)
    (h1 : x1 = W) (h2 : x2 = B)
    (j : S512x256.Idx) (i : S2048x256.Idx) (hi0 : (i 0).val = 512 * n + (j 0).val) (hi1 : (i 1).val = (j 1).val) :
    k2_pay1 x0 x1 x2 j = G2 X W B i := by
  obtain ⟨p, q, rfl⟩ : ∃ (p : Fin 512) (q : Fin 256), j = ix2 p q := ⟨j 0, j 1, eq_ix2 j⟩
  have hb : 512 * n + p.val < 2048 := by have h2048 : (i 0).val < 2048 := (i 0).isLt; have e : (i 0).val = 512 * n + p.val := hi0; omega
  obtain rfl : i = ix2 (⟨512 * n + p.val, hb⟩ : Fin 2048) q := by
    funext a; apply Fin.ext
    match a with
    | ⟨0, _⟩ => exact hi0
    | ⟨1, _⟩ => exact hi1
  rw [pay2_apply]
  subst h1 h2
  show _ = (∑ k : Fin 256, X (ix2 (⟨512 * n + p.val, hb⟩ : Fin 2048) k) * x1 (ix2 k q)) + x2 (ix2 (0 : Fin 1) q)
  congr 1
  refine Finset.sum_congr rfl fun k _ => ?_
  rw [h0 (ix2 p k) (ix2 (⟨512 * n + p.val, hb⟩ : Fin 2048) k) rfl rfl]

/-- What point t writes back is block t of `G2` of the arrays as the region finds them. -/
theorem flushed2_eq (c : Dev nD) (t : Fin cfg2.N) :
    (dat2 (F := Ideal) V c).flushed 3 t = ((cfg2.win 3).blk t).view.read (Elt Ideal) (G2 (V c main_v49) (V c main_v33) (V c main_v50)) := by
  show (cfg2.win 3).cut (grid2.coords t) ((dat2 (F := Ideal) V c).after 3 t) = _
  rw [after2_3]
  unfold out2_3
  rw [View.canon_unit_zero hz]
  simp only [View.ld_unit_zero (S := S512x256) hz, View.ld_unit_zero (S := S256x256) hz, View.ld_unit_zero (S := S1x256) hz]
  obtain ⟨-, -, -, -, -, -, e0, e1⟩ := idx_facts2 t
  funext j
  show k2_pay1 (iblk2 V c 0 t) (iblk2 V c 1 t) (iblk2 V c 2 t) j = G2 (V c main_v49) (V c main_v33) (V c main_v50) (((cfg2.win 3).blk t).view.emb j)
  refine blk2_eq (V c main_v49) (V c main_v33) (V c main_v50) (iblk2 V c 0 t) (iblk2 V c 1 t) (iblk2 V c 2 t) t.val
    (fun x k hk0 hk1 => iblk2_0_apply V c t x k hk0 hk1) (iblk2_1_eq V c t) (iblk2_2_eq V c t) j (((cfg2.win 3).blk t).view.emb j) ?_ ?_
  · show win2_3.index t (0 : Fin 2) * 512 + 1 * (j 0).val = 512 * t.val + (j 0).val; rw [e0]; omega
  · show win2_3.index t (1 : Fin 2) * 256 + 1 * (j 1).val = (j 1).val; rw [e1]; omega

/-- An index of the output array is in point t's block iff each coordinate is in the block's range on its axis. -/
theorem mem_blk2 (t : Fin cfg2.N) (i : S2048x256.Idx) :
    i ∈ ((cfg2.win 3).blk t).view.set ↔ ∀ a : Fin 2, win2_3.index t a * S512x256.size a ≤ (i a).val ∧ (i a).val < win2_3.index t a * S512x256.size a + S512x256.size a := by
  show i ∈ ((View.whole main_v51).slice (win2_3.rect t)).set ↔ _
  rw [View.set_slice_whole, Rect.mem_set_unit]
  exact Iff.rfl

/-- Row r of the output array is in the block of point r / 512. -/
theorem cover2 (i : S2048x256.Idx) : ∃ t : Fin cfg2.N, (cfg2.win 3).flush t = true ∧ i ∈ ((cfg2.win 3).blk t).view.set := by
  have hi0 : (i 0).val < 2048 := (i 0).isLt
  have hi1 : (i 1).val < 256 := (i 1).isLt
  have hN : cfg2.N = 4 := by decide
  have ht : (i 0).val / 512 < cfg2.N := by rw [hN]; omega
  obtain ⟨-, -, -, -, -, -, e0, e1⟩ := idx_facts2 ⟨(i 0).val / 512, ht⟩
  refine ⟨⟨(i 0).val / 512, ht⟩, flush2_3 _, ?_⟩
  rw [mem_blk2]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win2_3.index ⟨(i 0).val / 512, ht⟩ (1 : Fin 2) * 256 ≤ (i 1).val ∧ (i 1).val < win2_3.index ⟨(i 0).val / 512, ht⟩ (1 : Fin 2) * 256 + 256
    rw [e1]; omega

/-- Region 2's output array after the run is `G2` of the arrays the region found. -/
theorem final2 (c : Dev nD) :
    (dat2 (F := Ideal) V c).arrAt 3 cfg2.N = G2 (V c main_v49) (V c main_v33) (V c main_v50) :=
  (dat2 (F := Ideal) V c).arrAt_eq_of_cover 3 (G2 (V c main_v49) (V c main_v33) (V c main_v50)) (fun t _ => flushed2_eq V c t) cover2

/-- On casts of real arrays `G2` is the cast of the real projection: products and sums of casts are casts. -/
theorem G2_c2 (a : Fin 2048 → Fin 256 → ℝ) (Wo : Fin 256 → Fin 256 → ℝ) (bo : Fin 256 → ℝ) :
    G2 (c2 a) (c2 Wo) (c2 (fun (_ : Fin 1) j => bo j)) = c2 (linR a Wo bo) := by
  funext i
  obtain ⟨r, q, rfl⟩ : ∃ (r : Fin 2048) (q : Fin 256), i = ix2 r q := ⟨i 0, i 1, eq_ix2 i⟩
  show (∑ k : Fin 256, c2 a (ix2 r k) * c2 Wo (ix2 k q)) + c2 (fun (_ : Fin 1) j => bo j) (ix2 (0 : Fin 1) q) = ((linR a Wo bo r q : ℝ) : EReal)
  simp only [c2_ix2]
  unfold linR
  rw [EReal.coe_add, coe_sum]
  congr 1

end Val02

open Val02

/-- Region 0 leaves in its output array the three projections side by side: `x · W + b` over the joined weight. -/
theorem reg0_val (c : Dev nD) (x : Fin 2048 → Fin 256 → ℝ) (W : Fin 256 → Fin 768 → ℝ) (b : Fin 768 → ℝ)
    (hx : (V c main_arg0 : S2048x256.Idx → EReal) = c2 x)
    (hW : (V c main_v31 : S256x768.Idx → EReal) = c2 W)
    (hb : (V c main_v34 : S1x768.Idx → EReal) = c2 (fun (_ : Fin 1) j => b j)) :
    ((dat0 (F := Ideal) V c).arrAt 3 cfg0.N : S2048x768.Idx → EReal) = c2 (qkvR x W b) := by
  have e := G0_c2 x W b
  rw [← hx, ← hW, ← hb] at e
  exact (final0 V c).trans e

/-- Region 2 leaves in its output array the last projection. -/
theorem reg2_val (c : Dev nD) (a : Fin 2048 → Fin 256 → ℝ) (Wo : Fin 256 → Fin 256 → ℝ) (bo : Fin 256 → ℝ)
    (ha : (V c main_v49 : S2048x256.Idx → EReal) = c2 a)
    (hW : (V c main_v33 : S256x256.Idx → EReal) = c2 Wo)
    (hb : (V c main_v50 : S1x256.Idx → EReal) = c2 (fun (_ : Fin 1) j => bo j)) :
    ((dat2 (F := Ideal) V c).arrAt 3 cfg2.N : S2048x256.Idx → EReal) = c2 (linR a Wo bo) := by
  have e := G2_c2 a Wo bo
  rw [← ha, ← hW, ← hb] at e
  exact (final2 V c).trans e

end Cert.KernelIdeal.Hand

end
-- ==== Proof.KIVal1.lean ====
import proofs.«417944_j30408368455794_3_alg».proof.Proof.KIDefs
import proofs.«417944_j30408368455794_3_alg».proof.Proof.Spec
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

/-!
# Region 1's output array is the chunk-accumulated attention

The body scales its 256 queries by one sixteenth and then walks the 16384 keys in eight chunks of 2048. Per chunk
it forms the scores `s = q · K`, the new running maximum `m' = max m (row maximum of s)` (from `m = -∞`), the rescale
factor `a = exp (m − m')`, the weights `p = exp (s − m')`, and the accumulator `acc · a + Vᵀ · pᵀ` (from `acc = 0`); the
value array's 33rd column is the constant one, so the accumulator's 33rd row carries the sum of the weights, and the
result is the first 32 rows over that row.

With every input a real number every one of these values is a real number: a matrix product of casts is the cast of
the real sum, a fold of `max` from `-∞` over casts is the cast of the real supremum, `exp` of a cast is the cast of the
real exponential, and in the first chunk `exp (-∞ − m') = 0` and `0 · 0 + x = x`. So chunk by chunk the running maximum
is `runMax` and each accumulator row is `accR` of the query's score row; the divisor is a sum of exponentials times
one, hence positive, and the quotient of the casts is the cast of the real quotient. Point `t` of the grid holds queries
`256·t … 256·t + 255`, and the 64 output blocks tile the array.
-/

namespace Val1
/-- The cast of a finite real sum is the sum of the casts. -/
theorem coe_sum' {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A fold of `max` from `⊥` over casts of reals is the cast of the real supremum. -/
theorem fold_max_coe {ι : Type*} (s : Finset ι) (hs : s.Nonempty) (f : ι → ℝ) :
    s.fold max (⊥ : EReal) (fun i => ((f i : ℝ) : EReal)) = ((s.sup' hs f : ℝ) : EReal) := by
  apply le_antisymm
  · exact (Finset.fold_max_le _).2 ⟨bot_le, fun x hx => EReal.coe_le_coe_iff.2 (Finset.le_sup' f hx)⟩
  · obtain ⟨x, hx, hmax⟩ := Finset.exists_mem_eq_sup' hs f
    rw [hmax]
    exact (Finset.le_fold_max _).2 (Or.inr ⟨x, hx, le_rfl⟩)

theorem coe_max' (a b : ℝ) : ((max a b : ℝ) : EReal) = max (a : EReal) (b : EReal) :=
  (EReal.coe_strictMono.monotone).map_max

/-- The quotient of two casts with a nonzero divisor is the cast of the real quotient. -/
theorem div_coe_coe (a b : ℝ) (hb : b ≠ 0) : Ideal.div (a : EReal) (b : EReal) = ((a / b : ℝ) : EReal) := by
  rw [Ideal.div_coe hb, ← EReal.coe_mul, mul_one_div]

/-- The literal `0x3D800000` is one sixteenth. -/
theorem ofBits_sixteenth : Ideal.ofBits .f32 0x3D800000#32 = (((1 : ℝ) / 16 : ℝ) : EReal) := by
  simp [Ideal.ofBits, Ideal.ieee, -EReal.coe_mul]; norm_num

/-- The literal `0xFF800000` is `-∞`. -/
theorem ofBits_neg_inf : Ideal.ofBits .f32 0xFF800000#32 = ⊥ := by
  simp [Ideal.ofBits, Ideal.ieee]

/-! ## The accumulator of the ones column is positive -/

theorem atNat_nonneg (f : Fin 16384 → ℝ) (hf : ∀ n, 0 ≤ f n) (k : ℕ) : 0 ≤ atNat f k := by
  unfold atNat; split
  · exact hf _
  · exact le_rfl

theorem chunkSum_nonneg (f : Fin 16384 → ℝ) (hf : ∀ n, 0 ≤ f n) (c : ℕ) : 0 ≤ chunkSum f c :=
  Finset.sum_nonneg fun i _ => atNat_nonneg f hf _

theorem chunkSum_zero_pos (f : Fin 16384 → ℝ) (hf : ∀ n, 0 < f n) : 0 < chunkSum f 0 := by
  unfold chunkSum
  refine Finset.sum_pos (fun i _ => ?_) Finset.univ_nonempty
  unfold atNat
  rw [dif_pos (by have := i.isLt; omega)]
  exact hf _

theorem accR_ones_pos (s : Fin 16384 → ℝ) : ∀ c : ℕ, 0 < accR s (fun _ => 1) c
  | 0 => by
    rw [accR]
    exact chunkSum_zero_pos _ fun n => by rw [one_mul]; exact Real.exp_pos _
  | c + 1 => by
    rw [accR]
    refine add_pos_of_pos_of_nonneg (mul_pos (accR_ones_pos s c) (Real.exp_pos _)) ?_
    exact chunkSum_nonneg _ (fun n => by rw [one_mul]; exact (Real.exp_pos _).le) _

/-! ## The body's operations, one chunk at a time -/

section Ops
variable {F : FTy → Type} [FloatOps F]

/-- A chunk's scores: the scaled queries times the chunk of transposed keys. -/
def scK (q5 : FVec F S256x32 .bf16) (k : Vec F S32x2048 .bf16) : FVec F S256x2048 .f32 :=
  matmul dot_S256x32_S32x2048_S256x2048_1_0_0_1_n_n none q5 (shapeCast S32x2048 k shapeCasts_S32x2048_S32x2048)
    (constant S256x2048 .f32 0x00000000#32)

/-- The running maximum after a chunk: the old one against the chunk's row maxima. -/
def mxK (m : FVec F S256x1 .f32) (s : FVec F S256x2048 .f32) : FVec F S256x1 .f32 :=
  maximumf m (shapeCast S256x1 (multiReduction .maximumf [1] S256 s 0xFF800000#32 reduces_S256x2048_S256 (.inl rfl) rfl)
    shapeCasts_S256_S256x1)

/-- The rescale factor `exp (old maximum − new maximum)`. -/
def aK (m m' : FVec F S256x1 .f32) : FVec F S256x1 .f32 := exp (subf m m')

/-- The chunk's weights `exp (score − new maximum)`. -/
def pK (s : FVec F S256x2048 .f32) (m' : FVec F S256x1 .f32) : FVec F S256x2048 .bf16 :=
  truncf .bf16 (exp (subf s (broadcastTo S256x2048 m' broadcasts_S256x1_S256x2048))) bitsLt_bf16_f32

/-- The accumulator rescaled, plus the chunk's values weighted. -/
def accK (acc : FVec F S33x256 .f32) (a : FVec F S256x1 .f32) (p : FVec F S256x2048 .bf16) (v : FVec F S2048x33 .bf16) :
    FVec F S33x256 .f32 :=
  addf (mulf acc (broadcastTo S33x256 (transpose S1x256 [1, 0] a transposes_S256x1_p1_0_S1x256) broadcasts_S1x256_S33x256))
    (matmul dot_S2048x33_S256x2048_S33x256_0_1_1_0_n_n none v p (constant S33x256 .f32 0x00000000#32))

/-- A chunk of the value array as the body reads it. -/
def vK (v : Vec F S2048x33 .bf16) : FVec F S2048x33 .bf16 := shapeCast S2048x33 v shapeCasts_S2048x33_S2048x33

/-- The accumulator's 32 value rows over its row of weight sums. -/
def finK (acc : FVec F S33x256 .f32) : FVec F S32x256 .f32 :=
  divf (extractStridedSlice S32x256 ![0, 0] acc slices_S33x256_o0_0_S32x256)
    (broadcastTo S32x256 (extractStridedSlice S1x256 ![32, 0] acc slices_S33x256_o32_0_S1x256) broadcasts_S1x256_S32x256)

/-- The accumulator before the first chunk. -/
def acc0K : FVec F S33x256 .f32 := broadcast S33x256 (Scalar.ofBits .f32 0x00000000#32)

variable (x0 : Vec F S256x32 .bf16) (x1 : Vec F S32x16384 .bf16) (x2 : Vec F S16384x33 .bf16)

/-! The eight chunks' scores, running maxima and accumulators, as the body computes them from its three blocks. -/
def cS0 : FVec F S256x2048 .f32 := scK (a1_v5 x0) (View.ld x1 r1_k0)
def cS1 : FVec F S256x2048 .f32 := scK (a1_v5 x0) (View.ld x1 r1_k1)
def cS2 : FVec F S256x2048 .f32 := scK (a1_v5 x0) (View.ld x1 r1_k2)
def cS3 : FVec F S256x2048 .f32 := scK (a1_v5 x0) (View.ld x1 r1_k3)
def cS4 : FVec F S256x2048 .f32 := scK (a1_v5 x0) (View.ld x1 r1_k4)
def cS5 : FVec F S256x2048 .f32 := scK (a1_v5 x0) (View.ld x1 r1_k5)
def cS6 : FVec F S256x2048 .f32 := scK (a1_v5 x0) (View.ld x1 r1_k6)
def cS7 : FVec F S256x2048 .f32 := scK (a1_v5 x0) (View.ld x1 r1_k7)
def cM0 : FVec F S256x1 .f32 := mxK (k1_pay3 (F := F)) (cS0 x0 x1)
def cM1 : FVec F S256x1 .f32 := mxK (cM0 x0 x1) (cS1 x0 x1)
def cM2 : FVec F S256x1 .f32 := mxK (cM1 x0 x1) (cS2 x0 x1)
def cM3 : FVec F S256x1 .f32 := mxK (cM2 x0 x1) (cS3 x0 x1)
def cM4 : FVec F S256x1 .f32 := mxK (cM3 x0 x1) (cS4 x0 x1)
def cM5 : FVec F S256x1 .f32 := mxK (cM4 x0 x1) (cS5 x0 x1)
def cM6 : FVec F S256x1 .f32 := mxK (cM5 x0 x1) (cS6 x0 x1)
def cM7 : FVec F S256x1 .f32 := mxK (cM6 x0 x1) (cS7 x0 x1)
def cA0 : FVec F S33x256 .f32 :=
  accK (acc0K (F := F)) (aK (k1_pay3 (F := F)) (cM0 x0 x1)) (pK (cS0 x0 x1) (cM0 x0 x1)) (vK (View.ld x2 r1_v0))
def cA1 : FVec F S33x256 .f32 :=
  accK (cA0 x0 x1 x2) (aK (cM0 x0 x1) (cM1 x0 x1)) (pK (cS1 x0 x1) (cM1 x0 x1)) (vK (View.ld x2 r1_v1))
def cA2 : FVec F S33x256 .f32 :=
  accK (cA1 x0 x1 x2) (aK (cM1 x0 x1) (cM2 x0 x1)) (pK (cS2 x0 x1) (cM2 x0 x1)) (vK (View.ld x2 r1_v2))
def cA3 : FVec F S33x256 .f32 :=
  accK (cA2 x0 x1 x2) (aK (cM2 x0 x1) (cM3 x0 x1)) (pK (cS3 x0 x1) (cM3 x0 x1)) (vK (View.ld x2 r1_v3))
def cA4 : FVec F S33x256 .f32 :=
  accK (cA3 x0 x1 x2) (aK (cM3 x0 x1) (cM4 x0 x1)) (pK (cS4 x0 x1) (cM4 x0 x1)) (vK (View.ld x2 r1_v4))
def cA5 : FVec F S33x256 .f32 :=
  accK (cA4 x0 x1 x2) (aK (cM4 x0 x1) (cM5 x0 x1)) (pK (cS5 x0 x1) (cM5 x0 x1)) (vK (View.ld x2 r1_v5))
def cA6 : FVec F S33x256 .f32 :=
  accK (cA5 x0 x1 x2) (aK (cM5 x0 x1) (cM6 x0 x1)) (pK (cS6 x0 x1) (cM6 x0 x1)) (vK (View.ld x2 r1_v6))
def cA7 : FVec F S33x256 .f32 :=
  accK (cA6 x0 x1 x2) (aK (cM6 x0 x1) (cM7 x0 x1)) (pK (cS7 x0 x1) (cM7 x0 x1)) (vK (View.ld x2 r1_v7))

/-! The body's named values are these. -/
theorem v26_eq : a1_v26 x0 x1 x2 = cA0 x0 x1 x2 := rfl
theorem v30_eq : a1_v30 x2 = vK (View.ld x2 r1_v1) := rfl
theorem v34_eq : a1_v34 x0 x1 = cM1 x0 x1 := rfl
theorem v36_eq : a1_v36 x0 x1 = aK (cM0 x0 x1) (cM1 x0 x1) := rfl
theorem v40_eq : a1_v40 x0 x1 = pK (cS1 x0 x1) (cM1 x0 x1) := rfl
theorem v72_eq : a1_v72 x0 x1 = cM3 x0 x1 := rfl
theorem v83_eq : a1_v83 x0 x1 x2 = cA3 x0 x1 x2 := rfl
theorem v110_eq : a1_v110 x0 x1 = cM5 x0 x1 := rfl
theorem v121_eq : a1_v121 x0 x1 x2 = cA5 x0 x1 x2 := rfl
theorem v125_eq : a1_v125 x2 = vK (View.ld x2 r1_v6) := rfl
theorem v126_eq : a1_v126 x0 x1 = cS6 x0 x1 := rfl

/-- The payload the body stores is the last accumulator's value rows over its weight-sum row. -/
theorem pay1_eq : k1_pay1 (a1_v5 x0) (a1_v110 x0 x1) (a1_v121 x0 x1 x2) (a1_v125 x2) (a1_v126 x0 x1)
    (View.ld x1 r1_k7) (View.ld x2 r1_v7) = finK (cA7 x0 x1 x2) := rfl

end Ops

/-! ## The operations on arrays of reals -/

section Values
open ValueIdx

theorem hz2 : (![0, 0] : Fin 2 → Nat) = fun _ => 0 := funext fun a => by fin_cases a <;> rfl

/-- The scaled queries: each entry times one sixteenth. -/
theorem q5_fun (x0 : Vec Ideal S256x32 .bf16) :
    a1_v5 x0 = fun i => (x0 i : EReal) * Ideal.ofBits .f32 0x3D800000#32 := by
  unfold a1_v5 k1_pay2
  simp only [View.ld_unit_zero (S := S256x32) hz2, shapeCast_self]
  rfl

theorem q5_val (x0 : Vec Ideal S256x32 .bf16) (Qb : Fin 256 → Fin 32 → ℝ) (h0 : x0 = c2 Qb) :
    a1_v5 x0 = c2 (fun q j => Qb q j * (1 / 16)) := by
  subst h0
  rw [q5_fun]
  funext idx
  obtain ⟨q, j, rfl⟩ : ∃ (q : Fin 256) (j : Fin 32), idx = ix2 q j := ⟨idx 0, idx 1, eq_ix2 idx⟩
  rw [c2_ix2, c2_ix2, ofBits_sixteenth, EReal.coe_mul]

/-! ### The scores' matrix product -/

theorem lhs_sc_0 (i : S256x2048.Idx) (k : dot_S256x32_S32x2048_S256x2048_1_0_0_1_n_n.contr.Idx) :
    (dot_S256x32_S32x2048_S256x2048_1_0_0_1_n_n.lhsIdx i k 0).val = (i 0).val := by
  unfold DotDims.lhsIdx
  rw [dif_neg (show ¬(0 : Fin S256x32.rank) ∈ dot_S256x32_S32x2048_S256x2048_1_0_0_1_n_n.lhsBatch by decide),
    dif_pos (show (0 : Fin S256x32.rank) ∈ dot_S256x32_S32x2048_S256x2048_1_0_0_1_n_n.lhsNonContracting by decide)]
  rfl
theorem lhs_sc_1 (i : S256x2048.Idx) (k : dot_S256x32_S32x2048_S256x2048_1_0_0_1_n_n.contr.Idx) :
    (dot_S256x32_S32x2048_S256x2048_1_0_0_1_n_n.lhsIdx i k 1).val = (k ⟨0, by decide⟩).val :=
  dot_S256x32_S32x2048_S256x2048_1_0_0_1_n_n.lhsIdx_val_of_single rfl i k
theorem rhs_sc_0 (i : S256x2048.Idx) (k : dot_S256x32_S32x2048_S256x2048_1_0_0_1_n_n.contr.Idx) :
    (dot_S256x32_S32x2048_S256x2048_1_0_0_1_n_n.rhsIdx i k 0).val = (k ⟨0, by decide⟩).val :=
  dot_S256x32_S32x2048_S256x2048_1_0_0_1_n_n.rhsIdx_val_of_single rfl i k
theorem rhs_sc_1 (i : S256x2048.Idx) (k : dot_S256x32_S32x2048_S256x2048_1_0_0_1_n_n.contr.Idx) :
    (dot_S256x32_S32x2048_S256x2048_1_0_0_1_n_n.rhsIdx i k 1).val = (i 1).val := by
  unfold DotDims.rhsIdx
  rw [dif_neg (show ¬(1 : Fin S32x2048.rank) ∈ dot_S256x32_S32x2048_S256x2048_1_0_0_1_n_n.rhsBatch by decide),
    dif_pos (show (1 : Fin S32x2048.rank) ∈ dot_S256x32_S32x2048_S256x2048_1_0_0_1_n_n.rhsNonContracting by decide)]
  rfl

/-- A chunk's scores at query `q` and key `i`: the sum over the 32 features. -/
theorem sc_val (q5 : FVec Ideal S256x32 .bf16) (k : Vec Ideal S32x2048 .bf16) (A : Fin 256 → Fin 32 → ℝ)
    (B : Fin 32 → Fin 2048 → ℝ) (h5 : q5 = c2 A) (hk : k = c2 B) :
    scK q5 k = c2 (fun q i => ∑ j : Fin 32, A q j * B j i) := by
  funext idx
  obtain ⟨q, i, rfl⟩ : ∃ (q : Fin 256) (i : Fin 2048), idx = ix2 q i := ⟨idx 0, idx 1, eq_ix2 idx⟩
  unfold scK
  rw [shapeCast_self]
  refine (Ideal.matmul_constant_zero_apply (φ₁ := .bf16) (φ₂ := .bf16) dot_S256x32_S32x2048_S256x2048_1_0_0_1_n_n none q5 k (ix2 q i)).trans ?_
  rw [h5, hk, ← Equiv.sum_comp (contrEquiv1 dot_S256x32_S32x2048_S256x2048_1_0_0_1_n_n 32 rfl rfl).symm, c2_ix2, coe_sum']
  refine Finset.sum_congr rfl fun j _ => ?_
  have hj := contrEquiv1_symm_val dot_S256x32_S32x2048_S256x2048_1_0_0_1_n_n 32 rfl rfl j
  have el : dot_S256x32_S32x2048_S256x2048_1_0_0_1_n_n.lhsIdx (ix2 q i)
      ((contrEquiv1 dot_S256x32_S32x2048_S256x2048_1_0_0_1_n_n 32 rfl rfl).symm j) = ix2 q j := funext fun a => Fin.ext (by
    match a with
    | ⟨0, _⟩ => exact lhs_sc_0 _ _
    | ⟨1, _⟩ => exact (lhs_sc_1 _ _).trans hj)
  have er : dot_S256x32_S32x2048_S256x2048_1_0_0_1_n_n.rhsIdx (ix2 q i)
      ((contrEquiv1 dot_S256x32_S32x2048_S256x2048_1_0_0_1_n_n 32 rfl rfl).symm j) = ix2 j i := funext fun a => Fin.ext (by
    match a with
    | ⟨0, _⟩ => exact (rhs_sc_0 _ _).trans hj
    | ⟨1, _⟩ => exact rhs_sc_1 _ _)
  rw [el, er, c2_ix2, c2_ix2, EReal.coe_mul]

/-! ### The row maximum -/

theorem lift_ix (q : Fin 256) (i : Fin 2048) :
    reduces_S256x2048_S256.lift (ix1 q) i = ix2 q i := by
  funext a
  match a with
  | ⟨0, _⟩ => exact Fin.ext rfl
  | ⟨1, _⟩ => exact Fin.ext rfl

/-- The fold of `max` from `-∞` along a score row is the cast of the row's real maximum. -/
theorem fold_max_lift (S : Fin 256 → Fin 2048 → ℝ) (q : Fin 256) :
    (Finset.univ : Finset (Fin (S256x2048.size 1))).fold max (⊥ : EReal) (c2 S ∘ reduces_S256x2048_S256.lift (ix1 q))
      = ((Finset.univ.sup' (Finset.univ_nonempty (α := Fin 2048)) (S q) : ℝ) : EReal) := by
  have e : (c2 S ∘ reduces_S256x2048_S256.lift (ix1 q)) = fun i : Fin 2048 => ((S q i : ℝ) : EReal) :=
    funext fun i => (congrArg (c2 S) (lift_ix q i)).trans (c2_ix2 S q i)
  rw [e]
  exact fold_max_coe (Finset.univ : Finset (Fin 2048)) Finset.univ_nonempty (S q)

/-- The chunk's row maxima, as a column. -/
theorem rowmax_val (s : FVec Ideal S256x2048 .f32) (S : Fin 256 → Fin 2048 → ℝ) (hs : s = c2 S) :
    shapeCast S256x1 (multiReduction .maximumf [1] S256 s 0xFF800000#32 reduces_S256x2048_S256 (.inl rfl) rfl) shapeCasts_S256_S256x1
      = c2 (fun q (_ : Fin 1) => Finset.univ.sup' (Finset.univ_nonempty (α := Fin 2048)) (S q)) := by
  funext idx
  obtain ⟨q, z, rfl⟩ : ∃ (q : Fin 256) (z : Fin 1), idx = ix2 q z := ⟨idx 0, idx 1, eq_ix2 idx⟩
  refine (shapeCast_apply _ shapeCasts_S256_S256x1 (ix2 q z) (ix1 q) ?_).trans ?_
  · rw [Shape.rowMajor_val_one, Shape.rowMajor_val_two]
    show q.val = q.val * 1 + z.val
    have := z.isLt; omega
  refine (Ideal.multiReduction_maximumf_single (φ := .f32) s 0xFF800000#32 reduces_S256x2048_S256 (.inl rfl) rfl (ix1 q)).trans ?_
  rw [hs, Ideal.ofBits_def, ofBits_neg_inf, c2_ix2]
  exact fold_max_lift S q

/-- The running maximum against a chunk's scores. -/
theorem mx_val (m : FVec Ideal S256x1 .f32) (s : FVec Ideal S256x2048 .f32) (M : Fin 256 → ℝ) (S : Fin 256 → Fin 2048 → ℝ)
    (hm : m = c2 (fun q (_ : Fin 1) => M q)) (hs : s = c2 S) :
    mxK m s = c2 (fun q (_ : Fin 1) => max (M q) (Finset.univ.sup' (Finset.univ_nonempty (α := Fin 2048)) (S q))) := by
  unfold mxK
  rw [rowmax_val s S hs]
  subst hm
  funext idx
  obtain ⟨q, z, rfl⟩ : ∃ (q : Fin 256) (z : Fin 1), idx = ix2 q z := ⟨idx 0, idx 1, eq_ix2 idx⟩
  rw [maximumf_apply, c2_ix2, c2_ix2, c2_ix2, coe_max']

/-- Before the first chunk the running maximum is `-∞`, so after it it is the chunk's row maximum. -/
theorem mx0_val (s : FVec Ideal S256x2048 .f32) (S : Fin 256 → Fin 2048 → ℝ) (hs : s = c2 S) :
    mxK (k1_pay3 (F := Ideal)) s = c2 (fun q (_ : Fin 1) => Finset.univ.sup' (Finset.univ_nonempty (α := Fin 2048)) (S q)) := by
  unfold mxK
  rw [rowmax_val s S hs]
  funext idx
  rw [maximumf_apply]
  show max (Ideal.ofBits .f32 0xFF800000#32) _ = _
  rw [ofBits_neg_inf]
  exact max_bot_left _

/-- The rescale factor between two real maxima. -/
theorem a_val (m m' : FVec Ideal S256x1 .f32) (M M' : Fin 256 → ℝ)
    (hm : m = c2 (fun q (_ : Fin 1) => M q)) (hm' : m' = c2 (fun q (_ : Fin 1) => M' q)) :
    aK m m' = c2 (fun q (_ : Fin 1) => Real.exp (M q - M' q)) := by
  funext idx
  obtain ⟨q, z, rfl⟩ : ∃ (q : Fin 256) (z : Fin 1), idx = ix2 q z := ⟨idx 0, idx 1, eq_ix2 idx⟩
  show Ideal.exp (m (ix2 q z) - m' (ix2 q z)) = _
  rw [hm, hm', c2_ix2, c2_ix2, c2_ix2, ← EReal.coe_sub, Ideal.exp_coe]

/-- Before the first chunk the old maximum is `-∞` and the rescale factor is `exp (-∞) = 0`. -/
theorem a0_val (m' : FVec Ideal S256x1 .f32) (M' : Fin 256 → ℝ) (hm' : m' = c2 (fun q (_ : Fin 1) => M' q)) :
    aK (k1_pay3 (F := Ideal)) m' = fun _ => 0 := by
  funext idx
  obtain ⟨q, z, rfl⟩ : ∃ (q : Fin 256) (z : Fin 1), idx = ix2 q z := ⟨idx 0, idx 1, eq_ix2 idx⟩
  show Ideal.exp (Ideal.ofBits .f32 0xFF800000#32 - m' (ix2 q z)) = _
  rw [hm', c2_ix2, ofBits_neg_inf, EReal.bot_sub, Ideal.exp_bot]

/-- The chunk's weights. -/
theorem p_val (s : FVec Ideal S256x2048 .f32) (m' : FVec Ideal S256x1 .f32) (S : Fin 256 → Fin 2048 → ℝ) (M' : Fin 256 → ℝ)
    (hs : s = c2 S) (hm' : m' = c2 (fun q (_ : Fin 1) => M' q)) :
    pK s m' = c2 (fun q i => Real.exp (S q i - M' q)) := by
  subst hs hm'
  funext idx
  obtain ⟨q, i, rfl⟩ : ∃ (q : Fin 256) (i : Fin 2048), idx = ix2 q i := ⟨idx 0, idx 1, eq_ix2 idx⟩
  show Ideal.exp (c2 S (ix2 q i) - broadcastTo S256x2048 (c2 (fun q (_ : Fin 1) => M' q)) broadcasts_S256x1_S256x2048 (ix2 q i)) = _
  rw [broadcastTo_apply _ broadcasts_S256x1_S256x2048 (ix2 q i) (ix2 q (0 : Fin 1)) (fun a => by
    match a with
    | ⟨0, _⟩ => rfl
    | ⟨1, _⟩ => rfl)]
  rw [c2_ix2, c2_ix2, c2_ix2, ← EReal.coe_sub, Ideal.exp_coe]

/-! ### The weights-times-values product -/

theorem lhs_pv_0 (i : S33x256.Idx) (k : dot_S2048x33_S256x2048_S33x256_0_1_1_0_n_n.contr.Idx) :
    (dot_S2048x33_S256x2048_S33x256_0_1_1_0_n_n.lhsIdx i k 0).val = (k ⟨0, by decide⟩).val :=
  dot_S2048x33_S256x2048_S33x256_0_1_1_0_n_n.lhsIdx_val_of_single rfl i k
theorem lhs_pv_1 (i : S33x256.Idx) (k : dot_S2048x33_S256x2048_S33x256_0_1_1_0_n_n.contr.Idx) :
    (dot_S2048x33_S256x2048_S33x256_0_1_1_0_n_n.lhsIdx i k 1).val = (i 0).val := by
  unfold DotDims.lhsIdx
  rw [dif_neg (show ¬(1 : Fin S2048x33.rank) ∈ dot_S2048x33_S256x2048_S33x256_0_1_1_0_n_n.lhsBatch by decide),
    dif_pos (show (1 : Fin S2048x33.rank) ∈ dot_S2048x33_S256x2048_S33x256_0_1_1_0_n_n.lhsNonContracting by decide)]
  rfl
theorem rhs_pv_0 (i : S33x256.Idx) (k : dot_S2048x33_S256x2048_S33x256_0_1_1_0_n_n.contr.Idx) :
    (dot_S2048x33_S256x2048_S33x256_0_1_1_0_n_n.rhsIdx i k 0).val = (i 1).val := by
  unfold DotDims.rhsIdx
  rw [dif_neg (show ¬(0 : Fin S256x2048.rank) ∈ dot_S2048x33_S256x2048_S33x256_0_1_1_0_n_n.rhsBatch by decide),
    dif_pos (show (0 : Fin S256x2048.rank) ∈ dot_S2048x33_S256x2048_S33x256_0_1_1_0_n_n.rhsNonContracting by decide)]
  rfl
theorem rhs_pv_1 (i : S33x256.Idx) (k : dot_S2048x33_S256x2048_S33x256_0_1_1_0_n_n.contr.Idx) :
    (dot_S2048x33_S256x2048_S33x256_0_1_1_0_n_n.rhsIdx i k 1).val = (k ⟨0, by decide⟩).val :=
  dot_S2048x33_S256x2048_S33x256_0_1_1_0_n_n.rhsIdx_val_of_single rfl i k

/-- The chunk's values weighted, at value column `r` and query `q`: the sum over the chunk's 2048 keys. -/
theorem pv_val (v : FVec Ideal S2048x33 .bf16) (p : FVec Ideal S256x2048 .bf16) (Vc : Fin 2048 → Fin 33 → ℝ)
    (P : Fin 256 → Fin 2048 → ℝ) (hv : v = c2 Vc) (hp : p = c2 P) (r : Fin 33) (q : Fin 256) :
    matmul dot_S2048x33_S256x2048_S33x256_0_1_1_0_n_n none v p (constant S33x256 .f32 0x00000000#32) (ix2 r q)
      = ((∑ i : Fin 2048, Vc i r * P q i : ℝ) : EReal) := by
  refine (Ideal.matmul_constant_zero_apply (φ₁ := .bf16) (φ₂ := .bf16) dot_S2048x33_S256x2048_S33x256_0_1_1_0_n_n none v p (ix2 r q)).trans ?_
  rw [hv, hp, ← Equiv.sum_comp (contrEquiv1 dot_S2048x33_S256x2048_S33x256_0_1_1_0_n_n 2048 rfl rfl).symm, coe_sum']
  refine Finset.sum_congr rfl fun i _ => ?_
  have hi := contrEquiv1_symm_val dot_S2048x33_S256x2048_S33x256_0_1_1_0_n_n 2048 rfl rfl i
  have el : dot_S2048x33_S256x2048_S33x256_0_1_1_0_n_n.lhsIdx (ix2 r q)
      ((contrEquiv1 dot_S2048x33_S256x2048_S33x256_0_1_1_0_n_n 2048 rfl rfl).symm i) = ix2 i r := funext fun a => Fin.ext (by
    match a with
    | ⟨0, _⟩ => exact (lhs_pv_0 _ _).trans hi
    | ⟨1, _⟩ => exact lhs_pv_1 _ _)
  have er : dot_S2048x33_S256x2048_S33x256_0_1_1_0_n_n.rhsIdx (ix2 r q)
      ((contrEquiv1 dot_S2048x33_S256x2048_S33x256_0_1_1_0_n_n 2048 rfl rfl).symm i) = ix2 q i := funext fun a => Fin.ext (by
    match a with
    | ⟨0, _⟩ => exact rhs_pv_0 _ _
    | ⟨1, _⟩ => exact (rhs_pv_1 _ _).trans hi)
  rw [el, er, c2_ix2, c2_ix2, EReal.coe_mul]

/-- The rescale column, transposed and spread over the 33 rows, read at row `r` and query `q`. -/
theorem bcT_val (a : FVec Ideal S256x1 .f32) (r : Fin 33) (q : Fin 256) :
    broadcastTo S33x256 (transpose S1x256 [1, 0] a transposes_S256x1_p1_0_S1x256) broadcasts_S1x256_S33x256 (ix2 r q)
      = a (ix2 q (0 : Fin 1)) := by
  refine (broadcastTo_apply _ broadcasts_S1x256_S33x256 (ix2 r q) (ix2 (0 : Fin 1) q) (fun a => by
    match a with
    | ⟨0, _⟩ => rfl
    | ⟨1, _⟩ => rfl)).trans ?_
  exact transpose_apply [1, 0] a transposes_S256x1_p1_0_S1x256 (ix2 (0 : Fin 1) q) (ix2 q (0 : Fin 1)) (fun b => by
    match b with
    | ⟨0, _⟩ => rfl
    | ⟨1, _⟩ => rfl)

/-- One chunk's update of the accumulator. -/
theorem acc_val (acc : FVec Ideal S33x256 .f32) (a : FVec Ideal S256x1 .f32) (p : FVec Ideal S256x2048 .bf16)
    (v : FVec Ideal S2048x33 .bf16) (A : Fin 33 → Fin 256 → ℝ) (a' : Fin 256 → ℝ) (P : Fin 256 → Fin 2048 → ℝ)
    (Vc : Fin 2048 → Fin 33 → ℝ) (hacc : acc = c2 A) (ha : a = c2 (fun q (_ : Fin 1) => a' q)) (hp : p = c2 P) (hv : v = c2 Vc) :
    accK acc a p v = c2 (fun r q => A r q * a' q + ∑ i : Fin 2048, Vc i r * P q i) := by
  funext idx
  obtain ⟨r, q, rfl⟩ : ∃ (r : Fin 33) (q : Fin 256), idx = ix2 r q := ⟨idx 0, idx 1, eq_ix2 idx⟩
  unfold accK
  rw [addf_apply, mulf_apply, bcT_val, pv_val v p Vc P hv hp r q, hacc, ha, c2_ix2, c2_ix2, c2_ix2, ← EReal.coe_mul,
    ← EReal.coe_add]

/-- The first chunk's update: the accumulator is zero and the rescale factor is zero, and `0 · 0 + x = x`. -/
theorem acc0_val (a : FVec Ideal S256x1 .f32) (p : FVec Ideal S256x2048 .bf16) (v : FVec Ideal S2048x33 .bf16)
    (P : Fin 256 → Fin 2048 → ℝ) (Vc : Fin 2048 → Fin 33 → ℝ) (ha : a = fun _ => 0) (hp : p = c2 P) (hv : v = c2 Vc) :
    accK (acc0K (F := Ideal)) a p v = c2 (fun r q => ∑ i : Fin 2048, Vc i r * P q i) := by
  funext idx
  obtain ⟨r, q, rfl⟩ : ∃ (r : Fin 33) (q : Fin 256), idx = ix2 r q := ⟨idx 0, idx 1, eq_ix2 idx⟩
  unfold accK
  rw [addf_apply, mulf_apply, bcT_val, pv_val v p Vc P hv hp r q, ha, c2_ix2]
  show Ideal.ofBits .f32 0x00000000#32 * (0 : EReal) + _ = _
  rw [Ideal.ofBits_zero_f32, mul_zero, zero_add]

/-- The result: each value row of the accumulator over its row of weight sums, where that row is not zero. -/
theorem fin_val (acc : FVec Ideal S33x256 .f32) (A : Fin 33 → Fin 256 → ℝ) (hacc : acc = c2 A)
    (hne : ∀ q, A ⟨32, by omega⟩ q ≠ 0) :
    finK acc = c2 (fun (j : Fin 32) q => A ⟨j.val, by omega⟩ q / A ⟨32, by omega⟩ q) := by
  funext idx
  obtain ⟨j, q, rfl⟩ : ∃ (j : Fin 32) (q : Fin 256), idx = ix2 j q := ⟨idx 0, idx 1, eq_ix2 idx⟩
  have e1 : extractStridedSlice S32x256 ![0, 0] acc slices_S33x256_o0_0_S32x256 (ix2 j q)
      = ((A ⟨j.val, by omega⟩ q : ℝ) : EReal) :=
    (extractStridedSlice_apply ![0, 0] acc slices_S33x256_o0_0_S32x256 (ix2 j q) (ix2 (⟨j.val, by omega⟩ : Fin 33) q) (fun a => by
      match a with
      | ⟨0, _⟩ => show j.val = 0 + j.val; omega
      | ⟨1, _⟩ => show q.val = 0 + q.val; omega)).trans (by rw [hacc, c2_ix2])
  have e2 : broadcastTo S32x256 (extractStridedSlice S1x256 ![32, 0] acc slices_S33x256_o32_0_S1x256) broadcasts_S1x256_S32x256 (ix2 j q)
      = ((A ⟨32, by omega⟩ q : ℝ) : EReal) :=
    (broadcastTo_apply _ broadcasts_S1x256_S32x256 (ix2 j q) (ix2 (0 : Fin 1) q) (fun a => by
      match a with
      | ⟨0, _⟩ => rfl
      | ⟨1, _⟩ => rfl)).trans
    ((extractStridedSlice_apply ![32, 0] acc slices_S33x256_o32_0_S1x256 (ix2 (0 : Fin 1) q) (ix2 (⟨32, by omega⟩ : Fin 33) q) (fun a => by
      match a with
      | ⟨0, _⟩ => rfl
      | ⟨1, _⟩ => show q.val = 0 + q.val; omega)).trans (by rw [hacc, c2_ix2]))
  unfold finK
  rw [divf_apply, e1, e2, c2_ix2, div_coe_coe _ _ (hne q)]

/-! ### The loaded chunks -/

/-- A key chunk: columns `o … o + 2047` of the transposed keys. -/
theorem ldk_val (x1 : Vec Ideal S32x16384 .bf16) (KT : Fin 32 → Fin 16384 → ℝ) (h1 : x1 = c2 KT) (o : ℕ) (ho : o + 2048 ≤ 16384)
    (inb : ∀ a, (![0, o] : Fin 2 → Nat) a + S32x2048.size a ≤ S32x16384.size a) :
    (View.ld x1 (Rect.unit (s := S32x16384) ![0, o] S32x2048.size inb) : S32x2048.Idx → EReal)
      = c2 (fun j (i : Fin 2048) => KT j ⟨o + i.val, by omega⟩) := by
  funext idx
  obtain ⟨j, i, rfl⟩ : ∃ (j : Fin 32) (i : Fin 2048), idx = ix2 j i := ⟨idx 0, idx 1, eq_ix2 idx⟩
  have e : (Rect.unit (s := S32x16384) ![0, o] S32x2048.size inb).idx (ix2 j i) = ix2 j (⟨o + i.val, by omega⟩ : Fin 16384) :=
    funext fun a => Fin.ext (by
      match a with
      | ⟨0, _⟩ => show 0 + 1 * j.val = j.val; omega
      | ⟨1, _⟩ => show o + 1 * i.val = o + i.val; omega)
  show x1 ((Rect.unit (s := S32x16384) ![0, o] S32x2048.size inb).idx (ix2 j i)) = _
  rw [e, h1, c2_ix2, c2_ix2]

/-- A value chunk: rows `o … o + 2047` of the values with their column of ones. -/
theorem ldv_val (x2 : Vec Ideal S16384x33 .bf16) (Va : Fin 16384 → Fin 33 → ℝ) (h2 : x2 = c2 Va) (o : ℕ) (ho : o + 2048 ≤ 16384)
    (inb : ∀ a, (![o, 0] : Fin 2 → Nat) a + S2048x33.size a ≤ S16384x33.size a) :
    vK (View.ld x2 (Rect.unit (s := S16384x33) ![o, 0] S2048x33.size inb))
      = c2 (fun (i : Fin 2048) r => Va ⟨o + i.val, by omega⟩ r) := by
  unfold vK
  rw [shapeCast_self]
  funext idx
  obtain ⟨i, r, rfl⟩ : ∃ (i : Fin 2048) (r : Fin 33), idx = ix2 i r := ⟨idx 0, idx 1, eq_ix2 idx⟩
  have e : (Rect.unit (s := S16384x33) ![o, 0] S2048x33.size inb).idx (ix2 i r) = ix2 (⟨o + i.val, by omega⟩ : Fin 16384) r :=
    funext fun a => Fin.ext (by
      match a with
      | ⟨0, _⟩ => show o + 1 * i.val = o + i.val; omega
      | ⟨1, _⟩ => show 0 + 1 * r.val = r.val; omega)
  show x2 ((Rect.unit (s := S16384x33) ![o, 0] S2048x33.size inb).idx (ix2 i r)) = _
  rw [e, h2, c2_ix2, c2_ix2]

/-! ## The eight chunks chained -/

/-- The score row of query `q` of a block of 256 queries: the scaled query against every key. -/
def sQ (Qb : Fin 256 → Fin 32 → ℝ) (KT : Fin 32 → Fin 16384 → ℝ) (q : Fin 256) : Fin 16384 → ℝ :=
  fun n' => ∑ j : Fin 32, (Qb q j * (1 / 16)) * KT j n'

theorem atNat_chunk (f : Fin 16384 → ℝ) (o : ℕ) (ho : o + 2048 ≤ 16384) (i : Fin 2048) :
    atNat f (o + i.val) = f ⟨o + i.val, by have := i.isLt; omega⟩ := by
  unfold atNat
  rw [dif_pos (show o + i.val < 16384 by have := i.isLt; omega)]

/-- Chunk `c`'s scores are the score rows read at keys `2048·c + i`. -/
theorem scc_val (q5 : FVec Ideal S256x32 .bf16) (k : Vec Ideal S32x2048 .bf16) (Qb : Fin 256 → Fin 32 → ℝ)
    (KT : Fin 32 → Fin 16384 → ℝ) (c : ℕ) (hc : c < 8) (o : ℕ) (ho : o = 2048 * c)
    (h5 : q5 = c2 (fun q j => Qb q j * (1 / 16)))
    (hk : k = c2 (fun j (i : Fin 2048) => KT j ⟨o + i.val, by have := i.isLt; omega⟩)) :
    scK q5 k = c2 (fun q (i : Fin 2048) => atNat (sQ Qb KT q) (2048 * c + i.val)) := by
  rw [sc_val q5 k _ _ h5 hk]
  subst ho
  refine congrArg (fun f => c2 f) (funext fun q => funext fun i => ?_)
  exact (atNat_chunk (sQ Qb KT q) (2048 * c) (by omega) i).symm

/-- The first chunk: the running maximum is its row maximum and the accumulator its weighted values. -/
theorem step0_val (q5 : FVec Ideal S256x32 .bf16) (k : Vec Ideal S32x2048 .bf16) (v : FVec Ideal S2048x33 .bf16)
    (Qb : Fin 256 → Fin 32 → ℝ) (KT : Fin 32 → Fin 16384 → ℝ) (Va : Fin 16384 → Fin 33 → ℝ)
    (h5 : q5 = c2 (fun q j => Qb q j * (1 / 16)))
    (hk : k = c2 (fun j (i : Fin 2048) => KT j ⟨0 + i.val, by have := i.isLt; omega⟩))
    (hv : v = c2 (fun (i : Fin 2048) r => Va ⟨0 + i.val, by have := i.isLt; omega⟩ r)) :
    mxK (k1_pay3 (F := Ideal)) (scK q5 k) = c2 (fun q (_ : Fin 1) => runMax (sQ Qb KT q) 0)
    ∧ accK (acc0K (F := Ideal)) (aK (k1_pay3 (F := Ideal)) (mxK (k1_pay3 (F := Ideal)) (scK q5 k)))
        (pK (scK q5 k) (mxK (k1_pay3 (F := Ideal)) (scK q5 k))) v
      = c2 (fun r q => accR (sQ Qb KT q) (fun n' => Va n' r) 0) := by
  have hS := scc_val q5 k Qb KT 0 (by omega) 0 rfl h5 hk
  have hM : mxK (k1_pay3 (F := Ideal)) (scK q5 k) = c2 (fun q (_ : Fin 1) => runMax (sQ Qb KT q) 0) := mx0_val _ _ hS
  refine ⟨hM, ?_⟩
  rw [acc0_val _ _ v _ _ (a0_val _ _ hM) (p_val _ _ _ _ hS hM) hv]
  refine congrArg (fun f => c2 f) (funext fun r => funext fun q => ?_)
  show _ = chunkSum (fun n' => Va n' r * Real.exp (sQ Qb KT q n' - runMax (sQ Qb KT q) 0)) 0
  unfold chunkSum
  refine Finset.sum_congr rfl fun i _ => ?_
  rw [atNat_chunk _ (2048 * 0) (by omega) i, atNat_chunk _ (2048 * 0) (by omega) i]

/-- A later chunk: the running maximum and the accumulator advance as the real recursions do. -/
theorem step_val (c : ℕ) (hc : c + 1 < 8) (o : ℕ) (ho : o = 2048 * (c + 1))
    (q5 : FVec Ideal S256x32 .bf16) (k : Vec Ideal S32x2048 .bf16) (v : FVec Ideal S2048x33 .bf16)
    (m : FVec Ideal S256x1 .f32) (acc : FVec Ideal S33x256 .f32)
    (Qb : Fin 256 → Fin 32 → ℝ) (KT : Fin 32 → Fin 16384 → ℝ) (Va : Fin 16384 → Fin 33 → ℝ)
    (h5 : q5 = c2 (fun q j => Qb q j * (1 / 16)))
    (hk : k = c2 (fun j (i : Fin 2048) => KT j ⟨o + i.val, by have := i.isLt; omega⟩))
    (hv : v = c2 (fun (i : Fin 2048) r => Va ⟨o + i.val, by have := i.isLt; omega⟩ r))
    (hm : m = c2 (fun q (_ : Fin 1) => runMax (sQ Qb KT q) c))
    (hacc : acc = c2 (fun r q => accR (sQ Qb KT q) (fun n' => Va n' r) c)) :
    mxK m (scK q5 k) = c2 (fun q (_ : Fin 1) => runMax (sQ Qb KT q) (c + 1))
    ∧ accK acc (aK m (mxK m (scK q5 k))) (pK (scK q5 k) (mxK m (scK q5 k))) v
      = c2 (fun r q => accR (sQ Qb KT q) (fun n' => Va n' r) (c + 1)) := by
  have hS := scc_val q5 k Qb KT (c + 1) hc o ho h5 hk
  have hM : mxK m (scK q5 k) = c2 (fun q (_ : Fin 1) => runMax (sQ Qb KT q) (c + 1)) := mx_val m _ _ _ hm hS
  refine ⟨hM, ?_⟩
  rw [acc_val acc _ _ v _ _ _ _ hacc (a_val _ _ _ _ hm hM) (p_val _ _ _ _ hS hM) hv]
  subst ho
  refine congrArg (fun f => c2 f) (funext fun r => funext fun q => ?_)
  show _ = accR (sQ Qb KT q) (fun n' => Va n' r) c * Real.exp (runMax (sQ Qb KT q) c - runMax (sQ Qb KT q) (c + 1))
      + chunkSum (fun n' => Va n' r * Real.exp (sQ Qb KT q n' - runMax (sQ Qb KT q) (c + 1))) (c + 1)
  unfold chunkSum
  congr 1
  refine Finset.sum_congr rfl fun i _ => ?_
  rw [atNat_chunk _ (2048 * (c + 1)) (by omega) i, atNat_chunk _ (2048 * (c + 1)) (by omega) i]

/-- The body's stored value on a block of queries: each value column's accumulator over the ones column's. -/
theorem pay_val (x0 : Vec Ideal S256x32 .bf16) (x1 : Vec Ideal S32x16384 .bf16) (x2 : Vec Ideal S16384x33 .bf16)
    (Qb : Fin 256 → Fin 32 → ℝ) (KT : Fin 32 → Fin 16384 → ℝ) (Va : Fin 16384 → Fin 33 → ℝ)
    (h0 : x0 = c2 Qb) (h1 : x1 = c2 KT) (h2 : x2 = c2 Va) (hone : ∀ n, Va n ⟨32, by omega⟩ = 1) :
    finK (cA7 x0 x1 x2) = c2 (fun (j : Fin 32) q =>
      accR (sQ Qb KT q) (fun n' => Va n' ⟨j.val, by omega⟩) 7 / accR (sQ Qb KT q) (fun n' => Va n' ⟨32, by omega⟩) 7) := by
  have h5 := q5_val x0 Qb h0
  obtain ⟨hM0, hA0⟩ := step0_val (a1_v5 x0) (View.ld x1 r1_k0) (vK (View.ld x2 r1_v0)) Qb KT Va h5
    (ldk_val x1 KT h1 0 (by omega) _) (ldv_val x2 Va h2 0 (by omega) _)
  obtain ⟨hM1, hA1⟩ := step_val 0 (by omega) 2048 rfl (a1_v5 x0) (View.ld x1 r1_k1) (vK (View.ld x2 r1_v1)) (cM0 x0 x1) (cA0 x0 x1 x2)
    Qb KT Va h5 (ldk_val x1 KT h1 2048 (by omega) _) (ldv_val x2 Va h2 2048 (by omega) _) hM0 hA0
  obtain ⟨hM2, hA2⟩ := step_val 1 (by omega) 4096 rfl (a1_v5 x0) (View.ld x1 r1_k2) (vK (View.ld x2 r1_v2)) (cM1 x0 x1) (cA1 x0 x1 x2)
    Qb KT Va h5 (ldk_val x1 KT h1 4096 (by omega) _) (ldv_val x2 Va h2 4096 (by omega) _) hM1 hA1
  obtain ⟨hM3, hA3⟩ := step_val 2 (by omega) 6144 rfl (a1_v5 x0) (View.ld x1 r1_k3) (vK (View.ld x2 r1_v3)) (cM2 x0 x1) (cA2 x0 x1 x2)
    Qb KT Va h5 (ldk_val x1 KT h1 6144 (by omega) _) (ldv_val x2 Va h2 6144 (by omega) _) hM2 hA2
  obtain ⟨hM4, hA4⟩ := step_val 3 (by omega) 8192 rfl (a1_v5 x0) (View.ld x1 r1_k4) (vK (View.ld x2 r1_v4)) (cM3 x0 x1) (cA3 x0 x1 x2)
    Qb KT Va h5 (ldk_val x1 KT h1 8192 (by omega) _) (ldv_val x2 Va h2 8192 (by omega) _) hM3 hA3
  obtain ⟨hM5, hA5⟩ := step_val 4 (by omega) 10240 rfl (a1_v5 x0) (View.ld x1 r1_k5) (vK (View.ld x2 r1_v5)) (cM4 x0 x1) (cA4 x0 x1 x2)
    Qb KT Va h5 (ldk_val x1 KT h1 10240 (by omega) _) (ldv_val x2 Va h2 10240 (by omega) _) hM4 hA4
  obtain ⟨hM6, hA6⟩ := step_val 5 (by omega) 12288 rfl (a1_v5 x0) (View.ld x1 r1_k6) (vK (View.ld x2 r1_v6)) (cM5 x0 x1) (cA5 x0 x1 x2)
    Qb KT Va h5 (ldk_val x1 KT h1 12288 (by omega) _) (ldv_val x2 Va h2 12288 (by omega) _) hM5 hA5
  obtain ⟨hM7, hA7⟩ := step_val 6 (by omega) 14336 rfl (a1_v5 x0) (View.ld x1 r1_k7) (vK (View.ld x2 r1_v7)) (cM6 x0 x1) (cA6 x0 x1 x2)
    Qb KT Va h5 (ldk_val x1 KT h1 14336 (by omega) _) (ldv_val x2 Va h2 14336 (by omega) _) hM6 hA6
  exact fin_val (cA7 x0 x1 x2) _ hA7 fun q => by
    rw [show (fun n' => Va n' ⟨32, by omega⟩) = fun _ => (1 : ℝ) from funext hone]
    exact (accR_ones_pos _ 7).ne'

/-- The payload of the body's one store, on a block of queries. -/
theorem out_val (x0 : Vec Ideal S256x32 .bf16) (x1 : Vec Ideal S32x16384 .bf16) (x2 : Vec Ideal S16384x33 .bf16)
    (Qb : Fin 256 → Fin 32 → ℝ) (KT : Fin 32 → Fin 16384 → ℝ) (Va : Fin 16384 → Fin 33 → ℝ)
    (h0 : x0 = c2 Qb) (h1 : x1 = c2 KT) (h2 : x2 = c2 Va) (hone : ∀ n, Va n ⟨32, by omega⟩ = 1) :
    out1_3 x0 x1 x2 = c2 (fun (j : Fin 32) q =>
      accR (sQ Qb KT q) (fun n' => Va n' ⟨j.val, by omega⟩) 7 / accR (sQ Qb KT q) (fun n' => Va n' ⟨32, by omega⟩) 7) := by
  unfold out1_3
  rw [View.canon_unit_zero hz2, pay1_eq x0 x1 x2]
  exact pay_val x0 x1 x2 Qb KT Va h0 h1 h2 hone

/-! ## From the blocks to the array -/

section Blocks
variable (V : (c : Dev nD) → (b : Ref sig .tc) → Buf (Elt Ideal) ((c : Thread nD τ).loc b))

theorem t_lt (t : Fin cfg1.N) : t.val < 64 := lt_of_lt_of_eq t.isLt GenP.N_1

/-- The printed index maps over the grid: the query block and the output block move with the point; the key and value
    arrays are whole at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- The query window's block at point `t`: rows `256·t … 256·t + 255` of the queries. -/
theorem blk0_val (c : Dev nD) (t : Fin cfg1.N) (Q : Fin 16384 → Fin 32 → ℝ)
    (hQ : (V c main_v39 : S16384x32.Idx → EReal) = c2 Q) :
    (iblk1 V c 0 t : S256x32.Idx → EReal)
      = c2 (fun (q : Fin 256) j => Q ⟨256 * t.val + q.val, by have := t_lt t; have := q.isLt; omega⟩ j) := by
  obtain ⟨e0, e1, -⟩ := idx_facts1 t
  funext y
  obtain ⟨q, j, rfl⟩ : ∃ (q : Fin 256) (j : Fin 32), y = ix2 q j := ⟨y 0, y 1, eq_ix2 y⟩
  have e : ((cfg1.win 0).blk t).view.emb (ix2 q j)
      = ix2 (⟨256 * t.val + q.val, by have := t_lt t; have := q.isLt; omega⟩ : Fin 16384) j := by
    funext a; apply Fin.ext
    match a with
    | ⟨0, _⟩ => show win1_0.index t (0 : Fin 2) * 256 + 1 * q.val = 256 * t.val + q.val; rw [e0]; omega
    | ⟨1, _⟩ => show win1_0.index t (1 : Fin 2) * 32 + 1 * j.val = j.val; rw [e1]; omega
  show V c main_v39 (((cfg1.win 0).blk t).view.emb (ix2 q j)) = _
  rw [e, hQ, c2_ix2, c2_ix2]

/-- The key window's block is the whole transposed key array. -/
theorem blk1_val (c : Dev nD) (t : Fin cfg1.N) (KT : Fin 32 → Fin 16384 → ℝ)
    (hK : (V c main_v42 : S32x16384.Idx → EReal) = c2 KT) :
    (iblk1 V c 1 t : S32x16384.Idx → EReal) = c2 KT := by
  obtain ⟨-, -, e2, e3, -⟩ := idx_facts1 t
  funext y
  have e : ((cfg1.win 1).blk t).view.emb y = y := by
    funext a; apply Fin.ext
    match a with
    | ⟨0, _⟩ => show win1_1.index t (0 : Fin 2) * 32 + 1 * (y 0).val = (y 0).val; rw [e2]; omega
    | ⟨1, _⟩ => show win1_1.index t (1 : Fin 2) * 16384 + 1 * (y 1).val = (y 1).val; rw [e3]; omega
  show V c main_v42 (((cfg1.win 1).blk t).view.emb y) = _
  rw [e, hK]

/-- The value window's block is the whole value array. -/
theorem blk2_val (c : Dev nD) (t : Fin cfg1.N) (Va : Fin 16384 → Fin 33 → ℝ)
    (hV : (V c main_v44 : S16384x33.Idx → EReal) = c2 Va) :
    (iblk1 V c 2 t : S16384x33.Idx → EReal) = c2 Va := by
  obtain ⟨-, -, -, -, e4, e5, -⟩ := idx_facts1 t
  funext y
  have e : ((cfg1.win 2).blk t).view.emb y = y := by
    funext a; apply Fin.ext
    match a with
    | ⟨0, _⟩ => show win1_2.index t (0 : Fin 2) * 16384 + 1 * (y 0).val = (y 0).val; rw [e4]; omega
    | ⟨1, _⟩ => show win1_2.index t (1 : Fin 2) * 33 + 1 * (y 1).val = (y 1).val; rw [e5]; omega
  show V c main_v44 (((cfg1.win 2).blk t).view.emb y) = _
  rw [e, hV]

/-- What point `t` writes back is block `t` of the attention array: value column `j`, queries `256·t … 256·t + 255`. -/
theorem flushed1_eq (c : Dev nD) (t : Fin cfg1.N) (Q : Fin 16384 → Fin 32 → ℝ) (KT : Fin 32 → Fin 16384 → ℝ)
    (Va : Fin 16384 → Fin 33 → ℝ)
    (hQ : (V c main_v39 : S16384x32.Idx → EReal) = c2 Q)
    (hK : (V c main_v42 : S32x16384.Idx → EReal) = c2 KT)
    (hV : (V c main_v44 : S16384x33.Idx → EReal) = c2 Va)
    (hone : ∀ n, Va n ⟨32, by omega⟩ = 1) :
    (dat1 (F := Ideal) V c).flushed 3 t
      = ((cfg1.win 3).blk t).view.read (Elt Ideal) (c2 (fun (j : Fin 32) (n : Fin 16384) => attnK Q KT Va n j)) := by
  show (cfg1.win 3).cut (grid1.coords t) ((dat1 (F := Ideal) V c).after 3 t) = _
  rw [after1_3, out_val (iblk1 V c 0 t) (iblk1 V c 1 t) (iblk1 V c 2 t) _ KT Va (blk0_val V c t Q hQ) (blk1_val V c t KT hK)
    (blk2_val V c t Va hV) hone]
  obtain ⟨-, -, -, -, -, -, e6, e7⟩ := idx_facts1 t
  funext y
  obtain ⟨j, q, rfl⟩ : ∃ (j : Fin 32) (q : Fin 256), y = ix2 j q := ⟨y 0, y 1, eq_ix2 y⟩
  have e : ((cfg1.win 3).blk t).view.emb (ix2 j q)
      = ix2 j (⟨256 * t.val + q.val, by have := t_lt t; have := q.isLt; omega⟩ : Fin 16384) := by
    funext a; apply Fin.ext
    match a with
    | ⟨0, _⟩ => show win1_3.index t (0 : Fin 2) * 32 + 1 * j.val = j.val; rw [e6]; omega
    | ⟨1, _⟩ => show win1_3.index t (1 : Fin 2) * 256 + 1 * q.val = 256 * t.val + q.val; rw [e7]; omega
  show c2 _ (ix2 j q) = c2 (fun (j : Fin 32) (n : Fin 16384) => attnK Q KT Va n j) (((cfg1.win 3).blk t).view.emb (ix2 j q))
  rw [e, c2_ix2, c2_ix2]
  rfl

/-- An index of the array is in point `t`'s block iff each coordinate is in the block's range on its axis. -/
theorem mem_blk1 (t : Fin cfg1.N) (i : S32x16384.Idx) :
    i ∈ ((cfg1.win 3).blk t).view.set ↔ ∀ a : Fin 2, win1_3.index t a * S32x256.size a ≤ (i a).val
      ∧ (i a).val < win1_3.index t a * S32x256.size a + S32x256.size a := by
  show i ∈ ((View.whole main_v45).slice (win1_3.rect t)).set ↔ _
  rw [View.set_slice_whole, Rect.mem_set_unit]
  exact Iff.rfl

/-- Query `n` is in the block of point `n / 256`. -/
theorem covered1 (i : S32x16384.Idx) :
    ∃ t : Fin cfg1.N, (cfg1.win 3).flush t = true ∧ i ∈ ((cfg1.win 3).blk t).view.set := by
  have hi0 : (i 0).val < 32 := (i 0).isLt
  have hi1 : (i 1).val < 16384 := (i 1).isLt
  refine ⟨⟨(i 1).val / 256, lt_of_lt_of_eq (by omega) GenP.N_1.symm⟩, flush1_3 _, ?_⟩
  obtain ⟨-, -, -, -, -, -, e6, e7⟩ := idx_facts1 ⟨(i 1).val / 256, lt_of_lt_of_eq (by omega) GenP.N_1.symm⟩
  rw [mem_blk1]
  intro a
  match a with
  | ⟨0, _⟩ =>
    show win1_3.index _ (0 : Fin 2) * 32 ≤ (i 0).val ∧ (i 0).val < win1_3.index _ (0 : Fin 2) * 32 + 32
    rw [e6]; omega
  | ⟨1, _⟩ =>
    show win1_3.index _ (1 : Fin 2) * 256 ≤ (i 1).val ∧ (i 1).val < win1_3.index _ (1 : Fin 2) * 256 + 256
    rw [e7]
    show (i 1).val / 256 * 256 ≤ (i 1).val ∧ (i 1).val < (i 1).val / 256 * 256 + 256
    omega

end Blocks

end Values

end Val1

variable (V : (c : Dev nD) → (b : Ref sig .tc) → Buf (Elt Ideal) ((c : Thread nD τ).loc b))

/-- Region 1 leaves in its output array, at value column `j` and query `n`, the chunk-accumulated attention. -/
theorem reg1_val (c : Dev nD) (Q : Fin 16384 → Fin 32 → ℝ) (KT : Fin 32 → Fin 16384 → ℝ) (Va : Fin 16384 → Fin 33 → ℝ)
    (hQ : (V c main_v39 : S16384x32.Idx → EReal) = c2 Q)
    (hK : (V c main_v42 : S32x16384.Idx → EReal) = c2 KT)
    (hV : (V c main_v44 : S16384x33.Idx → EReal) = c2 Va)
    (hone : ∀ n, Va n ⟨32, by omega⟩ = 1) :
    ((dat1 (F := Ideal) V c).arrAt 3 cfg1.N : S32x16384.Idx → EReal) = c2 (fun j n => attnK Q KT Va n j) :=
  (dat1 (F := Ideal) V c).arrAt_eq_of_cover 3 (c2 (fun (j : Fin 32) (n : Fin 16384) => attnK Q KT Va n j))
    (fun t _ => Val1.flushed1_eq V c t Q KT Va hQ hK hV hone) Val1.covered1

end Cert.KernelIdeal.Hand

end
-- ==== Proof.KIHost0.lean ====
import proofs.«417944_j30408368455794_3_alg».proof.Proof.KIFold
import proofs.«417944_j30408368455794_3_alg».proof.Proof.Spec
import Idealize.ShloMosaic.Lib.Pipeline.Value
import Idealize.ShloMosaic.Lib.StableHlo.Run
import Idealize.ShloMosaic.Lib.ValueIdx

/-!
# The first host stretch, read at an index

Before region 0 the host permutes the columns of the three weights by a literal table (entry `k` is
`(k mod 8) · 32 + k / 8`), sets the three results side by side and changes their format (the identity over the
extended reals); it permutes the three biases by the same table, sets them end to end and reshapes the result to one
row; and it changes the output weight's format. Each result is read here entry by entry: a gather at an index is the
table at the start index (read signed and clamped), the start index is the literal table's entry, a join at an index
is the piece whose span holds the coordinate.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

section Join
open StableHlo
variable {α : Type}

/-- Three 256×256 arrays side by side. -/
def joinW (a b c : S256x256.Idx → α) : S256x768.Idx → α :=
  concatenate S256x768 1 [⟨S256x256, a⟩, ⟨S256x256, b⟩, ⟨S256x256, c⟩] concatenates_S256x256_S256x256_S256x256_S256x768_d1

/-- Three 256-entry vectors end to end. -/
def joinB (a b c : S256.Idx → α) : S768.Idx → α :=
  concatenate S768 0 [⟨S256, a⟩, ⟨S256, b⟩, ⟨S256, c⟩] concatenates_S256_S256_S256_S768_d0

/-- The joined weight's operation: its result with each operand's contents at its own reference. -/
theorem concatW_result (hxs hy) (F : Valuation τ sig (Elt Ideal)) :
    (StableHlo.nary (τ := τ) ![main_v4, main_v9, main_v14] main_v30
      (fun u => concatenate S256x768 1 [⟨S256x256, u 0⟩, ⟨S256x256, u 1⟩, ⟨S256x256, u 2⟩] concatenates_S256x256_S256x256_S256x256_S256x768_d1) hxs hy).result F (no_index (Proc.devRef .tc main_v30))
      = joinW (F (Proc.devRef .tc main_v4)) (F (Proc.devRef .tc main_v9)) (F (Proc.devRef .tc main_v14)) :=
  StableHlo.nary_result _ _ _ hxs hy F

/-- The joined bias's operation, likewise. -/
theorem concatB_result (hxs hy) (F : Valuation τ sig (Elt Ideal)) :
    (StableHlo.nary (τ := τ) ![main_v19, main_v24, main_v29] main_v32
      (fun u => concatenate S768 0 [⟨S256, u 0⟩, ⟨S256, u 1⟩, ⟨S256, u 2⟩] concatenates_S256_S256_S256_S768_d0) hxs hy).result F (no_index (Proc.devRef .tc main_v32))
      = joinB (F (Proc.devRef .tc main_v19)) (F (Proc.devRef .tc main_v24)) (F (Proc.devRef .tc main_v29)) :=
  StableHlo.nary_result _ _ _ hxs hy F

end Join

open StableHlo in
/-- The library's one-pass reading of a stretch's results, with the two three-operand joins read by the lemmas above. -/
macro "after_results_simp3" : tactic =>
  `(tactic| (simp (disch := decide) only [after_cons, after_nil,
      nullary_result', unary_result', binary_result', ternary_result', quaternary_result', reshape_result', concatW_result, concatB_result,
      unaryIndexed_result', binaryIndexed_result',
      nullary_result_ne', unary_result_ne', binary_result_ne', ternary_result_ne', quaternary_result_ne', reshape_result_ne',
      nary_result_ne', unaryIndexed_result_ne', binaryIndexed_result_ne']))

section Gather
open Idealize.ShloMosaic.ValueIdx
variable {α : Type}

/-- The dimension numbers of a gather of whole columns of a 256×256 table, one per start index. -/
abbrev colDims (wf : GatherDims.WF S256x256 S256x1 S256x256 [0] [1] [] [1] [] 1 ![256, 1]) :
    GatherDims S256x256 S256x1 S256x256 where
  offsetDims := [0]
  collapsedSliceDims := [1]
  operandBatchingDims := []
  startIndicesBatchingDims := []
  startIndexMap := [1]
  indexVectorDim := 1
  sliceSizes := ![256, 1]
  wf := wf

/-- The dimension numbers of a gather of single entries of a 256-entry table, one per start index. -/
abbrev entDims (wf : GatherDims.WF S256 S256x1 S256 [] [0] [] [0] [] 1 ![1]) :
    GatherDims S256 S256x1 S256 where
  offsetDims := []
  collapsedSliceDims := [0]
  operandBatchingDims := []
  startIndicesBatchingDims := []
  startIndexMap := [0]
  indexVectorDim := 1
  sliceSizes := ![1]
  wf := wf

/-- The column gather read at an index: row `r`, column `k` of the result is row `r` of the table at the column the
    `k`-th start index names, read signed and clamped to the last column. -/
theorem gather_cols_apply (wf) (x : S256x256.Idx → α) (idx : IVec S256x1 32) (r k : Fin 256) :
    Host.gather (colDims wf) x idx (ix2 r k)
      = x (ix2 r ⟨min (idx (ix2 k (0 : Fin 1))).toInt.toNat 255, by omega⟩) := by
  unfold Host.gather
  congr 1
  have h0 : ((colDims wf).operandIdx (ix2 r k) idx (0 : Fin 2)).val = r.val := by
    show (colDims wf).start _ idx 0 + (colDims wf).batchCoord _ 0 + (colDims wf).offCoord _ 0 = _
    rw [GatherDims.batchCoord_eq_zero _ _ _ List.not_mem_nil, Nat.add_zero]
    unfold GatherDims.start GatherDims.offCoord
    rw [dif_neg (show (0 : Fin 2) ∉ ([1] : List (Fin 2)) by decide),
      dif_pos ((GatherDims.mem_sKept (colDims wf) 0).mpr ⟨(show (0 : Fin 2) ∉ ([1] : List (Fin 2)) by decide), List.not_mem_nil⟩), Nat.zero_add]
    rfl
  have h1 : ((colDims wf).operandIdx (ix2 r k) idx (1 : Fin 2)).val = min (idx (ix2 k (0 : Fin 1))).toInt.toNat 255 := by
    show (colDims wf).start _ idx 1 + (colDims wf).batchCoord _ 1 + (colDims wf).offCoord _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 r k)
        ⟨List.idxOf (1 : Fin 2) (colDims wf).startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  funext a
  match a with
  | ⟨0, _⟩ => exact Fin.ext h0
  | ⟨1, _⟩ => exact Fin.ext h1

/-- The entry gather read at an index: entry `k` of the result is the table's entry the `k`-th start index names, read
    signed and clamped to the last entry. -/
theorem gather_entries_apply (wf) (x : S256.Idx → α) (idx : IVec S256x1 32) (k : Fin 256) :
    Host.gather (entDims wf) x idx (ix1 k)
      = x (ix1 ⟨min (idx (ix2 k (0 : Fin 1))).toInt.toNat 255, by omega⟩) := by
  unfold Host.gather
  congr 1
  funext a
  obtain rfl : a = 0 := Subsingleton.elim _ _
  refine Fin.ext ?_
  show (entDims wf).start _ idx 0 + (entDims wf).batchCoord _ 0 + (entDims wf).offCoord _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entDims wf).startIndexMap from List.mem_singleton.mpr rfl)]
  have hsi : (entDims wf).siIdx (ix1 k)
      ⟨List.idxOf (0 : Fin 1) (entDims wf).startIndexMap,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

theorem colDims_eq : gather_S256x256_S256x1_S256x256_0_1_n_n_1_1_2561
    = colDims Facts₀.gather_S256x256_S256x1_S256x256_0_1_n_n_1_1_2561_wf := rfl
theorem entDims_eq : gather_S256_S256x1_S256_n_0_n_n_0_1_1
    = entDims Facts₀.gather_S256_S256x1_S256_n_0_n_n_0_1_1_wf := rfl

end Gather

section Table
open Idealize.ShloMosaic.ValueIdx

/-- The literal table: entry `k` is `(k mod 8) · 32 + k / 8`, read as a signed word. -/
theorem lit0_val : ∀ k : Fin 256, (lit0 k).toInt.toNat = (k.val % 8) * 32 + k.val / 8 := by decide +kernel

/-- The start indices every gather of the stretch reads: the literal table as a column (the printed program adds 256 to
    the table and selects on a mask that is nowhere set, which keeps the table). -/
theorem startIdx_apply (t : IVec S256 32) (k : Fin 256) :
    broadcastInDim S256x1 ![0] bcast_S256_S256x1_0
      (select (constantI S256 1 0#1) t (fun i => lit0 (S256.rowMajor i))) (ix2 k (0 : Fin 1)) = lit0 k := by
  rw [broadcastInDim_apply _ _ _ (ix2 k (0 : Fin 1)) (ix1 k) (fun a => by
    obtain rfl : a = 0 := Subsingleton.elim _ _
    rfl)]
  show Scalar.select 0#1 _ (lit0 (S256.rowMajor (ix1 k))) = lit0 k
  rw [select_zero]
  exact congrArg lit0 (Fin.ext (Shape.rowMajor_val_one _))

/-- The start index of result position `k`, clamped to the table: `permF k`. -/
theorem startIdx_clamp (t : IVec S256 32) (k : Fin 256) :
    (⟨min (broadcastInDim S256x1 ![0] bcast_S256_S256x1_0
      (select (constantI S256 1 0#1) t (fun i => lit0 (S256.rowMajor i))) (ix2 k (0 : Fin 1))).toInt.toNat 255,
        by omega⟩ : Fin 256) = permF k := by
  refine Fin.ext ?_
  show min _ 255 = (k.val % 8) * 32 + k.val / 8
  rw [startIdx_apply, lit0_val]
  have := k.isLt
  omega

end Table

section JoinApply
open Idealize.ShloMosaic.ValueIdx
variable {α : Type}

/-- The three arrays side by side, read at row `r`, column `cc`: the array whose 256 columns hold `cc`. -/
theorem joinW_apply (x1 x2 x3 : S256x256.Idx → α) (r : Fin 256) (cc : Fin 768) :
    joinW x1 x2 x3 (ix2 r cc)
      = if h1 : cc.val < 256 then x1 (ix2 r ⟨cc.val, h1⟩)
        else if h2 : cc.val < 512 then x2 (ix2 r ⟨cc.val - 256, by omega⟩)
        else x3 (ix2 r ⟨cc.val - 512, by omega⟩) := by
  have hi : ∀ (k : Fin 256) (b : Fin S256x256.rank), b.cast (rfl : S256x256.rank = S256x768.rank) ≠ (1 : Fin 2) →
      ((ix2 r k : S256x256.Idx) b).val = ((ix2 r cc : S256x768.Idx) (b.cast rfl)).val := by
    intro k b hb
    match b with
    | ⟨0, _⟩ => rfl
    | ⟨1, _⟩ => exact absurd rfl hb
  unfold joinW
  by_cases h1 : cc.val < 256
  · rw [dif_pos h1]
    exact concatenate_apply_piece (1 : Fin 2) ([⟨S256x256, x1⟩, ⟨S256x256, x2⟩, ⟨S256x256, x3⟩] : List ((s : Shape) × (s.Idx → α))) _ (ix2 r cc) 0 (by simp) S256x256 x1 rfl rfl 0 rfl
      (ix2 r ⟨cc.val, h1⟩) (hi _) (by show 0 + cc.val = cc.val; omega)
  · rw [dif_neg h1]
    by_cases h2 : cc.val < 512
    · rw [dif_pos h2]
      exact concatenate_apply_piece (1 : Fin 2) ([⟨S256x256, x1⟩, ⟨S256x256, x2⟩, ⟨S256x256, x3⟩] : List ((s : Shape) × (s.Idx → α))) _ (ix2 r cc) 1 (by simp) S256x256 x2 rfl rfl 256 rfl
        (ix2 r ⟨cc.val - 256, by omega⟩) (hi _) (by show 256 + (cc.val - 256) = cc.val; omega)
    · rw [dif_neg h2]
      exact concatenate_apply_piece (1 : Fin 2) ([⟨S256x256, x1⟩, ⟨S256x256, x2⟩, ⟨S256x256, x3⟩] : List ((s : Shape) × (s.Idx → α))) _ (ix2 r cc) 2 (by simp) S256x256 x3 rfl rfl 512 rfl
        (ix2 r ⟨cc.val - 512, by omega⟩) (hi _) (by show 512 + (cc.val - 512) = cc.val; have := cc.isLt; omega)

/-- The three vectors end to end, read at entry `cc`. -/
theorem joinB_apply (x1 x2 x3 : S256.Idx → α) (cc : Fin 768) :
    joinB x1 x2 x3 (ix1 cc)
      = if h1 : cc.val < 256 then x1 (ix1 ⟨cc.val, h1⟩)
        else if h2 : cc.val < 512 then x2 (ix1 ⟨cc.val - 256, by omega⟩)
        else x3 (ix1 ⟨cc.val - 512, by omega⟩) := by
  have hi : ∀ (k : Fin 256) (b : Fin S256.rank), b.cast (rfl : S256.rank = S768.rank) ≠ (0 : Fin 1) →
      ((ix1 k : S256.Idx) b).val = ((ix1 cc : S768.Idx) (b.cast rfl)).val := by
    intro k b hb
    exact absurd (Subsingleton.elim _ _) hb
  unfold joinB
  by_cases h1 : cc.val < 256
  · rw [dif_pos h1]
    exact concatenate_apply_piece (0 : Fin 1) ([⟨S256, x1⟩, ⟨S256, x2⟩, ⟨S256, x3⟩] : List ((s : Shape) × (s.Idx → α))) _ (ix1 cc) 0 (by simp) S256 x1 rfl rfl 0 rfl
      (ix1 ⟨cc.val, h1⟩) (hi _) (by show 0 + cc.val = cc.val; omega)
  · rw [dif_neg h1]
    by_cases h2 : cc.val < 512
    · rw [dif_pos h2]
      exact concatenate_apply_piece (0 : Fin 1) ([⟨S256, x1⟩, ⟨S256, x2⟩, ⟨S256, x3⟩] : List ((s : Shape) × (s.Idx → α))) _ (ix1 cc) 1 (by simp) S256 x2 rfl rfl 256 rfl
        (ix1 ⟨cc.val - 256, by omega⟩) (hi _) (by show 256 + (cc.val - 256) = cc.val; omega)
    · rw [dif_neg h2]
      exact concatenate_apply_piece (0 : Fin 1) ([⟨S256, x1⟩, ⟨S256, x2⟩, ⟨S256, x3⟩] : List ((s : Shape) × (s.Idx → α))) _ (ix1 cc) 2 (by simp) S256 x3 rfl rfl 512 rfl
        (ix1 ⟨cc.val - 512, by omega⟩) (hi _) (by show 512 + (cc.val - 512) = cc.val; have := cc.isLt; omega)

end JoinApply

variable (m : (ℓ : Loc nD τ sig) → Buf (Elt Ideal) ℓ) (ρ : Dev nD → PrngReg)

open Idealize.ShloMosaic.ValueIdx in
/-- Region 0 is entered with the joined weight: the three weights' columns permuted, side by side. -/
theorem host0_v31 (c : Dev nD) (Wq Wk Wv : Fin 256 → Fin 256 → ℝ)
    (hq : (m ((c.tc : Thread nD τ).loc main_arg1) : S256x256.Idx → EReal) = c2 Wq)
    (hk : (m ((c.tc : Thread nD τ).loc main_arg3) : S256x256.Idx → EReal) = c2 Wk)
    (hv : (m ((c.tc : Thread nD τ).loc main_arg5) : S256x256.Idx → EReal) = c2 Wv) :
    (V1 m ρ c main_v31 : S256x768.Idx → EReal) = c2 (WcatR Wq Wk Wv) := by
  have hq' : (W0 m ρ c (Proc.devRef .tc main_arg1) : S256x256.Idx → EReal) = c2 Wq := hq
  have hk' : (W0 m ρ c (Proc.devRef .tc main_arg3) : S256x256.Idx → EReal) = c2 Wk := hk
  have hv' : (W0 m ρ c (Proc.devRef .tc main_arg5) : S256x256.Idx → EReal) = c2 Wv := hv
  show StableHlo.after hostOps0 (W0 m ρ c) (Proc.devRef .tc main_v31) = _
  after_results_simp3
  rw [hq', hk', hv']
  funext j
  obtain ⟨r, cc, rfl⟩ : ∃ r cc, j = ix2 r cc := ⟨j 0, j 1, eq_ix2 j⟩
  rw [c2_ix2, truncf_apply, joinW_apply, colDims_eq]
  simp only [gather_cols_apply, c2_ix2]
  unfold WcatR
  by_cases h1 : cc.val < 256
  · rw [dif_pos h1, dif_pos h1]
    exact congrArg (fun k => ((Wq r k : ℝ) : EReal)) (startIdx_clamp _ _)
  · rw [dif_neg h1, dif_neg h1]
    by_cases h2 : cc.val < 512
    · rw [dif_pos h2, dif_pos h2]
      exact congrArg (fun k => ((Wk r k : ℝ) : EReal)) (startIdx_clamp _ _)
    · rw [dif_neg h2, dif_neg h2]
      exact congrArg (fun k => ((Wv r k : ℝ) : EReal)) (startIdx_clamp _ _)

open Idealize.ShloMosaic.ValueIdx in
/-- … and the joined bias, as one row. -/
theorem host0_v34 (c : Dev nD) (bq bk bv : Fin 256 → ℝ)
    (hq : (m ((c.tc : Thread nD τ).loc main_arg2) : S256.Idx → EReal) = c1 bq)
    (hk : (m ((c.tc : Thread nD τ).loc main_arg4) : S256.Idx → EReal) = c1 bk)
    (hv : (m ((c.tc : Thread nD τ).loc main_arg6) : S256.Idx → EReal) = c1 bv) :
    (V1 m ρ c main_v34 : S1x768.Idx → EReal) = c2 (fun (_ : Fin 1) j => bcatR bq bk bv j) := by
  have hq' : (W0 m ρ c (Proc.devRef .tc main_arg2) : S256.Idx → EReal) = c1 bq := hq
  have hk' : (W0 m ρ c (Proc.devRef .tc main_arg4) : S256.Idx → EReal) = c1 bk := hk
  have hv' : (W0 m ρ c (Proc.devRef .tc main_arg6) : S256.Idx → EReal) = c1 bv := hv
  show StableHlo.after hostOps0 (W0 m ρ c) (Proc.devRef .tc main_v34) = _
  after_results_simp3
  rw [hq', hk', hv']
  funext j
  obtain ⟨r, cc, rfl⟩ : ∃ r cc, j = ix2 r cc := ⟨j 0, j 1, eq_ix2 j⟩
  rw [c2_ix2]
  show shapeCast S1x768 _ shapeCasts_S768_S1x768 (ix2 r cc) = _
  rw [shapeCast_apply _ _ (ix2 r cc) (ix1 cc) (by
    rw [Shape.rowMajor_val_one, Shape.rowMajor_val_two]
    show cc.val = r.val * 768 + cc.val
    have := r.isLt; omega), joinB_apply, entDims_eq]
  simp only [gather_entries_apply, c1_ix1]
  unfold bcatR
  by_cases h1 : cc.val < 256
  · rw [dif_pos h1, dif_pos h1]
    exact congrArg (fun k => ((bq k : ℝ) : EReal)) (startIdx_clamp _ _)
  · rw [dif_neg h1, dif_neg h1]
    by_cases h2 : cc.val < 512
    · rw [dif_pos h2, dif_pos h2]
      exact congrArg (fun k => ((bk k : ℝ) : EReal)) (startIdx_clamp _ _)
    · rw [dif_neg h2, dif_neg h2]
      exact congrArg (fun k => ((bv k : ℝ) : EReal)) (startIdx_clamp _ _)

/-- The output weight's change of format is the identity. -/
theorem host0_v33 (c : Dev nD) (Wo : Fin 256 → Fin 256 → ℝ)
    (ho : (m ((c.tc : Thread nD τ).loc main_arg7) : S256x256.Idx → EReal) = c2 Wo) :
    (V1 m ρ c main_v33 : S256x256.Idx → EReal) = c2 Wo := by
  have ho' : (W0 m ρ c (Proc.devRef .tc main_arg7) : S256x256.Idx → EReal) = c2 Wo := ho
  show StableHlo.after hostOps0 (W0 m ρ c) (Proc.devRef .tc main_v33) = _
  after_results_simp3
  rw [ho']
  rfl

/-- The first stretch writes no argument. -/
theorem host0_arg0 (c : Dev nD) : V1 m ρ c main_arg0 = m ((c.tc : Thread nD τ).loc main_arg0) :=
  (StableHlo.after_of_forall_not_mem (b := Proc.devRef .tc main_arg0) hostOps0 (W0 m ρ c) (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))).trans rfl
theorem host0_arg8 (c : Dev nD) : V1 m ρ c main_arg8 = m ((c.tc : Thread nD τ).loc main_arg8) :=
  (StableHlo.after_of_forall_not_mem (b := Proc.devRef .tc main_arg8) hostOps0 (W0 m ρ c) (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))).trans rfl

end Cert.KernelIdeal.Hand

end
-- ==== Proof.KIHost12.lean ====
import proofs.«417944_j30408368455794_3_alg».proof.Proof.KIFold
import proofs.«417944_j30408368455794_3_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

variable (m : (ℓ : Loc nD τ sig) → Buf (Elt Ideal) ℓ) (ρ : Dev nD → PrngReg)

/-! ## Layout operations read at coordinates -/

/-- A band of 256 columns of the projections, starting at column `off`, regrouped into 16384 rows of 32: row `n`,
    column `j` of the regrouped band has row-major position `32·n + j = 256·(n / 8) + ((n % 8)·32 + j)`, so it is row
    `n / 8`, column `off + ((n % 8)·32 + j)` of the projections. -/
theorem band_apply {α : Type} (x : S2048x768.Idx → α) (off : Nat) (h : S2048x768.Slices ![0, off] S2048x256)
    (n : Fin 16384) (j : Fin 32) (r : Fin 2048) (q : Fin 768) (hr : r.val = n.val / 8)
    (hq : q.val = off + ((n.val % 8) * 32 + j.val)) :
    shapeCast S16384x32 (extractStridedSlice S2048x256 ![0, off] x h) shapeCasts_S2048x256_S16384x32 (ValueIdx.ix2 n j)
      = x (ValueIdx.ix2 r q) := by
  have hq' : (n.val % 8) * 32 + j.val < 256 := by omega
  refine (shapeCast_apply _ _ (ValueIdx.ix2 n j) (ValueIdx.ix2 r (⟨(n.val % 8) * 32 + j.val, hq'⟩ : Fin 256)) ?_).trans ?_
  · rw [Shape.rowMajor_val_two, Shape.rowMajor_val_two]
    show r.val * 256 + ((n.val % 8) * 32 + j.val) = n.val * 32 + j.val
    omega
  · refine extractStridedSlice_apply _ _ _ _ _ fun a => ?_
    match a with
    | ⟨0, _⟩ => show r.val = 0 + r.val; omega
    | ⟨1, _⟩ => show q.val = off + ((n.val % 8) * 32 + j.val); exact hq

/-! ## The second stretch: the projections cut and regrouped -/

theorem host1_v39 (c : Dev nD) (y : Fin 2048 → Fin 768 → ℝ)
    (hy : (V2 m ρ c main_v35 : S2048x768.Idx → EReal) = c2 y) :
    (V3 m ρ c main_v39 : S16384x32.Idx → EReal) = c2 (qhR y) := by
  have e : (V3 m ρ c main_v39 : S16384x32.Idx → EReal)
      = shapeCast S16384x32 (extractStridedSlice S2048x256 ![0, 0] (V2 m ρ c main_v35 : S2048x768.Idx → EReal) slices_S2048x768_S2048x256_0_0) shapeCasts_S2048x256_S16384x32 := by
    show StableHlo.after hostOps1 (W2 m ρ c) (Proc.devRef .tc main_v39) = _
    after_results
    rfl
  rw [e, hy]
  funext i
  obtain ⟨n, j, rfl⟩ : ∃ (n : Fin 16384) (j : Fin 32), i = ValueIdx.ix2 n j := ⟨i 0, i 1, ValueIdx.eq_ix2 i⟩
  rw [c2_ix2]
  -- the queries are the band starting at column 0
  refine (band_apply (c2 y) 0 _ n j ⟨n.val / 8, by omega⟩ ⟨(n.val % 8) * 32 + j.val, by omega⟩ rfl (Nat.zero_add _).symm).trans ?_
  rfl
theorem host1_v42 (c : Dev nD) (y : Fin 2048 → Fin 768 → ℝ)
    (hy : (V2 m ρ c main_v35 : S2048x768.Idx → EReal) = c2 y) :
    (V3 m ρ c main_v42 : S32x16384.Idx → EReal) = c2 (khtR y) := by
  have e : (V3 m ρ c main_v42 : S32x16384.Idx → EReal)
      = transpose S32x16384 [1, 0] (shapeCast S16384x32 (extractStridedSlice S2048x256 ![0, 256] (V2 m ρ c main_v35 : S2048x768.Idx → EReal) slices_S2048x768_S2048x256_0_256) shapeCasts_S2048x256_S16384x32) transposes_S16384x32_S32x16384_1_0 := by
    show StableHlo.after hostOps1 (W2 m ρ c) (Proc.devRef .tc main_v42) = _
    after_results
    rfl
  rw [e, hy]
  funext i
  obtain ⟨j, n, rfl⟩ : ∃ (j : Fin 32) (n : Fin 16384), i = ValueIdx.ix2 j n := ⟨i 0, i 1, ValueIdx.eq_ix2 i⟩
  rw [c2_ix2]
  -- entry `(j, n)` of the transpose is entry `(n, j)` of the regrouped keys, the band starting at column 256
  refine (transpose_apply _ _ _ (ValueIdx.ix2 j n) (ValueIdx.ix2 n j) fun b => ?_).trans ?_
  · match b with
    | ⟨0, _⟩ => rfl
    | ⟨1, _⟩ => rfl
  refine (band_apply (c2 y) 256 _ n j ⟨n.val / 8, by omega⟩ ⟨256 + ((n.val % 8) * 32 + j.val), by omega⟩ rfl rfl).trans ?_
  rfl
theorem host1_v44 (c : Dev nD) (y : Fin 2048 → Fin 768 → ℝ)
    (hy : (V2 m ρ c main_v35 : S2048x768.Idx → EReal) = c2 y) :
    (V3 m ρ c main_v44 : S16384x33.Idx → EReal) = c2 (vaugR y) := by
  have e : (V3 m ρ c main_v44 : S16384x33.Idx → EReal)
      = concatenate S16384x33 1
          [⟨S16384x32, shapeCast S16384x32 (extractStridedSlice S2048x256 ![0, 512] (V2 m ρ c main_v35 : S2048x768.Idx → EReal) slices_S2048x768_S2048x256_0_512) shapeCasts_S2048x256_S16384x32⟩,
           ⟨S16384x1, broadcastInDim S16384x1 ![] bcast_S_S16384x1 (constant (F := Ideal) S_ .bf16 0x3F80#16)⟩]
          concatenates_S16384x32_S16384x1_S16384x33_d1 := by
    show StableHlo.after hostOps1 (W2 m ρ c) (Proc.devRef .tc main_v44) = _
    after_results
    rfl
  rw [e, hy]
  funext i
  obtain ⟨n, j, rfl⟩ : ∃ (n : Fin 16384) (j : Fin 33), i = ValueIdx.ix2 n j := ⟨i 0, i 1, ValueIdx.eq_ix2 i⟩
  rw [c2_ix2]
  -- columns 0–31 are the regrouped values, the band starting at column 512; column 32 is the constant 1
  by_cases hj : j.val < 32
  · refine (concatenate_pair_apply_left (t := S16384x33) (s₁ := S16384x32) (s₂ := S16384x1) (1 : Fin 2) _ _ _ (ValueIdx.ix2 n j) rfl (ValueIdx.ix2 n (⟨j.val, hj⟩ : Fin 32)) fun b => ?_).trans ?_
    · match b with
      | ⟨0, _⟩ => rfl
      | ⟨1, _⟩ => rfl
    refine (band_apply (c2 y) 512 _ n ⟨j.val, hj⟩ ⟨n.val / 8, by omega⟩ ⟨512 + ((n.val % 8) * 32 + j.val), by omega⟩ rfl rfl).trans ?_
    rw [c2_ix2]
    unfold vaugR
    rw [dif_pos hj]
  · refine (concatenate_pair_apply_right (t := S16384x33) (s₁ := S16384x32) (s₂ := S16384x1) (1 : Fin 2) _ _ _ (ValueIdx.ix2 n j) rfl rfl (ValueIdx.ix2 n (0 : Fin 1)) (fun b hb => ?_) ?_).trans ?_
    · match b with
      | ⟨0, _⟩ => rfl
      | ⟨1, _⟩ => exact absurd rfl hb
    · show 0 + 32 = j.val
      omega
    refine (broadcastInDim_apply _ _ _ (ValueIdx.ix2 n (0 : Fin 1)) ValueIdx.ix0 fun a => a.elim0).trans ?_
    rw [ValueIdx.constant_apply]
    unfold vaugR
    rw [dif_neg hj]
    -- the bf16 word 0x3F80 denotes 1
    simp [Ideal.ofBits, Ideal.ieee, -EReal.coe_mul]
    norm_num

/-! ## The third stretch: the attention transposed back, its heads joined; the bias as a row -/

theorem host2_v49 (c : Dev nD) (o : Fin 32 → Fin 16384 → ℝ)
    (ho : (V4 m ρ c main_v45 : S32x16384.Idx → EReal) = c2 o) :
    (V5 m ρ c main_v49 : S2048x256.Idx → EReal) = c2 (attendedK o) := by
  have e : (V5 m ρ c main_v49 : S2048x256.Idx → EReal)
      = shapeCast S2048x256 (transpose S2048x32x8 [0, 2, 1] (shapeCast S2048x8x32 (transpose S16384x32 [1, 0] (V4 m ρ c main_v45 : S32x16384.Idx → EReal) transposes_S32x16384_S16384x32_1_0) shapeCasts_S16384x32_S2048x8x32) transposes_S2048x8x32_S2048x32x8_0_2_1) shapeCasts_S2048x32x8_S2048x256 := by
    show StableHlo.after hostOps2 (W4 m ρ c) (Proc.devRef .tc main_v49) = _
    after_results
    rfl
  rw [e, ho]
  funext i
  obtain ⟨b, k, rfl⟩ : ∃ (b : Fin 2048) (k : Fin 256), i = ValueIdx.ix2 b k := ⟨i 0, i 1, ValueIdx.eq_ix2 i⟩
  rw [c2_ix2]
  have h1 : k.val / 8 < 32 := by omega
  have h2 : k.val % 8 < 8 := by omega
  have h3 : b.val * 8 + k.val % 8 < 16384 := by omega
  -- column `k` of batch row `b` is entry `(b, k / 8, k % 8)` of the 2048×32×8 array: `256·b + k = (32·b + k / 8)·8 + k % 8`
  refine (shapeCast_apply _ _ (ValueIdx.ix2 b k) (ValueIdx.ix3 b (⟨k.val / 8, h1⟩ : Fin 32) (⟨k.val % 8, h2⟩ : Fin 8)) ?_).trans ?_
  · rw [Shape.rowMajor_val_three, Shape.rowMajor_val_two]
    show (b.val * 32 + k.val / 8) * 8 + k.val % 8 = b.val * 256 + k.val
    omega
  -- the last two axes exchanged: entry `(b, k % 8, k / 8)` of the 2048×8×32 array
  refine (transpose_apply _ _ _ _ (ValueIdx.ix3 b (⟨k.val % 8, h2⟩ : Fin 8) (⟨k.val / 8, h1⟩ : Fin 32)) fun a => ?_).trans ?_
  · match a with
    | ⟨0, _⟩ => rfl
    | ⟨1, _⟩ => rfl
    | ⟨2, _⟩ => rfl
  -- which is row `8·b + k % 8`, column `k / 8` of the 16384×32 array
  refine (shapeCast_apply _ _ _ (ValueIdx.ix2 (⟨b.val * 8 + k.val % 8, h3⟩ : Fin 16384) (⟨k.val / 8, h1⟩ : Fin 32)) ?_).trans ?_
  · rw [Shape.rowMajor_val_three, Shape.rowMajor_val_two]
    show (b.val * 8 + k.val % 8) * 32 + k.val / 8 = (b.val * 8 + k.val % 8) * 32 + k.val / 8
    rfl
  -- the transpose of region 1's result: its entry `(k / 8, 8·b + k % 8)`
  refine (transpose_apply _ _ _ _ (ValueIdx.ix2 (⟨k.val / 8, h1⟩ : Fin 32) (⟨b.val * 8 + k.val % 8, h3⟩ : Fin 16384)) fun a => ?_).trans ?_
  · match a with
    | ⟨0, _⟩ => rfl
    | ⟨1, _⟩ => rfl
  rfl
theorem host2_v50 (c : Dev nD) (bo : Fin 256 → ℝ)
    (hbo : (m ((c.tc : Thread nD τ).loc main_arg8) : S256.Idx → EReal) = c1 bo) :
    (V5 m ρ c main_v50 : S1x256.Idx → EReal) = c2 (fun (_ : Fin 1) j => bo j) := by
  -- the bias argument is written by no stretch and is no array of regions 0 and 1: it is as launched
  have hW : W4 m ρ c (Proc.devRef .tc main_arg8) = m ((c.tc : Thread nD τ).loc main_arg8) :=
    calc W4 m ρ c (Proc.devRef .tc main_arg8)
      _ = W3 m ρ c (Proc.devRef .tc main_arg8) := W4_of_ne m ρ c main_arg8 (by decide)
      _ = W2 m ρ c (Proc.devRef .tc main_arg8) := StableHlo.after_of_forall_not_mem (b := Proc.devRef .tc main_arg8) _ _ (List.forall_iff_forall_mem.mp (by
            simp only [hostOps1, List.Forall, StableHlo.nullary_writes, StableHlo.unary_writes, StableHlo.binary_writes, StableHlo.reshape_writes, Finset.mem_singleton]
            repeat' apply And.intro
            all_goals exact StableHlo.devRef_ne_of_ne (by decide)))
      _ = W1 m ρ c (Proc.devRef .tc main_arg8) := W2_of_ne m ρ c main_arg8 (by decide)
      _ = W0 m ρ c (Proc.devRef .tc main_arg8) := StableHlo.after_of_forall_not_mem (b := Proc.devRef .tc main_arg8) _ _ (List.forall_iff_forall_mem.mp (by
            simp only [hostOps0, List.Forall, StableHlo.nullary_writes, StableHlo.unary_writes, StableHlo.binary_writes, StableHlo.ternary_writes, StableHlo.nary_writes, StableHlo.reshape_writes, Finset.mem_singleton]
            repeat' apply And.intro
            all_goals exact StableHlo.devRef_ne_of_ne (by decide)))
      _ = m ((c.tc : Thread nD τ).loc main_arg8) := rfl
  have e : (V5 m ρ c main_v50 : S1x256.Idx → EReal)
      = shapeCast S1x256 (W4 m ρ c (Proc.devRef .tc main_arg8) : S256.Idx → EReal) shapeCasts_S256_S1x256 := by
    show StableHlo.after hostOps2 (W4 m ρ c) (Proc.devRef .tc main_v50) = _
    after_results
    rfl
  rw [e, hW, hbo]
  funext i
  obtain ⟨z, j, rfl⟩ : ∃ (z : Fin 1) (j : Fin 256), i = ValueIdx.ix2 z j := ⟨i 0, i 1, ValueIdx.eq_ix2 i⟩
  rw [c2_ix2]
  -- the one row of the 1×256 array is the vector itself
  refine (shapeCast_apply _ _ (ValueIdx.ix2 z j) (ValueIdx.ix1 j) ?_).trans ?_
  · rw [Shape.rowMajor_val_one, Shape.rowMajor_val_two]
    show j.val = z.val * 256 + j.val
    omega
  rfl

/-! ## What is carried through unchanged -/

/-- The output weight in bf16 is written by the first stretch and by nothing after it. -/
theorem carried_v33 (c : Dev nD) : V5 m ρ c main_v33 = V1 m ρ c main_v33 := by
  -- neither later stretch writes it, and it is no array of regions 0 and 1
  calc W5 m ρ c (Proc.devRef .tc main_v33)
    _ = W4 m ρ c (Proc.devRef .tc main_v33) := StableHlo.after_of_forall_not_mem (b := Proc.devRef .tc main_v33) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m ρ c (Proc.devRef .tc main_v33) := W4_of_ne m ρ c main_v33 (by decide)
    _ = W2 m ρ c (Proc.devRef .tc main_v33) := StableHlo.after_of_forall_not_mem (b := Proc.devRef .tc main_v33) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_v33) := W2_of_ne m ρ c main_v33 (by decide)
/-- Region 0's result is what the second stretch reads. -/
theorem v35_eq (c : Dev nD) : V2 m ρ c main_v35 = (dat0 (V1 m ρ) c).arrAt 3 cfg0.N := by
  exact W2_arr m ρ c 3
/-- Region 1's result is what the third stretch reads. -/
theorem v45_eq (c : Dev nD) : V4 m ρ c main_v45 = (dat1 (V3 m ρ) c).arrAt 3 cfg1.N := by
  exact W4_arr m ρ c 3
/-- The results at the return: the last projection, and the joined attention (an input array of region 2, unchanged by it). -/
theorem v51_eq (c : Dev nD) : V6 m ρ c main_v51 = (dat2 (V5 m ρ) c).arrAt 3 cfg2.N := by
  exact W6_arr m ρ c 3
theorem v49_final (c : Dev nD) : V6 m ρ c main_v49 = V5 m ρ c main_v49 := by
  -- window 0 of region 2 is an input window: its array is as the region found it
  exact (W6_arr m ρ c 0).trans (((dat2 (V5 m ρ) c).arrAt_in 0 rfl _).trans (A_eq2 (V5 m ρ) c 0))

end Cert.KernelIdeal.Hand

end
-- ==== Proof.SoftmaxMath.lean ====
import proofs.«417944_j30408368455794_3_alg».proof.Proof.Spec
import Mathlib.Algebra.BigOperators.Fin
import Mathlib.Algebra.BigOperators.Group.Finset.Basic
import Mathlib.Data.Finset.Lattice.Fold

/-!
# The kernel's real model is the reference's

Three facts over the reals. The permuted joined weight: regrouping columns of the joint projection plainly is
the reference's permuting regroup of each projection. The chunked softmax: the accumulator after the eight chunks
is `∑ v · exp (score − row maximum)`, because `exp (m − m') · exp (s − m) = exp (s − m')` and the running maximum
after the last chunk is the row maximum; so the accumulator's row `j` over its row of weight sums is the softmax
weights times column `j` of the values. And scaling the queries before the product is scaling the scores.
-/

noncomputable section

open scoped BigOperators

namespace Cert.Spec

/-! ## The joint projection regrouped plainly is each projection regrouped with the permutation -/

/-- Columns 0–255 of the joint projection, regrouped plainly, are the query projection's permuting regroup. -/
theorem qhR_qkv (x : Fin 2048 → Fin 256 → ℝ) (Wq Wk Wv : Fin 256 → Fin 256 → ℝ) (bq bk bv : Fin 256 → ℝ)
    (n : Fin 16384) (j : Fin 32) :
    qhR (qkvR x (WcatR Wq Wk Wv) (bcatR bq bk bv)) n j = splitR (linR x Wq bq) n j := by
  have h : (n.val % 8) * 32 + j.val < 256 := by omega
  simp only [qhR, qkvR, splitR, linR, WcatR, bcatR, dif_pos h]

/-- Columns 256–511 are the key projection's. -/
theorem khtR_qkv (x : Fin 2048 → Fin 256 → ℝ) (Wq Wk Wv : Fin 256 → Fin 256 → ℝ) (bq bk bv : Fin 256 → ℝ)
    (j : Fin 32) (n : Fin 16384) :
    khtR (qkvR x (WcatR Wq Wk Wv) (bcatR bq bk bv)) j n = splitR (linR x Wk bk) n j := by
  have h : ¬ (256 + ((n.val % 8) * 32 + j.val) < 256) := by omega
  have h' : 256 + ((n.val % 8) * 32 + j.val) < 512 := by omega
  simp only [khtR, qkvR, splitR, linR, WcatR, bcatR, dif_neg h, dif_pos h', Nat.add_sub_cancel_left]

/-- Columns 512–767 are the value projection's. -/
theorem vaugR_qkv (x : Fin 2048 → Fin 256 → ℝ) (Wq Wk Wv : Fin 256 → Fin 256 → ℝ) (bq bk bv : Fin 256 → ℝ)
    (n : Fin 16384) (j : Fin 32) :
    vaugR (qkvR x (WcatR Wq Wk Wv) (bcatR bq bk bv)) n ⟨j.val, by omega⟩ = splitR (linR x Wv bv) n j := by
  have h0 : j.val < 32 := j.isLt
  have h : ¬ (512 + ((n.val % 8) * 32 + j.val) < 256) := by omega
  have h' : ¬ (512 + ((n.val % 8) * 32 + j.val) < 512) := by omega
  simp only [vaugR, qkvR, splitR, linR, WcatR, bcatR, dif_pos h0, dif_neg h, dif_neg h', Nat.add_sub_cancel_left]

/-! ## The running maximum after the last chunk is the row maximum -/

theorem atNat_lt (f : Fin 16384 → ℝ) {k : ℕ} (h : k < 16384) : atNat f k = f ⟨k, h⟩ := dif_pos h

theorem chunkMax_le_runMax (s : Fin 16384 → ℝ) : ∀ c c' : ℕ, c ≤ c' → chunkMax s c ≤ runMax s c'
  | c, 0, h => by
      obtain rfl : c = 0 := by omega
      exact le_rfl
  | c, c' + 1, h => by
      rcases Nat.lt_or_ge c (c' + 1) with h1 | h1
      · exact le_trans (chunkMax_le_runMax s c c' (by omega)) (le_max_left _ _)
      · obtain rfl : c = c' + 1 := by omega
        exact le_max_right _ _

theorem chunkMax_le_rowMax (s : Fin 16384 → ℝ) (c : ℕ) (hc : c < 8) : chunkMax s c ≤ rowMax s := by
  unfold chunkMax
  apply Finset.sup'_le
  intro i _
  have h : 2048 * c + i.val < 16384 := by omega
  rw [atNat_lt s h]
  exact Finset.le_sup' s (Finset.mem_univ _)

theorem runMax_le_rowMax (s : Fin 16384 → ℝ) : ∀ c : ℕ, c < 8 → runMax s c ≤ rowMax s
  | 0, _ => chunkMax_le_rowMax s 0 (by omega)
  | c + 1, h => max_le (runMax_le_rowMax s c (by omega)) (chunkMax_le_rowMax s (c + 1) h)

theorem rowMax_eq_runMax (s : Fin 16384 → ℝ) : rowMax s = runMax s 7 := by
  apply le_antisymm
  · unfold rowMax
    apply Finset.sup'_le
    intro n _
    have h1 : 2048 * (n.val / 2048) + n.val % 2048 = n.val := Nat.div_add_mod _ _
    have h2 : n.val / 2048 ≤ 7 := by omega
    have h3 : n.val % 2048 < 2048 := Nat.mod_lt _ (by norm_num)
    have h4 : 2048 * (n.val / 2048) + n.val % 2048 < 16384 := by omega
    have e : s n = atNat s (2048 * (n.val / 2048) + (⟨n.val % 2048, h3⟩ : Fin 2048).val) := by
      rw [atNat_lt s h4]
      congr 1
      exact Fin.ext h1.symm
    rw [e]
    exact le_trans
      (Finset.le_sup' (fun i : Fin 2048 => atNat s (2048 * (n.val / 2048) + i.val)) (Finset.mem_univ _))
      (chunkMax_le_runMax s _ _ h2)
  · exact runMax_le_rowMax s 7 (by norm_num)

/-! ## The accumulator after chunk `c` is the sum over chunks `0 … c` against the running maximum -/

/-- Rescaling a term from one maximum to another: `exp (s − m) · exp (m − m') = exp (s − m')`. -/
theorem atNat_rescale (s v : Fin 16384 → ℝ) (m m' : ℝ) (k : ℕ) :
    atNat (fun n' => v n' * Real.exp (s n' - m)) k * Real.exp (m - m')
      = atNat (fun n' => v n' * Real.exp (s n' - m')) k := by
  unfold atNat
  split_ifs with h
  · rw [mul_assoc, ← Real.exp_add]
    congr 2
    ring
  · exact zero_mul _

theorem chunkSum_range (f : Fin 16384 → ℝ) (c : ℕ) :
    chunkSum f c = ∑ i ∈ Finset.range 2048, atNat f (2048 * c + i) :=
  Fin.sum_univ_eq_sum_range (fun i => atNat f (2048 * c + i)) 2048

theorem accR_eq_sum (s v : Fin 16384 → ℝ) (c : ℕ) :
    accR s v c = ∑ k ∈ Finset.range (2048 * (c + 1)), atNat (fun n' => v n' * Real.exp (s n' - runMax s c)) k := by
  induction c with
  | zero =>
      rw [accR, chunkSum_range]
      simp only [Nat.mul_zero, Nat.zero_add, Nat.mul_one]
  | succ c ih =>
      have hA : ∀ k ∈ Finset.range (2048 * (c + 1)),
          atNat (fun n' => v n' * Real.exp (s n' - runMax s c)) k * Real.exp (runMax s c - runMax s (c + 1))
            = atNat (fun n' => v n' * Real.exp (s n' - runMax s (c + 1))) k :=
        fun k _ => atNat_rescale s v _ _ k
      rw [accR, ih, Finset.sum_mul, chunkSum_range, Finset.sum_congr rfl hA]
      rw [show 2048 * (c + 1 + 1) = 2048 * (c + 1) + 2048 by ring, Finset.sum_range_add]

/-- After the eight chunks the accumulator is the whole sum against the row maximum. -/
theorem accR_seven (s v : Fin 16384 → ℝ) :
    accR s v 7 = ∑ n' : Fin 16384, v n' * Real.exp (s n' - rowMax s) := by
  rw [accR_eq_sum s v 7, rowMax_eq_runMax s, show 2048 * (7 + 1) = 16384 by norm_num]
  rw [← Fin.sum_univ_eq_sum_range (atNat (fun n' => v n' * Real.exp (s n' - runMax s 7))) 16384]
  apply Finset.sum_congr rfl
  intro i _
  exact atNat_lt _ i.isLt

/-! ## The accumulator's rows over the row of weight sums are the softmax weights times the values -/

theorem scoreK_eq (Q K : Fin 16384 → Fin 32 → ℝ) (KT : Fin 32 → Fin 16384 → ℝ)
    (hK : ∀ j n, KT j n = K n j) (n : Fin 16384) : scoreK Q KT n = scoreR Q K n := by
  funext n'
  unfold scoreK scoreR
  rw [Finset.sum_mul]
  apply Finset.sum_congr rfl
  intro j _
  rw [hK]
  ring

theorem attnK_eq (Q K V : Fin 16384 → Fin 32 → ℝ) (KT : Fin 32 → Fin 16384 → ℝ) (Vaug : Fin 16384 → Fin 33 → ℝ)
    (hK : ∀ j n, KT j n = K n j) (hV : ∀ n (j : Fin 32), Vaug n ⟨j.val, by omega⟩ = V n j)
    (h1 : ∀ n, Vaug n ⟨32, by omega⟩ = 1) (n : Fin 16384) (j : Fin 32) :
    attnK Q KT Vaug n j = attnR Q K V n j := by
  unfold attnK attnR softR
  rw [accR_seven, accR_seven, scoreK_eq Q K KT hK n]
  simp only [hV, h1, one_mul]
  rw [Finset.sum_div]
  apply Finset.sum_congr rfl
  intro n' _
  ring

/-- The values' extra column is the constant one. -/
theorem vaug_one (y : Fin 2048 → Fin 768 → ℝ) (n : Fin 16384) : vaugR y n ⟨32, by omega⟩ = 1 := by
  have h : ¬ (32 < 32) := by omega
  simp only [vaugR, dif_neg h]

/-- The kernel's second result is the reference's. -/
theorem attended_eq (x : Fin 2048 → Fin 256 → ℝ) (Wq : Fin 256 → Fin 256 → ℝ) (bq : Fin 256 → ℝ) (Wk : Fin 256 → Fin 256 → ℝ) (bk : Fin 256 → ℝ)
    (Wv : Fin 256 → Fin 256 → ℝ) (bv : Fin 256 → ℝ) :
    attendedK (fun j n => attnK (qhR (qkvR x (WcatR Wq Wk Wv) (bcatR bq bk bv))) (khtR (qkvR x (WcatR Wq Wk Wv) (bcatR bq bk bv)))
        (vaugR (qkvR x (WcatR Wq Wk Wv) (bcatR bq bk bv))) n j)
      = attendedR x Wq bq Wk bk Wv bv := by
  have hq : qhR (qkvR x (WcatR Wq Wk Wv) (bcatR bq bk bv)) = splitR (linR x Wq bq) := by
    funext n j
    exact qhR_qkv x Wq Wk Wv bq bk bv n j
  funext b c
  unfold attendedK attendedR concatR
  rw [hq]
  exact attnK_eq _ _ _ _ _ (fun j n => khtR_qkv x Wq Wk Wv bq bk bv j n)
    (fun n j => vaugR_qkv x Wq Wk Wv bq bk bv n j) (fun n => vaug_one _ n) _ _

end Cert.Spec

end
-- ==== Proof.KIValue.lean ====
import proofs.«417944_j30408368455794_3_alg».proof.Proof.KIRun
import proofs.«417944_j30408368455794_3_alg».proof.Proof.KIVal02
import proofs.«417944_j30408368455794_3_alg».proof.Proof.KIVal1
import proofs.«417944_j30408368455794_3_alg».proof.Proof.KIHost0
import proofs.«417944_j30408368455794_3_alg».proof.Proof.KIHost12
import proofs.«417944_j30408368455794_3_alg».proof.Proof.SoftmaxMath

/-!
# The kernel's two results over the reals

From real input arrays the contents fold forward: the first stretch makes the joined weight and bias; region 0 the
joint projection `qkvR`; the second stretch regroups it into queries, transposed keys and values with a column of
ones; region 1 leaves the chunk-accumulated attention; the third stretch transposes it back and joins the heads;
region 2 projects once more. The chunk-accumulated attention joined by heads is the reference's `attendedR`
(`attended_eq`), and its projection the reference's `outputsR`.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

variable (m : (ℓ : Loc nD τ sig) → Buf (Elt Ideal) ℓ) (ρ : Dev nD → PrngReg)

section
variable (c : Dev nD) (x : Fin 2048 → Fin 256 → ℝ) (Wq : Fin 256 → Fin 256 → ℝ) (bq : Fin 256 → ℝ) (Wk : Fin 256 → Fin 256 → ℝ) (bk : Fin 256 → ℝ)
    (Wv : Fin 256 → Fin 256 → ℝ) (bv : Fin 256 → ℝ) (Wo : Fin 256 → Fin 256 → ℝ) (bo : Fin 256 → ℝ)
    (h0 : (m ((c.tc : Thread nD τ).loc main_arg0) : S2048x256.Idx → EReal) = c2 x)
    (h1 : (m ((c.tc : Thread nD τ).loc main_arg1) : S256x256.Idx → EReal) = c2 Wq)
    (h2 : (m ((c.tc : Thread nD τ).loc main_arg2) : S256.Idx → EReal) = c1 bq)
    (h3 : (m ((c.tc : Thread nD τ).loc main_arg3) : S256x256.Idx → EReal) = c2 Wk)
    (h4 : (m ((c.tc : Thread nD τ).loc main_arg4) : S256.Idx → EReal) = c1 bk)
    (h5 : (m ((c.tc : Thread nD τ).loc main_arg5) : S256x256.Idx → EReal) = c2 Wv)
    (h6 : (m ((c.tc : Thread nD τ).loc main_arg6) : S256.Idx → EReal) = c1 bv)
    (h7 : (m ((c.tc : Thread nD τ).loc main_arg7) : S256x256.Idx → EReal) = c2 Wo)
    (h8 : (m ((c.tc : Thread nD τ).loc main_arg8) : S256.Idx → EReal) = c1 bo)

include h0 h1 h2 h3 h4 h5 h6 in
/-- Region 0 leaves the joint projection. -/
theorem v35_val : (V2 m ρ c main_v35 : S2048x768.Idx → EReal) = c2 (qkvR x (WcatR Wq Wk Wv) (bcatR bq bk bv)) :=
  (v35_eq m ρ c).trans (reg0_val (V1 m ρ) c x (WcatR Wq Wk Wv) (bcatR bq bk bv) ((host0_arg0 m ρ c).trans h0)
    (host0_v31 m ρ c Wq Wk Wv h1 h3 h5) (host0_v34 m ρ c bq bk bv h2 h4 h6))

include h0 h1 h2 h3 h4 h5 h6 in
/-- Region 1 leaves the chunk-accumulated attention of the regrouped projection. -/
theorem v45_val : (V4 m ρ c main_v45 : S32x16384.Idx → EReal)
    = c2 (fun j n => attnK (qhR (qkvR x (WcatR Wq Wk Wv) (bcatR bq bk bv))) (khtR (qkvR x (WcatR Wq Wk Wv) (bcatR bq bk bv)))
        (vaugR (qkvR x (WcatR Wq Wk Wv) (bcatR bq bk bv))) n j) :=
  (v45_eq m ρ c).trans (reg1_val (V3 m ρ) c _ _ _
    (host1_v39 m ρ c _ (v35_val m ρ c x Wq bq Wk bk Wv bv h0 h1 h2 h3 h4 h5 h6))
    (host1_v42 m ρ c _ (v35_val m ρ c x Wq bq Wk bk Wv bv h0 h1 h2 h3 h4 h5 h6))
    (host1_v44 m ρ c _ (v35_val m ρ c x Wq bq Wk bk Wv bv h0 h1 h2 h3 h4 h5 h6))
    (fun n => vaug_one _ n))

include h0 h1 h2 h3 h4 h5 h6 in
/-- Region 2 is entered with the reference's attended array. -/
theorem v49_val : (V5 m ρ c main_v49 : S2048x256.Idx → EReal) = c2 (attendedR x Wq bq Wk bk Wv bv) :=
  (host2_v49 m ρ c _ (v45_val m ρ c x Wq bq Wk bk Wv bv h0 h1 h2 h3 h4 h5 h6)).trans
    (congrArg c2 (attended_eq x Wq bq Wk bk Wv bv))

include h0 h1 h2 h3 h4 h5 h6 h7 h8 in
/-- The first result at the return. -/
theorem v51_val : (V6 m ρ c main_v51 : S2048x256.Idx → EReal) = c2 (outputsR x Wq bq Wk bk Wv bv Wo bo) :=
  (v51_eq m ρ c).trans (reg2_val (V5 m ρ) c (attendedR x Wq bq Wk bk Wv bv) Wo bo
    (v49_val m ρ c x Wq bq Wk bk Wv bv h0 h1 h2 h3 h4 h5 h6)
    ((carried_v33 m ρ c).trans (host0_v33 m ρ c Wo h7)) (host2_v50 m ρ c bo h8))

include h0 h1 h2 h3 h4 h5 h6 in
/-- The second result at the return. -/
theorem v49_ret : (V6 m ρ c main_v49 : S2048x256.Idx → EReal) = c2 (attendedR x Wq bq Wk bk Wv bv) :=
  (v49_final m ρ c).trans (v49_val m ρ c x Wq bq Wk bk Wv bv h0 h1 h2 h3 h4 h5 h6)

end

/-- The kernel's run from real arrays: its two results at the real model's, its arguments unchanged. -/
theorem kernel_value (x : Dev nD → Fin 2048 → Fin 256 → ℝ) (Wq : Dev nD → Fin 256 → Fin 256 → ℝ) (bq : Dev nD → Fin 256 → ℝ)
    (Wk : Dev nD → Fin 256 → Fin 256 → ℝ) (bk : Dev nD → Fin 256 → ℝ) (Wv : Dev nD → Fin 256 → Fin 256 → ℝ) (bv : Dev nD → Fin 256 → ℝ)
    (Wo : Dev nD → Fin 256 → Fin 256 → ℝ) (bo : Dev nD → Fin 256 → ℝ)
    (h0 : ∀ c : Dev nD, (m ((c.tc : Thread nD τ).loc main_arg0) : S2048x256.Idx → EReal) = c2 (x c))
    (h1 : ∀ c : Dev nD, (m ((c.tc : Thread nD τ).loc main_arg1) : S256x256.Idx → EReal) = c2 (Wq c))
    (h2 : ∀ c : Dev nD, (m ((c.tc : Thread nD τ).loc main_arg2) : S256.Idx → EReal) = c1 (bq c))
    (h3 : ∀ c : Dev nD, (m ((c.tc : Thread nD τ).loc main_arg3) : S256x256.Idx → EReal) = c2 (Wk c))
    (h4 : ∀ c : Dev nD, (m ((c.tc : Thread nD τ).loc main_arg4) : S256.Idx → EReal) = c1 (bk c))
    (h5 : ∀ c : Dev nD, (m ((c.tc : Thread nD τ).loc main_arg5) : S256x256.Idx → EReal) = c2 (Wv c))
    (h6 : ∀ c : Dev nD, (m ((c.tc : Thread nD τ).loc main_arg6) : S256.Idx → EReal) = c1 (bv c))
    (h7 : ∀ c : Dev nD, (m ((c.tc : Thread nD τ).loc main_arg7) : S256x256.Idx → EReal) = c2 (Wo c))
    (h8 : ∀ c : Dev nD, (m ((c.tc : Thread nD τ).loc main_arg8) : S256.Idx → EReal) = c1 (bo c)) :
    θ_run defs (onTc (τ := τ) (main (F := Ideal))) ⟨m, fun _ => 0, ρ⟩ (fun r => ∀ c : Dev nD,
      (r.2.mem ((c.tc : Thread nD τ).loc main_v51) : S2048x256.Idx → EReal)
          = c2 (outputsR (x c) (Wq c) (bq c) (Wk c) (bk c) (Wv c) (bv c) (Wo c) (bo c))
      ∧ (r.2.mem ((c.tc : Thread nD τ).loc main_v49) : S2048x256.Idx → EReal)
          = c2 (attendedR (x c) (Wq c) (bq c) (Wk c) (bk c) (Wv c) (bv c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v51 (by decide))).trans
        (v51_val m ρ c (x c) (Wq c) (bq c) (Wk c) (bk c) (Wv c) (bv c) (Wo c) (bo c) (h0 c) (h1 c) (h2 c) (h3 c) (h4 c) (h5 c) (h6 c) (h7 c) (h8 c)),
     (h c _ (mem_uc main_v49 (by decide))).trans
        (v49_ret m ρ c (x c) (Wq c) (bq c) (Wk c) (bk c) (Wv c) (bv c) (h0 c) (h1 c) (h2 c) (h3 c) (h4 c) (h5 c) (h6 c)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)
    (run_all m ρ)

end Cert.KernelIdeal.Hand

end
-- ==== Proof.Finite.lean ====
import proofs.«417944_j30408368455794_3_alg».proof.Defs
import proofs.«417944_j30408368455794_3_alg».proof.Proof.Gen.Pre_finite_inputs
import proofs.«417944_j30408368455794_3_alg».proof.Proof.Spec
import Idealize.ShloMosaic.Lib.ReduceAll

/-!
# Finite inputs are real arrays

The precondition says of each of the nine inputs that every entry's absolute value is below `+∞`; an extended
real with that property is a real number, so each input is a real array read as extended reals.
-/

noncomputable section

namespace Cert.KernelIdeal.Hand

open Cert.KernelIdeal
open Idealize.ShloMosaic Idealize.SL.Sem
open Cert.Spec

/-- An extended real whose absolute value is below `+∞` is a real number. -/
private theorem coe_toReal_of_abs_lt (x : EReal)
    (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  induction x using EReal.rec with
  | bot => exact absurd h (by simp [Ideal.cmp])
  | coe r => rfl
  | top => exact absurd h (by simp [Ideal.cmp])

/-- An array all of whose entries pass the printed test `|x| < +∞` has only real entries. -/
private theorem entry_real {s : Shape} {axes : List (Fin s.rank)} (X : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (h : Host.reduce IntOp.andi (cmpf .olt (Host.absf X) (broadcastInDim s ![] hb (constant Cert.Pre_finite_inputs.S_ .f32 0x7F800000#32)))
      (constantI Cert.Pre_finite_inputs.S_ 1 1#1) hr hS ValueIdx.ix0 = 1#1) (i : s.Idx) :
    (((X i : EReal).toReal : ℝ) : EReal) = X i :=
  coe_toReal_of_abs_lt (X i) (Host.reduce_andi_eq_one _ _ hr hS ValueIdx.ix0 h i (funext fun d => d.elim0))

/-- A rank-2 array with only real entries is a real matrix read as extended reals. -/
private theorem eq_c2_of_real {p q : Nat} (X : (⟨2, ![p, q]⟩ : Shape).Idx → EReal)
    (h : ∀ i, (((X i).toReal : ℝ) : EReal) = X i) : X = c2 (fun a b => (X (ValueIdx.ix2 a b)).toReal) := by
  funext i
  exact (h i).symm.trans (congrArg (fun j => (((X j).toReal : ℝ) : EReal)) (ValueIdx.eq_ix2 i))

/-- A rank-1 array with only real entries is a real vector read as extended reals. -/
private theorem eq_c1_of_real {p : Nat} (X : (⟨1, ![p]⟩ : Shape).Idx → EReal)
    (h : ∀ i, (((X i).toReal : ℝ) : EReal) = X i) : X = c1 (fun a => (X (ValueIdx.ix1 a)).toReal) := by
  funext i
  exact (h i).symm.trans (congrArg (fun j => (((X j).toReal : ℝ) : EReal)) (ValueIdx.eq_ix1 i))

theorem finite_args (m : (ℓ : Loc nD τ sig) → Buf (Elt Ideal) ℓ)
    (hpre : Cert.Pre_KernelIdeal (hPre_finite_inputs := Cert.Pre_finite_inputs.Gen.facts) m) (c : Dev nD) :
    ∃ (x : Fin 2048 → Fin 256 → ℝ) (Wq : Fin 256 → Fin 256 → ℝ) (bq : Fin 256 → ℝ) (Wk : Fin 256 → Fin 256 → ℝ) (bk : Fin 256 → ℝ)
      (Wv : Fin 256 → Fin 256 → ℝ) (bv : Fin 256 → ℝ) (Wo : Fin 256 → Fin 256 → ℝ) (bo : Fin 256 → ℝ),
      (m ((c.tc : Thread nD τ).loc main_arg0) : S2048x256.Idx → EReal) = c2 x
      ∧ (m ((c.tc : Thread nD τ).loc main_arg1) : S256x256.Idx → EReal) = c2 Wq
      ∧ (m ((c.tc : Thread nD τ).loc main_arg2) : S256.Idx → EReal) = c1 bq
      ∧ (m ((c.tc : Thread nD τ).loc main_arg3) : S256x256.Idx → EReal) = c2 Wk
      ∧ (m ((c.tc : Thread nD τ).loc main_arg4) : S256.Idx → EReal) = c1 bk
      ∧ (m ((c.tc : Thread nD τ).loc main_arg5) : S256x256.Idx → EReal) = c2 Wv
      ∧ (m ((c.tc : Thread nD τ).loc main_arg6) : S256.Idx → EReal) = c1 bv
      ∧ (m ((c.tc : Thread nD τ).loc main_arg7) : S256x256.Idx → EReal) = c2 Wo
      ∧ (m ((c.tc : Thread nD τ).loc main_arg8) : S256.Idx → EReal) = c1 bo := by
  have h := congrFun (hpre c) ValueIdx.ix0
  dsimp only [Cert.Pre_finite_inputs.fn, Cert.Pre_finite_inputs.fn_part1, Cert.Pre_finite_inputs.fn_part2] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨_, _, _, _, _, _, _, _, _,
    eq_c2_of_real _ (entry_real _ _ _ _ h0), eq_c2_of_real _ (entry_real _ _ _ _ h1), eq_c1_of_real _ (entry_real _ _ _ _ h2),
    eq_c2_of_real _ (entry_real _ _ _ _ h3), eq_c1_of_real _ (entry_real _ _ _ _ h4), eq_c2_of_real _ (entry_real _ _ _ _ h5),
    eq_c1_of_real _ (entry_real _ _ _ _ h6), eq_c2_of_real _ (entry_real _ _ _ _ h7), eq_c1_of_real _ (entry_real _ _ _ _ h8)⟩

end Cert.KernelIdeal.Hand

end
-- ==== Proof.RefVal.lean ====
import proofs.«417944_j30408368455794_3_alg».proof.Defs
import proofs.«417944_j30408368455794_3_alg».proof.Proof.Gen.ReferenceIdeal
import proofs.«417944_j30408368455794_3_alg».proof.Proof.Gen.ReferenceIdeal.Run
import proofs.«417944_j30408368455794_3_alg».proof.Proof.Gen.ReferenceIdeal.Read
import proofs.«417944_j30408368455794_3_alg».proof.Proof.Spec
import Idealize.ShloMosaic.Lib.ValueIdx
import Idealize.ShloMosaic.Lib.Pipeline.Value
import Idealize.ShloMosaic.PureOps.Ideal.Laws
import Idealize.ShloMosaic.PureOps.Reduce
import Idealize.ShloMosaic.Lib.IdealHost

/-!
# The reference's run over the reals

Run from real arrays, the reference ends with its two results at the real model's `outputsR` and `attendedR`: each
host operation of its run read at an index — the three projections, the regrouping, the scores scaled by
`1 / √256 = 1/16`, the row maximum, the exponentials, their row sum, the quotient, the product with the values, the
heads joined, the last projection — is the corresponding real operation on real entries.
-/

noncomputable section

namespace Cert.ReferenceIdeal.RefValue

open Cert.ReferenceIdeal
open Idealize.ShloMosaic Idealize.ShloMosaic.TcCoe Idealize.SL.Sem
open Cert.Spec

section Stages

open Cert.ReferenceIdeal.Gen Cert.ReferenceIdeal.Read
open Idealize.ShloMosaic.ValueIdx
open scoped BigOperators

/-! ## Casts -/

/-- A finite sum of casts is the cast of the sum. -/
theorem coe_sum {ι : Type} (s : Finset ι) (f : ι → ℝ) : ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- A real matrix's cast, read at an index whose coordinates are known. -/
theorem c2_at {m n : Nat} (f : Fin m → Fin n → ℝ) (i : (⟨2, ![m, n]⟩ : Shape).Idx) (a : Fin m) (b : Fin n)
    (h0 : (i 0).val = a.val) (h1 : (i 1).val = b.val) : c2 f i = ((f a b : ℝ) : EReal) := by
  have e : i = ix2 a b := funext fun d => match d with
    | ⟨0, _⟩ => Fin.ext h0
    | ⟨1, _⟩ => Fin.ext h1
  rw [e]; rfl

/-- A real vector's cast, read at an index whose coordinate is known. -/
theorem c1_at {n : Nat} (f : Fin n → ℝ) (i : (⟨1, ![n]⟩ : Shape).Idx) (a : Fin n)
    (h0 : (i 0).val = a.val) : c1 f i = ((f a : ℝ) : EReal) := by
  have e : i = ix1 a := funext fun d => match d with
    | ⟨0, _⟩ => Fin.ext h0
  rw [e]; rfl

/-! ## Arithmetic of the regroupings -/

theorem split_row (n j : ℕ) (hn : n < 16384) (hj : j < 32) :
    (((n * 32 + j) / 256 * 8 + (n * 32 + j) % 8) * 32 + (n * 32 + j) / 8 % 32) / 256 = n / 8 := by
  have h1 : (n * 32 + j) / 256 = n / 8 := by omega
  have h2 : (n * 32 + j) % 8 = j % 8 := by omega
  have h3 : (n * 32 + j) / 8 % 32 = (n % 8) * 4 + j / 8 := by omega
  rw [h1, h2, h3]; omega

theorem split_col (n j : ℕ) (hn : n < 16384) (hj : j < 32) :
    (((n * 32 + j) / 256 * 8 + (n * 32 + j) % 8) * 32 + (n * 32 + j) / 8 % 32) % 256
      = ((n % 8) * 32 + j) % 8 * 32 + ((n % 8) * 32 + j) / 8 := by
  have h1 : (n * 32 + j) / 256 = n / 8 := by omega
  have h2 : (n * 32 + j) % 8 = j % 8 := by omega
  have h3 : (n * 32 + j) / 8 % 32 = (n % 8) * 4 + j / 8 := by omega
  have h4 : ((n % 8) * 32 + j) % 8 = j % 8 := by omega
  have h5 : ((n % 8) * 32 + j) / 8 = (n % 8) * 4 + j / 8 := by omega
  rw [h1, h2, h3, h4, h5]
  clear h1 h2 h3 h4 h5
  omega

theorem concat_row (b c : ℕ) (hb : b < 2048) (hc : c < 256) :
    (((b * 256 + c) / 256 * 8 + (b * 256 + c) % 8) * 32 + (b * 256 + c) / 8 % 32) / 32 = b * 8 + c % 8 := by
  have h1 : (b * 256 + c) / 256 = b := by omega
  have h2 : (b * 256 + c) % 8 = c % 8 := by omega
  have h3 : (b * 256 + c) / 8 % 32 = c / 8 := by omega
  rw [h1, h2, h3]; omega

theorem concat_col (b c : ℕ) (hb : b < 2048) (hc : c < 256) :
    (((b * 256 + c) / 256 * 8 + (b * 256 + c) % 8) * 32 + (b * 256 + c) / 8 % 32) % 32 = c / 8 := by
  have h1 : (b * 256 + c) / 256 = b := by omega
  have h2 : (b * 256 + c) % 8 = c % 8 := by omega
  have h3 : (b * 256 + c) / 8 % 32 = c / 8 := by omega
  rw [h1, h2, h3]; omega

/-! ## The three projections -/

theorem lin_v3 (x : Fin 2048 → Fin 256 → ℝ) (W : Fin 256 → Fin 256 → ℝ) (b : Fin 256 → ℝ) :
    val_main_v3 (F := Ideal) (c2 x) (c2 W) (c1 b) = c2 (linR x W b) := by
  funext i
  obtain ⟨r, j, rfl⟩ : ∃ (r : Fin 2048) (j : Fin 256), i = ix2 r j := ⟨i 0, i 1, eq_ix2 i⟩
  rw [val_main_v3_apply, val_main_v0_apply, val_main_v2_apply, val_main_v1_apply]
  show (∑ k : Fin 256, ((x r k : ℝ) : EReal) * ((W k j : ℝ) : EReal)) + ((b j : ℝ) : EReal) = ((linR x W b r j : ℝ) : EReal)
  simp only [← EReal.coe_mul, coe_sum, ← EReal.coe_add]
  rfl

theorem lin_v10 (x : Fin 2048 → Fin 256 → ℝ) (W : Fin 256 → Fin 256 → ℝ) (b : Fin 256 → ℝ) :
    val_main_v10 (F := Ideal) (c2 x) (c2 W) (c1 b) = c2 (linR x W b) := by
  funext i
  obtain ⟨r, j, rfl⟩ : ∃ (r : Fin 2048) (j : Fin 256), i = ix2 r j := ⟨i 0, i 1, eq_ix2 i⟩
  rw [val_main_v10_apply, val_main_v7_apply, val_main_v9_apply, val_main_v8_apply]
  show (∑ k : Fin 256, ((x r k : ℝ) : EReal) * ((W k j : ℝ) : EReal)) + ((b j : ℝ) : EReal) = ((linR x W b r j : ℝ) : EReal)
  simp only [← EReal.coe_mul, coe_sum, ← EReal.coe_add]
  rfl

theorem lin_v17 (x : Fin 2048 → Fin 256 → ℝ) (W : Fin 256 → Fin 256 → ℝ) (b : Fin 256 → ℝ) :
    val_main_v17 (F := Ideal) (c2 x) (c2 W) (c1 b) = c2 (linR x W b) := by
  funext i
  obtain ⟨r, j, rfl⟩ : ∃ (r : Fin 2048) (j : Fin 256), i = ix2 r j := ⟨i 0, i 1, eq_ix2 i⟩
  rw [val_main_v17_apply, val_main_v14_apply, val_main_v16_apply, val_main_v15_apply]
  show (∑ k : Fin 256, ((x r k : ℝ) : EReal) * ((W k j : ℝ) : EReal)) + ((b j : ℝ) : EReal) = ((linR x W b r j : ℝ) : EReal)
  simp only [← EReal.coe_mul, coe_sum, ← EReal.coe_add]
  rfl

/-! ## The heads split -/

theorem split_v6 (x : Fin 2048 → Fin 256 → ℝ) (W : Fin 256 → Fin 256 → ℝ) (b : Fin 256 → ℝ) :
    val_main_v6 (F := Ideal) (c2 x) (c2 W) (c1 b) = c2 (splitR (linR x W b)) := by
  funext i
  obtain ⟨n, j, rfl⟩ : ∃ (n : Fin 16384) (j : Fin 32), i = ix2 n j := ⟨i 0, i 1, eq_ix2 i⟩
  rw [val_main_v6_apply, val_main_v5_apply, val_main_v4_apply, lin_v3]
  have hn : n.val < 16384 := n.isLt
  have hj : j.val < 32 := j.isLt
  refine c2_at _ _ ⟨n.val / 8, by omega⟩ (permF ⟨(n.val % 8) * 32 + j.val, by omega⟩) ?_ ?_
  · exact split_row n.val j.val hn hj
  · exact split_col n.val j.val hn hj

theorem split_v13 (x : Fin 2048 → Fin 256 → ℝ) (W : Fin 256 → Fin 256 → ℝ) (b : Fin 256 → ℝ) :
    val_main_v13 (F := Ideal) (c2 x) (c2 W) (c1 b) = c2 (splitR (linR x W b)) := by
  funext i
  obtain ⟨n, j, rfl⟩ : ∃ (n : Fin 16384) (j : Fin 32), i = ix2 n j := ⟨i 0, i 1, eq_ix2 i⟩
  rw [val_main_v13_apply, val_main_v12_apply, val_main_v11_apply, lin_v10]
  have hn : n.val < 16384 := n.isLt
  have hj : j.val < 32 := j.isLt
  refine c2_at _ _ ⟨n.val / 8, by omega⟩ (permF ⟨(n.val % 8) * 32 + j.val, by omega⟩) ?_ ?_
  · exact split_row n.val j.val hn hj
  · exact split_col n.val j.val hn hj

theorem split_v20 (x : Fin 2048 → Fin 256 → ℝ) (W : Fin 256 → Fin 256 → ℝ) (b : Fin 256 → ℝ) :
    val_main_v20 (F := Ideal) (c2 x) (c2 W) (c1 b) = c2 (splitR (linR x W b)) := by
  funext i
  obtain ⟨n, j, rfl⟩ : ∃ (n : Fin 16384) (j : Fin 32), i = ix2 n j := ⟨i 0, i 1, eq_ix2 i⟩
  rw [val_main_v20_apply, val_main_v19_apply, val_main_v18_apply, lin_v17]
  have hn : n.val < 16384 := n.isLt
  have hj : j.val < 32 := j.isLt
  refine c2_at _ _ ⟨n.val / 8, by omega⟩ (permF ⟨(n.val % 8) * 32 + j.val, by omega⟩) ?_ ?_
  · exact split_row n.val j.val hn hj
  · exact split_col n.val j.val hn hj

/-! ## The scale -/

theorem ofBits_256 : Ideal.ofBits .f32 0x43800000#32 = ((256 : ℝ) : EReal) := by
  simp [Ideal.ofBits, Ideal.ieee, -EReal.coe_mul]; norm_num

theorem sqrt_256 : Real.sqrt 256 = 16 := by
  rw [show (256 : ℝ) = 16 ^ 2 by norm_num, Real.sqrt_sq (by norm_num)]

theorem scale_v22 (i : S_.Idx) : val_main_v22 (F := Ideal) i = (((1 : ℝ) / 16 : ℝ) : EReal) := by
  rw [val_main_v22_apply, val_main_v21_apply, val_main_cst_0_apply, val_main_cst_apply]
  show Ideal.div (Ideal.ofBits .f32 0x3F800000#32) (Ideal.sqrt (Ideal.ofBits .f32 0x43800000#32)) = _
  rw [ofBits_256, Ideal.sqrt_coe, if_neg (by norm_num), sqrt_256, Ideal.div_coe (by norm_num), Ideal.ofBits_one_f32, one_mul]

/-! ## The scores -/

theorem score_v26 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal))
    (Q K : Fin 16384 → Fin 32 → ℝ) (hQ : val_main_v6 (F := Ideal) x0 x1 x2 = c2 Q) (hK : val_main_v13 (F := Ideal) x0 x3 x4 = c2 K) :
    val_main_v26 (F := Ideal) x0 x1 x2 x3 x4 = c2 (scoreR Q K) := by
  funext i
  obtain ⟨n, n', rfl⟩ : ∃ (n n' : Fin 16384), i = ix2 n n' := ⟨i 0, i 1, eq_ix2 i⟩
  rw [val_main_v26_apply, val_main_v24_apply, val_main_v25_apply, scale_v22, hQ]
  simp only [val_main_v23_apply, hK]
  show (∑ k : Fin 32, ((Q n k : ℝ) : EReal) * ((K n' k : ℝ) : EReal)) * (((1 : ℝ) / 16 : ℝ) : EReal) = ((scoreR Q K n n' : ℝ) : EReal)
  simp only [← EReal.coe_mul, coe_sum]
  rfl

/-! ## The row maximum -/

theorem ofBits_neg_inf : Ideal.ofBits .f32 0xFF800000#32 = ⊥ := by simp [Ideal.ofBits, Ideal.ieee]

/-- The maximum of a row of casts, folded from the bottom, is the cast of the row's largest entry. -/
theorem fold_max_coe (f : Fin 16384 → ℝ) :
    (Finset.univ : Finset (Fin 16384)).fold max (⊥ : EReal) (fun k => ((f k : ℝ) : EReal)) = ((rowMax f : ℝ) : EReal) := by
  unfold rowMax
  rw [Finset.apply_sup'_eq_sup'_comp Finset.univ_nonempty (fun r : ℝ => (r : EReal))
    (fun a b => EReal.coe_strictMono.monotone.map_max), Finset.sup'_eq_sup]
  rfl

theorem reduces_rows : S16384x16384.Reduces [1] S16384 := by decide

theorem lift_rows (n : Fin 16384) (k : Fin (S16384x16384.size 1)) :
    reduces_rows.lift (ix1 n) k = ix2 n (⟨k.val, k.isLt⟩ : Fin 16384) := by
  funext c; apply Fin.ext
  fin_cases c <;> rfl

theorem max_v29 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal))
    (s : Fin 16384 → Fin 16384 → ℝ) (hs : val_main_v26 (F := Ideal) x0 x1 x2 x3 x4 = c2 s) :
    val_main_v29 (F := Ideal) x0 x1 x2 x3 x4 = c1 (fun n => rowMax (s n)) := by
  funext i
  obtain ⟨n, rfl⟩ : ∃ n : Fin 16384, i = ix1 n := ⟨i 0, eq_ix1 i⟩
  rw [val_main_v29_apply, val_main_v28_apply, val_main_cst_2_apply]
  unfold val_main_v27
  rw [hs]
  have hr := Host.reduce_eq_fold_single (α := Ideal .f32) (FloatOps.maximumf (F := Ideal) (φ := .f32)) (c2 s)
    (val_main_cst_1 (F := Ideal)) reducesTo_S16384x16384_S16384_d1 reduces_rows h_S_ (ix1 n)
  have hf : (c2 s ∘ reduces_rows.lift (ix1 n)) = fun k : Fin 16384 => ((s n k : ℝ) : EReal) :=
    funext fun k => congrArg (c2 s) (lift_rows n k)
  have e1 : Finset.fold (FloatOps.maximumf (F := Ideal) (φ := .f32)) (val_main_cst_1 (F := Ideal) (Shape.Idx.first h_S_))
      (c2 s ∘ reduces_rows.lift (ix1 n)) Finset.univ = ((rowMax (s n) : ℝ) : EReal) :=
    (congrArg₂ (fun (b : EReal) (f : Fin 16384 → EReal) => Finset.fold max b f (Finset.univ : Finset (Fin 16384)))
      ofBits_neg_inf hf).trans (fold_max_coe (s n))
  refine (congrArg (max (Ideal.ofBits .f32 0xFF800000#32)) (hr.trans e1)).trans ?_
  rw [ofBits_neg_inf]
  exact max_eq_right bot_le

/-! ## The exponentials, their row sum, the quotient -/

theorem exp_v33 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal))
    (s : Fin 16384 → Fin 16384 → ℝ) (hs : val_main_v26 (F := Ideal) x0 x1 x2 x3 x4 = c2 s) :
    val_main_v33 (F := Ideal) x0 x1 x2 x3 x4 = c2 (fun n n' => Real.exp (s n n' - rowMax (s n))) := by
  funext i
  obtain ⟨n, n', rfl⟩ : ∃ (n n' : Fin 16384), i = ix2 n n' := ⟨i 0, i 1, eq_ix2 i⟩
  rw [val_main_v33_apply, val_main_v32_apply, val_main_v31_apply, val_main_v30_apply, hs, max_v29 x0 x1 x2 x3 x4 s hs]
  show Ideal.exp (((s n n' : ℝ) : EReal) - ((rowMax (s n) : ℝ) : EReal)) = ((Real.exp (s n n' - rowMax (s n)) : ℝ) : EReal)
  rw [← EReal.coe_sub]
  rfl

theorem sum_v34 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal))
    (e : Fin 16384 → Fin 16384 → ℝ) (he : val_main_v33 (F := Ideal) x0 x1 x2 x3 x4 = c2 e) :
    val_main_v34 (F := Ideal) x0 x1 x2 x3 x4 = c1 (fun n => ∑ n' : Fin 16384, e n n') := by
  funext i
  obtain ⟨n, rfl⟩ : ∃ n : Fin 16384, i = ix1 n := ⟨i 0, eq_ix1 i⟩
  rw [val_main_v34_apply, val_main_cst_3_apply, he]
  show Ideal.ofBits .f32 0x00000000#32 + ∑ k : Fin 16384, ((e n k : ℝ) : EReal) = ((∑ n' : Fin 16384, e n n' : ℝ) : EReal)
  rw [Ideal.ofBits_zero_f32, zero_add, coe_sum]

theorem div_v37 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal))
    (e : Fin 16384 → Fin 16384 → ℝ) (d : Fin 16384 → ℝ) (hd : ∀ n, d n ≠ 0)
    (he : val_main_v33 (F := Ideal) x0 x1 x2 x3 x4 = c2 e) (hs : val_main_v34 (F := Ideal) x0 x1 x2 x3 x4 = c1 d) :
    val_main_v37 (F := Ideal) x0 x1 x2 x3 x4 = c2 (fun n n' => e n n' / d n) := by
  funext i
  obtain ⟨n, n', rfl⟩ : ∃ (n n' : Fin 16384), i = ix2 n n' := ⟨i 0, i 1, eq_ix2 i⟩
  rw [val_main_v37_apply, val_main_v36_apply, val_main_v35_apply, he, hs]
  show Ideal.div ((e n n' : ℝ) : EReal) ((d n : ℝ) : EReal) = ((e n n' / d n : ℝ) : EReal)
  rw [Ideal.div_coe (hd n), ← EReal.coe_mul, mul_one_div]

/-- The softmax weights of the scores. -/
theorem soft_v37 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal))
    (s : Fin 16384 → Fin 16384 → ℝ) (hs : val_main_v26 (F := Ideal) x0 x1 x2 x3 x4 = c2 s) :
    val_main_v37 (F := Ideal) x0 x1 x2 x3 x4 = c2 (fun n n' => softR (s n) n') := by
  have he := exp_v33 x0 x1 x2 x3 x4 s hs
  have hsum := sum_v34 x0 x1 x2 x3 x4 _ he
  refine div_v37 x0 x1 x2 x3 x4 _ _ (fun n => ?_) he hsum
  exact ne_of_gt (Finset.sum_pos (fun n' _ => Real.exp_pos _) Finset.univ_nonempty)

/-! ## The weights times the values -/

theorem attn_v38 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (w : Fin 16384 → Fin 16384 → ℝ) (V : Fin 16384 → Fin 32 → ℝ)
    (hw : val_main_v37 (F := Ideal) x0 x1 x2 x3 x4 = c2 w) (hV : val_main_v20 (F := Ideal) x0 x5 x6 = c2 V) :
    val_main_v38 (F := Ideal) x0 x1 x2 x3 x4 x5 x6 = c2 (fun n j => ∑ n' : Fin 16384, w n n' * V n' j) := by
  funext i
  obtain ⟨n, j, rfl⟩ : ∃ (n : Fin 16384) (j : Fin 32), i = ix2 n j := ⟨i 0, i 1, eq_ix2 i⟩
  rw [val_main_v38_apply, hw, hV]
  show (∑ k : Fin 16384, ((w n k : ℝ) : EReal) * ((V k j : ℝ) : EReal)) = ((∑ n' : Fin 16384, w n n' * V n' j : ℝ) : EReal)
  simp only [← EReal.coe_mul, coe_sum]

/-! ## The heads joined -/

theorem concat_v41 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (a : Fin 16384 → Fin 32 → ℝ) (ha : val_main_v38 (F := Ideal) x0 x1 x2 x3 x4 x5 x6 = c2 a) :
    val_main_v41 (F := Ideal) x0 x1 x2 x3 x4 x5 x6 = c2 (concatR a) := by
  funext i
  obtain ⟨b, c, rfl⟩ : ∃ (b : Fin 2048) (c : Fin 256), i = ix2 b c := ⟨i 0, i 1, eq_ix2 i⟩
  rw [val_main_v41_apply, val_main_v40_apply, val_main_v39_apply, ha]
  have hb : b.val < 2048 := b.isLt
  have hc : c.val < 256 := c.isLt
  refine c2_at _ _ ⟨b.val * 8 + c.val % 8, by omega⟩ ⟨c.val / 8, by omega⟩ ?_ ?_
  · exact concat_row b.val c.val hb hc
  · exact concat_col b.val c.val hb hc

/-! ## The last projection -/

theorem out_v45 (x0 : (⟨S2048x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
    (t : Fin 2048 → Fin 256 → ℝ) (W : Fin 256 → Fin 256 → ℝ) (b : Fin 256 → ℝ)
    (ht : val_main_v41 (F := Ideal) x0 x1 x2 x3 x4 x5 x6 = c2 t) (hW : x7 = c2 W) (hb : x8 = c1 b) :
    val_main_v45 (F := Ideal) x0 x1 x2 x3 x4 x5 x6 x7 x8 = c2 (linR t W b) := by
  funext i
  obtain ⟨r, j, rfl⟩ : ∃ (r : Fin 2048) (j : Fin 256), i = ix2 r j := ⟨i 0, i 1, eq_ix2 i⟩
  rw [val_main_v45_apply, val_main_v42_apply, val_main_v44_apply, val_main_v43_apply, ht, hW, hb]
  show (∑ k : Fin 256, ((t r k : ℝ) : EReal) * ((W k j : ℝ) : EReal)) + ((b j : ℝ) : EReal) = ((linR t W b r j : ℝ) : EReal)
  simp only [← EReal.coe_mul, coe_sum, ← EReal.coe_add]
  rfl

/-! ## The two results -/

theorem attended_eq (x : Fin 2048 → Fin 256 → ℝ) (Wq : Fin 256 → Fin 256 → ℝ) (bq : Fin 256 → ℝ)
    (Wk : Fin 256 → Fin 256 → ℝ) (bk : Fin 256 → ℝ) (Wv : Fin 256 → Fin 256 → ℝ) (bv : Fin 256 → ℝ) :
    val_main_v41 (F := Ideal) (c2 x) (c2 Wq) (c1 bq) (c2 Wk) (c1 bk) (c2 Wv) (c1 bv)
      = c2 (attendedR x Wq bq Wk bk Wv bv) := by
  have hQ := split_v6 x Wq bq
  have hK := split_v13 x Wk bk
  have hV := split_v20 x Wv bv
  have hs := score_v26 _ _ _ _ _ _ _ hQ hK
  have hw := soft_v37 _ _ _ _ _ _ hs
  have ha := attn_v38 _ _ _ _ _ (c2 Wv) (c1 bv) _ _ hw hV
  exact concat_v41 _ _ _ _ _ _ _ _ ha

theorem outputs_eq (x : Fin 2048 → Fin 256 → ℝ) (Wq : Fin 256 → Fin 256 → ℝ) (bq : Fin 256 → ℝ)
    (Wk : Fin 256 → Fin 256 → ℝ) (bk : Fin 256 → ℝ) (Wv : Fin 256 → Fin 256 → ℝ) (bv : Fin 256 → ℝ)
    (Wo : Fin 256 → Fin 256 → ℝ) (bo : Fin 256 → ℝ) :
    val_main_v45 (F := Ideal) (c2 x) (c2 Wq) (c1 bq) (c2 Wk) (c1 bk) (c2 Wv) (c1 bv) (c2 Wo) (c1 bo)
      = c2 (outputsR x Wq bq Wk bk Wv bv Wo bo) :=
  out_v45 _ _ _ _ _ _ _ _ _ _ _ _ (attended_eq x Wq bq Wk bk Wv bv) rfl rfl

end Stages

/-! ## The run -/

theorem ref_result (m' : (ℓ : Loc nD τ sig) → Buf (Elt Ideal) ℓ) (ρ' : Dev nD → PrngReg)
    (x : Dev nD → Fin 2048 → Fin 256 → ℝ) (Wq : Dev nD → Fin 256 → Fin 256 → ℝ) (bq : Dev nD → Fin 256 → ℝ)
    (Wk : Dev nD → Fin 256 → Fin 256 → ℝ) (bk : Dev nD → Fin 256 → ℝ) (Wv : Dev nD → Fin 256 → Fin 256 → ℝ) (bv : Dev nD → Fin 256 → ℝ)
    (Wo : Dev nD → Fin 256 → Fin 256 → ℝ) (bo : Dev nD → Fin 256 → ℝ)
    (h0 : ∀ c : Dev nD, (m' ((c.tc : Thread nD τ).loc main_arg0) : S2048x256.Idx → EReal) = c2 (x c))
    (h1 : ∀ c : Dev nD, (m' ((c.tc : Thread nD τ).loc main_arg1) : S256x256.Idx → EReal) = c2 (Wq c))
    (h2 : ∀ c : Dev nD, (m' ((c.tc : Thread nD τ).loc main_arg2) : S256.Idx → EReal) = c1 (bq c))
    (h3 : ∀ c : Dev nD, (m' ((c.tc : Thread nD τ).loc main_arg3) : S256x256.Idx → EReal) = c2 (Wk c))
    (h4 : ∀ c : Dev nD, (m' ((c.tc : Thread nD τ).loc main_arg4) : S256.Idx → EReal) = c1 (bk c))
    (h5 : ∀ c : Dev nD, (m' ((c.tc : Thread nD τ).loc main_arg5) : S256x256.Idx → EReal) = c2 (Wv c))
    (h6 : ∀ c : Dev nD, (m' ((c.tc : Thread nD τ).loc main_arg6) : S256.Idx → EReal) = c1 (bv c))
    (h7 : ∀ c : Dev nD, (m' ((c.tc : Thread nD τ).loc main_arg7) : S256x256.Idx → EReal) = c2 (Wo c))
    (h8 : ∀ c : Dev nD, (m' ((c.tc : Thread nD τ).loc main_arg8) : S256.Idx → EReal) = c1 (bo c)) :
    θ_run (Cert.ReferenceIdeal.defs (F := Ideal)) (onTc (τ := τ) (main (F := Ideal))) ⟨m', fun _ => 0, ρ'⟩ (fun r => ∀ c : Dev nD,
      (r.2.mem ((c.tc : Thread nD τ).loc main_v45) : S2048x256.Idx → EReal)
          = c2 (outputsR (x c) (Wq c) (bq c) (Wk c) (bk c) (Wv c) (bv c) (Wo c) (bo c))
      ∧ (r.2.mem ((c.tc : Thread nD τ).loc main_v41) : S2048x256.Idx → EReal)
          = c2 (attendedR (x c) (Wq c) (bq c) (Wk c) (bk c) (Wv c) (bv c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) := by
  refine (θ_run (Cert.ReferenceIdeal.defs (F := Ideal)) _ _).mono (fun r h c => ?_)
    (Cert.ReferenceIdeal.Value.run (F := Ideal) m' ρ')
  obtain ⟨h45, h41, ha0, ha1, ha2, ha3, ha4, ha5, ha6, ha7, ha8⟩ := h c
  refine ⟨?_, ?_, ha0, ha1, ha2, ha3, ha4, ha5, ha6, ha7, ha8⟩
  · refine h45.trans ((Cert.ReferenceIdeal.Read.val_main_v45_eq m' c).trans ?_)
    rw [h0 c, h1 c, h2 c, h3 c, h4 c, h5 c, h6 c, h7 c, h8 c]
    exact outputs_eq _ _ _ _ _ _ _ _ _
  · refine h41.trans ((Cert.ReferenceIdeal.Read.val_main_v41_eq m' c).trans ?_)
    rw [h0 c, h1 c, h2 c, h3 c, h4 c, h5 c, h6 c]
    exact attended_eq _ _ _ _ _ _ _

end Cert.ReferenceIdeal.RefValue

end
-- ==== Proof.lean ====
/-
  The claim: the attention kernel and its jnp reference compute the same two arrays over the extended reals when
  every input is finite, and both programs (and the word-level kernel) run to the end, faulting nowhere, with
  their argument arrays unchanged.

  The kernel is three pipelined regions among host operations: a joint projection `x · [Wq Wk Wv]∘perm + b` whose weight
  columns are permuted in advance so that splitting the heads is a plain regrouping; an attention over all
  16384 regrouped rows whose softmax is accumulated over eight chunks of 2048 keys, the row sums carried as an
  extra column of ones on the values; and the output projection. Each region's frame is its body's run at a
  symbolic grid point chained through the pipeline; the three regions and the host stretches chain from the launch
  memory to the return, where every buffer holds a known function of the launch memory (KIRun, KRun).

  Finite inputs are real arrays (Finite), so both programs are read over the reals (Spec): the kernel's results
  region by region and stretch by stretch (KIVal02, KIVal1, KIHost0, KIHost12, KIValue), the reference's from its
  run read one operation at a time (RefVal). The two real models agree (SoftmaxMath): the permuted regrouping is
  the reference's head split; `exp (m − m') · exp (s − m) = exp (s − m')` turns the chunked accumulator into
  `∑ exp (s − max) · v`, whose quotient by the same sum with `v = 1` is the softmax weights times `V`; scaling the
  queries by 1/16 before the product is dividing the scores by `√256`.
-/
import proofs.«417944_j30408368455794_3_alg».proof.Defs
import proofs.«417944_j30408368455794_3_alg».proof.Proof.Gen.Kernel
import proofs.«417944_j30408368455794_3_alg».proof.Proof.Gen.KernelIdeal
import proofs.«417944_j30408368455794_3_alg».proof.Proof.Gen.ReferenceIdeal
import proofs.«417944_j30408368455794_3_alg».proof.Proof.Gen.ReferenceIdeal.Run
import proofs.«417944_j30408368455794_3_alg».proof.Proof.Gen.Pre_finite_inputs
import proofs.«417944_j30408368455794_3_alg».proof.Proof.KRun
import proofs.«417944_j30408368455794_3_alg».proof.Proof.KIValue
import proofs.«417944_j30408368455794_3_alg».proof.Proof.Finite
import proofs.«417944_j30408368455794_3_alg».proof.Proof.RefVal
import Idealize.ShloMosaic.Adequacy
import Idealize.ShloMosaic.Init

noncomputable section

namespace Cert.Proof

open Idealize.ShloMosaic Idealize.ShloMosaic.TcCoe Idealize.SL.Sem Cert.Spec

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments unchanged: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on finite arguments both programs end with the same two arrays: the real model's
    `outputsR` and `attendedR` of the arguments read as real arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose x Wq bq Wk bk Wv bv Wo bo h using fun c => Cert.KernelIdeal.Hand.finite_args m hpre c
  refine ⟨fun c => c2 (outputsR (x c) (Wq c) (bq c) (Wk c) (bk c) (Wv c) (bv c) (Wo c) (bo c)),
    fun c => c2 (attendedR (x c) (Wq c) (bq c) (Wk c) (bk c) (Wv c) (bv c)),
    Cert.KernelIdeal.Hand.kernel_value m ρ x Wq bq Wk bk Wv bv Wo bo
      (fun c => (h c).1) (fun c => (h c).2.1) (fun c => (h c).2.2.1) (fun c => (h c).2.2.2.1) (fun c => (h c).2.2.2.2.1)
      (fun c => (h c).2.2.2.2.2.1) (fun c => (h c).2.2.2.2.2.2.1) (fun c => (h c).2.2.2.2.2.2.2.1) (fun c => (h c).2.2.2.2.2.2.2.2), ?_⟩
  exact Cert.ReferenceIdeal.RefValue.ref_result m' ρ' x Wq bq Wk bk Wv bv Wo bo
    (fun c => ((hagree c).1).trans (h c).1)
    (fun c => ((hagree c).2.1).trans (h c).2.1)
    (fun c => ((hagree c).2.2.1).trans (h c).2.2.1)
    (fun c => ((hagree c).2.2.2.1).trans (h c).2.2.2.1)
    (fun c => ((hagree c).2.2.2.2.1).trans (h c).2.2.2.2.1)
    (fun c => ((hagree c).2.2.2.2.2.1).trans (h c).2.2.2.2.2.1)
    (fun c => ((hagree c).2.2.2.2.2.2.1).trans (h c).2.2.2.2.2.2.1)
    (fun c => ((hagree c).2.2.2.2.2.2.2.1).trans (h c).2.2.2.2.2.2.2.1)
    (fun c => ((hagree c).2.2.2.2.2.2.2.2).trans (h c).2.2.2.2.2.2.2.2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
